-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  main_v3
-- ==== Kernel.lean ====
abbrev S16x3x512x512 : Shape := ⟨4, ![16, 3, 512, 512]⟩
abbrev S16x512x512x3 : Shape := ⟨4, ![16, 512, 512, 3]⟩
abbrev S16x512x512 : Shape := ⟨3, ![16, 512, 512]⟩
abbrev S3x16x512x512 : Shape := ⟨4, ![3, 16, 512, 512]⟩
abbrev S1x3x32x512 : Shape := ⟨4, ![1, 3, 32, 512]⟩
abbrev S1x32x512x3 : Shape := ⟨4, ![1, 32, 512, 3]⟩
abbrev S1x32x512 : Shape := ⟨3, ![1, 32, 512]⟩
abbrev S3x1x32x512 : Shape := ⟨4, ![3, 1, 32, 512]⟩
abbrev S3x32x512 : Shape := ⟨3, ![3, 32, 512]⟩
abbrev S32x512x3 : Shape := ⟨3, ![32, 512, 3]⟩
abbrev S32x512 : Shape := ⟨2, ![32, 512]⟩
abbrev S1x1x32x512 : Shape := ⟨4, ![1, 1, 32, 512]⟩
abbrev S4194304x3 : Shape := ⟨2, ![4194304, 3]⟩
abbrev S4194304 : Shape := ⟨1, ![4194304]⟩
abbrev S3x4194304 : Shape := ⟨2, ![3, 4194304]⟩
abbrev S4x16x32x32 : Shape := ⟨4, ![4, 16, 32, 32]⟩
abbrev S16x32x32 : Shape := ⟨3, ![16, 32, 32]⟩
abbrev S1x16x32x32 : Shape := ⟨4, ![1, 16, 32, 32]⟩
abbrev S4x16384 : Shape := ⟨2, ![4, 16384]⟩

abbrev nBuf : Space → Nat
  | .hbm => 9
  | .vmem => 9
  | .smem => 0
  | _ => 0

abbrev bufTy : (tb : Table) → Fin (tcTables nBuf tb) → BufTy
  | .hbm, ⟨0, _⟩ => ⟨S16x3x512x512, .f32⟩
  | .hbm, ⟨1, _⟩ => ⟨S16x512x512x3, .f32⟩
  | .hbm, ⟨2, _⟩ => ⟨S16x512x512, .i32⟩
  | .hbm, ⟨3, _⟩ => ⟨S3x16x512x512, .i32⟩
  | .hbm, ⟨4, _⟩ => ⟨S4194304x3, .f32⟩
  | .hbm, ⟨5, _⟩ => ⟨S4194304, .i32⟩
  | .hbm, ⟨6, _⟩ => ⟨S3x4194304, .i32⟩
  | .hbm, ⟨7, _⟩ => ⟨S4x16x32x32, .i32⟩
  | .hbm, ⟨8, _⟩ => ⟨S4x16384, .i32⟩
  | .local _ .vmem, ⟨0, _⟩ => ⟨S1x3x32x512, .f32⟩
  | .local _ .vmem, ⟨1, _⟩ => ⟨S1x3x32x512, .f32⟩
  | .local _ .vmem, ⟨2, _⟩ => ⟨S1x32x512x3, .f32⟩
  | .local _ .vmem, ⟨3, _⟩ => ⟨S1x32x512x3, .f32⟩
  | .local _ .vmem, ⟨4, _⟩ => ⟨S1x32x512, .i32⟩
  | .local _ .vmem, ⟨5, _⟩ => ⟨S1x32x512, .i32⟩
  | .local _ .vmem, ⟨6, _⟩ => ⟨S3x1x32x512, .i32⟩
  | .local _ .vmem, ⟨7, _⟩ => ⟨S3x1x32x512, .i32⟩
  | .local _ .vmem, ⟨8, _⟩ => ⟨S4x16x32x32, .i32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x3x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x32x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S4x16x32x32 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

class Facts₀ : Prop where
  inb_S1x3x32x512_S1x3x32x512_0_0_0_0 : ∀ a, (![0, 0, 0, 0] : Fin 4 → Nat) a + S1x3x32x512.size a ≤ S1x3x32x512.size a
  h_S1x3x32x512 : 0 < S1x3x32x512.numel
  shapeCasts_S1x3x32x512_S3x32x512 : S1x3x32x512.ShapeCasts S3x32x512
  transposes_S3x32x512_p1_2_0_S32x512x3 : S3x32x512.Transposes [1, 2, 0] S32x512x3
  inb_S1x32x512x3_S1x32x512x3_0_0_0_0 : ∀ a, (![0, 0, 0, 0] : Fin 4 → Nat) a + S1x32x512x3.size a ≤ S1x32x512x3.size a
  h_S1x32x512x3 : 0 < S1x32x512x3.numel
  shapeCasts_S1x32x512x3_S32x512x3 : S1x32x512x3.ShapeCasts S32x512x3
  shapeCasts_S32x512x3_S1x32x512x3 : S32x512x3.ShapeCasts S1x32x512x3
  iota_S32x512_d0_w32 : S32x512.Iotas .tc 32 [0]
  iota_S32x512_d1_w32 : S32x512.Iotas .tc 32 [1]
  natLt_1_32 : 1 < 32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S3x1x32x512_S1x1x32x512_0_0_0_0 : ∀ a, (![0, 0, 0, 0] : Fin 4 → Nat) a + S1x1x32x512.size a ≤ S3x1x32x512.size a
  h_S1x1x32x512 : 0 < S1x1x32x512.numel
  shapeCasts_S1x1x32x512_S32x512 : S1x1x32x512.ShapeCasts S32x512
  shapeCasts_S32x512_S1x1x32x512 : S32x512.ShapeCasts S1x1x32x512
  inb_S3x1x32x512_S1x1x32x512_1_0_0_0 : ∀ a, (![1, 0, 0, 0] : Fin 4 → Nat) a + S1x1x32x512.size a ≤ S3x1x32x512.size a
  inb_S3x1x32x512_S1x1x32x512_2_0_0_0 : ∀ a, (![2, 0, 0, 0] : Fin 4 → Nat) a + S1x1x32x512.size a ≤ S3x1x32x512.size a
  shapeCasts_S16x512x512x3_S4194304x3 : S16x512x512x3.ShapeCasts S4194304x3
  shapeCasts_S16x512x512_S4194304 : S16x512x512.ShapeCasts S4194304
  shapeCasts_S3x16x512x512_S3x4194304 : S3x16x512x512.ShapeCasts S3x4194304
  iota_S16x32x32_d1_w32 : S16x32x32.Iotas .tc 32 [1]
  iota_S16x32x32_d2_w32 : S16x32x32.Iotas .tc 32 [2]
  inb_S4x16x32x32_S1x16x32x32_0_0_0_0 : ∀ a, (![0, 0, 0, 0] : Fin 4 → Nat) a + S1x16x32x32.size a ≤ S4x16x32x32.size a
  h_S1x16x32x32 : 0 < S1x16x32x32.numel
  shapeCasts_S1x16x32x32_S16x32x32 : S1x16x32x32.ShapeCasts S16x32x32
  shapeCasts_S16x32x32_S1x16x32x32 : S16x32x32.ShapeCasts S1x16x32x32
  inb_S4x16x32x32_S1x16x32x32_1_0_0_0 : ∀ a, (![1, 0, 0, 0] : Fin 4 → Nat) a + S1x16x32x32.size a ≤ S4x16x32x32.size a
  inb_S4x16x32x32_S1x16x32x32_2_0_0_0 : ∀ a, (![2, 0, 0, 0] : Fin 4 → Nat) a + S1x16x32x32.size a ≤ S4x16x32x32.size a
  inb_S4x16x32x32_S1x16x32x32_3_0_0_0 : ∀ a, (![3, 0, 0, 0] : Fin 4 → Nat) a + S1x16x32x32.size a ≤ S4x16x32x32.size a
  shapeCasts_S4x16x32x32_S4x16384 : S4x16x32x32.ShapeCasts S4x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32x512.size a ≤ S16x3x512x512.size a
  hwx0_0 : ∀ i : grid0.Coords, EltTy.bits .f32 = 32 ∨ (Rect.block (s := S16x3x512x512) S1x3x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512x3.size a ≤ S16x512x512x3.size a
  hwx0_1 : ∀ i : grid0.Coords, EltTy.bits .f32 = 32 ∨ (Rect.block (s := S16x512x512x3) S1x32x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S16x512x512.size a
  hwx0_2 : ∀ i : grid0.Coords, EltTy.bits .i32 = 32 ∨ (Rect.block (s := S16x512x512) S1x32x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1x32x512.size a ≤ S3x16x512x512.size a
  hwx0_3 : ∀ i : grid0.Coords, EltTy.bits .i32 = 32 ∨ (Rect.block (s := S3x16x512x512) S3x1x32x512.size (cc0_transform_3 i) (hinb0_3 i)).WholeWords (EltTy.packing .i32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x16x32x32.size a ≤ S4x16x32x32.size a
  hwx1_0 : ∀ i : grid1.Coords, EltTy.bits .i32 = 32 ∨ (Rect.block (s := S4x16x32x32) S4x16x32x32.size (cc1_transform_0 i) (hinb1_0 i)).WholeWords (EltTy.packing .i32)

variable [Facts₀]

abbrev win0_0 : Pipeline.Window sig grid0 :=
  Pipeline.Window.ofSpec (Memref.whole main_arg0) S1x3x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x32x512x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x32x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S3x1x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4x16x32x32.size cc1_transform_0 reads1_0 true true 1 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S16x3x512x512 : Shape := ⟨4, ![16, 3, 512, 512]⟩
abbrev S4194304 : Shape := ⟨1, ![4194304]⟩
abbrev S_ : Shape := ⟨0, ![]⟩
abbrev S16x512x512x3 : Shape := ⟨4, ![16, 512, 512, 3]⟩
abbrev S4194304x3 : Shape := ⟨2, ![4194304, 3]⟩
abbrev S16384 : Shape := ⟨1, ![16384]⟩
abbrev S4194304x1 : Shape := ⟨2, ![4194304, 1]⟩
abbrev S1x16384 : Shape := ⟨2, ![1, 16384]⟩
abbrev S4x16384 : Shape := ⟨2, ![4, 16384]⟩
abbrev S1x4194304 : Shape := ⟨2, ![1, 4194304]⟩
abbrev S3x4194304 : Shape := ⟨2, ![3, 4194304]⟩

abbrev nBuf : Space → Nat
  | .hbm => 217
  | .vmem => 0
  | .smem => 0
  | _ => 0

abbrev hbmTy0_0 (i : Nat) : BufTy := match i % 128 with
  | 0 => ⟨S16x3x512x512, .f32⟩
  | 1 => ⟨S4194304, .i32⟩
  | 2 => ⟨S_, .i32⟩
  | 3 => ⟨S_, .i32⟩
  | 4 => ⟨S4194304, .i32⟩
  | 5 => ⟨S4194304, .i32⟩
  | 6 => ⟨S4194304, .i32⟩
  | 7 => ⟨S_, .i32⟩
  | 8 => ⟨S4194304, .i32⟩
  | 9 => ⟨S4194304, .i1⟩
  | 10 => ⟨S4194304, .i32⟩
  | 11 => ⟨S4194304, .i32⟩
  | 12 => ⟨S_, .i32⟩
  | 13 => ⟨S4194304, .i32⟩
  | 14 => ⟨S4194304, .i1⟩
  | 15 => ⟨S4194304, .i1⟩
  | 16 => ⟨S_, .i32⟩
  | 17 => ⟨S4194304, .i32⟩
  | 18 => ⟨S4194304, .i32⟩
  | 19 => ⟨S4194304, .i32⟩
  | 20 => ⟨S_, .i32⟩
  | 21 => ⟨S_, .i1⟩
  | 22 => ⟨S_, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i1⟩
  | 29 => ⟨S_, .i32⟩
  | 30 => ⟨S4194304, .i32⟩
  | 31 => ⟨S4194304, .i1⟩
  | 32 => ⟨S_, .i32⟩
  | 33 => ⟨S_, .i1⟩
  | 34 => ⟨S4194304, .i1⟩
  | 35 => ⟨S4194304, .i1⟩
  | 36 => ⟨S4194304, .i1⟩
  | 37 => ⟨S4194304, .i32⟩
  | 38 => ⟨S4194304, .i32⟩
  | 39 => ⟨S4194304, .i32⟩
  | 40 => ⟨S_, .i32⟩
  | 41 => ⟨S_, .i32⟩
  | 42 => ⟨S4194304, .i32⟩
  | 43 => ⟨S4194304, .i32⟩
  | 44 => ⟨S4194304, .i32⟩
  | 45 => ⟨S_, .i32⟩
  | 46 => ⟨S4194304, .i32⟩
  | 47 => ⟨S4194304, .i1⟩
  | 48 => ⟨S4194304, .i32⟩
  | 49 => ⟨S4194304, .i32⟩
  | 50 => ⟨S_, .i32⟩
  | 51 => ⟨S4194304, .i32⟩
  | 52 => ⟨S4194304, .i1⟩
  | 53 => ⟨S4194304, .i1⟩
  | 54 => ⟨S_, .i32⟩
  | 55 => ⟨S4194304, .i32⟩
  | 56 => ⟨S4194304, .i32⟩
  | 57 => ⟨S4194304, .i32⟩
  | 58 => ⟨S_, .i32⟩
  | 59 => ⟨S_, .i1⟩
  | 60 => ⟨S_, .i32⟩
  | 61 => ⟨S_, .i32⟩
  | 62 => ⟨S4194304, .i32⟩
  | 63 => ⟨S4194304, .i32⟩
  | 64 => ⟨S_, .i32⟩
  | 65 => ⟨S4194304, .i32⟩
  | 66 => ⟨S4194304, .i1⟩
  | 67 => ⟨S_, .i32⟩
  | 68 => ⟨S4194304, .i32⟩
  | 69 => ⟨S4194304, .i1⟩
  | 70 => ⟨S_, .i32⟩
  | 71 => ⟨S_, .i1⟩
  | 72 => ⟨S4194304, .i1⟩
  | 73 => ⟨S4194304, .i1⟩
  | 74 => ⟨S4194304, .i1⟩
  | 75 => ⟨S4194304, .i32⟩
  | 76 => ⟨S4194304, .i32⟩
  | 77 => ⟨S4194304, .i32⟩
  | 78 => ⟨S_, .i32⟩
  | 79 => ⟨S_, .i32⟩
  | 80 => ⟨S4194304, .i32⟩
  | 81 => ⟨S4194304, .i32⟩
  | 82 => ⟨S4194304, .i32⟩
  | 83 => ⟨S_, .i32⟩
  | 84 => ⟨S4194304, .i32⟩
  | 85 => ⟨S4194304, .i1⟩
  | 86 => ⟨S4194304, .i32⟩
  | 87 => ⟨S4194304, .i32⟩
  | 88 => ⟨S_, .i32⟩
  | 89 => ⟨S4194304, .i32⟩
  | 90 => ⟨S4194304, .i1⟩
  | 91 => ⟨S4194304, .i1⟩
  | 92 => ⟨S_, .i32⟩
  | 93 => ⟨S4194304, .i32⟩
  | 94 => ⟨S4194304, .i32⟩
  | 95 => ⟨S4194304, .i32⟩
  | 96 => ⟨S_, .i32⟩
  | 97 => ⟨S_, .i1⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i1⟩
  | 105 => ⟨S_, .i32⟩
  | 106 => ⟨S4194304, .i32⟩
  | 107 => ⟨S4194304, .i1⟩
  | 108 => ⟨S_, .i32⟩
  | 109 => ⟨S_, .i1⟩
  | 110 => ⟨S4194304, .i1⟩
  | 111 => ⟨S4194304, .i1⟩
  | 112 => ⟨S4194304, .i1⟩
  | 113 => ⟨S4194304, .i32⟩
  | 114 => ⟨S4194304, .i32⟩
  | 115 => ⟨S4194304, .i32⟩
  | 116 => ⟨S_, .i32⟩
  | 117 => ⟨S4194304, .i32⟩
  | 118 => ⟨S4194304, .i1⟩
  | 119 => ⟨S_, .i32⟩
  | 120 => ⟨S4194304, .i32⟩
  | 121 => ⟨S4194304, .i1⟩
  | 122 => ⟨S_, .i32⟩
  | 123 => ⟨S_, .i32⟩
  | 124 => ⟨S4194304, .i32⟩
  | 125 => ⟨S4194304, .i32⟩
  | 126 => ⟨S_, .i32⟩
  | 127 => ⟨S_, .i32⟩
  | _ => ⟨S16x3x512x512, .f32⟩

abbrev hbmTy0_1 (i : Nat) : BufTy := match i % 128 with
  | 0 => ⟨S4194304, .i32⟩
  | 1 => ⟨S4194304, .i32⟩
  | 2 => ⟨S_, .i32⟩
  | 3 => ⟨S_, .i32⟩
  | 4 => ⟨S4194304, .i32⟩
  | 5 => ⟨S4194304, .i32⟩
  | 6 => ⟨S_, .i32⟩
  | 7 => ⟨S_, .i32⟩
  | 8 => ⟨S4194304, .i32⟩
  | 9 => ⟨S4194304, .i32⟩
  | 10 => ⟨S_, .i32⟩
  | 11 => ⟨S_, .i32⟩
  | 12 => ⟨S4194304, .i32⟩
  | 13 => ⟨S4194304, .i32⟩
  | 14 => ⟨S_, .i32⟩
  | 15 => ⟨S_, .i32⟩
  | 16 => ⟨S4194304, .i32⟩
  | 17 => ⟨S4194304, .i32⟩
  | 18 => ⟨S_, .i32⟩
  | 19 => ⟨S4194304, .i32⟩
  | 20 => ⟨S4194304, .i32⟩
  | 21 => ⟨S_, .i32⟩
  | 22 => ⟨S_, .i32⟩
  | 23 => ⟨S4194304, .i32⟩
  | 24 => ⟨S4194304, .i32⟩
  | 25 => ⟨S4194304, .i32⟩
  | 26 => ⟨S_, .i32⟩
  | 27 => ⟨S4194304, .i32⟩
  | 28 => ⟨S4194304, .i1⟩
  | 29 => ⟨S4194304, .i32⟩
  | 30 => ⟨S4194304, .i32⟩
  | 31 => ⟨S_, .i32⟩
  | 32 => ⟨S4194304, .i32⟩
  | 33 => ⟨S4194304, .i1⟩
  | 34 => ⟨S4194304, .i1⟩
  | 35 => ⟨S_, .i32⟩
  | 36 => ⟨S4194304, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S4194304, .i32⟩
  | 43 => ⟨S_, .i32⟩
  | 44 => ⟨S_, .i32⟩
  | 45 => ⟨S4194304, .i32⟩
  | 46 => ⟨S4194304, .i32⟩
  | 47 => ⟨S4194304, .i32⟩
  | 48 => ⟨S_, .i32⟩
  | 49 => ⟨S4194304, .i32⟩
  | 50 => ⟨S4194304, .i1⟩
  | 51 => ⟨S4194304, .i32⟩
  | 52 => ⟨S4194304, .i32⟩
  | 53 => ⟨S_, .i32⟩
  | 54 => ⟨S4194304, .i32⟩
  | 55 => ⟨S4194304, .i1⟩
  | 56 => ⟨S4194304, .i1⟩
  | 57 => ⟨S_, .i32⟩
  | 58 => ⟨S4194304, .i32⟩
  | 59 => ⟨S4194304, .i32⟩
  | 60 => ⟨S4194304, .i32⟩
  | 61 => ⟨S4194304, .i32⟩
  | 62 => ⟨S16x512x512x3, .f32⟩
  | 63 => ⟨S4194304x3, .f32⟩
  | 64 => ⟨S_, .i32⟩
  | 65 => ⟨S16384, .i32⟩
  | 66 => ⟨S4194304x1, .i32⟩
  | 67 => ⟨S16384, .i32⟩
  | 68 => ⟨S_, .i32⟩
  | 69 => ⟨S16384, .i32⟩
  | 70 => ⟨S4194304x1, .i32⟩
  | 71 => ⟨S16384, .i32⟩
  | 72 => ⟨S_, .i32⟩
  | 73 => ⟨S16384, .i32⟩
  | 74 => ⟨S4194304x1, .i32⟩
  | 75 => ⟨S16384, .i32⟩
  | 76 => ⟨S_, .i32⟩
  | 77 => ⟨S16384, .i32⟩
  | 78 => ⟨S4194304x1, .i32⟩
  | 79 => ⟨S16384, .i32⟩
  | 80 => ⟨S1x16384, .i32⟩
  | 81 => ⟨S1x16384, .i32⟩
  | 82 => ⟨S1x16384, .i32⟩
  | 83 => ⟨S1x16384, .i32⟩
  | 84 => ⟨S4x16384, .i32⟩
  | 85 => ⟨S1x4194304, .i32⟩
  | 86 => ⟨S1x4194304, .i32⟩
  | 87 => ⟨S1x4194304, .i32⟩
  | 88 => ⟨S3x4194304, .i32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_c : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_c_0 : Ref sig .tc := ⟨.hbm, 16, rfl⟩
abbrev main_call0_call0_v11 : Ref sig .tc := ⟨.hbm, 17, rfl⟩
abbrev main_call0_call0_v12 : Ref sig .tc := ⟨.hbm, 18, rfl⟩
abbrev main_v1_0 : Ref sig .tc := ⟨.hbm, 19, rfl⟩
abbrev main_call0_call1_c : Ref sig .tc := ⟨.hbm, 20, rfl⟩
abbrev main_call0_call1_v0 : Ref sig .tc := ⟨.hbm, 21, rfl⟩
abbrev main_call0_call1_c_0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_c_1 : Ref sig .tc := ⟨.hbm, 26, rfl⟩
abbrev main_call0_call1_v4 : Ref sig .tc := ⟨.hbm, 27, rfl⟩
abbrev main_call0_call1_v5 : Ref sig .tc := ⟨.hbm, 28, rfl⟩
abbrev main_call0_call1_c_2 : Ref sig .tc := ⟨.hbm, 29, rfl⟩
abbrev main_call0_call1_v6 : Ref sig .tc := ⟨.hbm, 30, rfl⟩
abbrev main_call0_call1_v7 : Ref sig .tc := ⟨.hbm, 31, rfl⟩
abbrev main_call0_call1_c_3 : Ref sig .tc := ⟨.hbm, 32, rfl⟩
abbrev main_call0_call1_v8 : Ref sig .tc := ⟨.hbm, 33, rfl⟩
abbrev main_call0_call1_v9 : Ref sig .tc := ⟨.hbm, 34, rfl⟩
abbrev main_call0_call1_v10 : Ref sig .tc := ⟨.hbm, 35, rfl⟩
abbrev main_call0_call1_v11 : Ref sig .tc := ⟨.hbm, 36, rfl⟩
abbrev main_call0_call1_v12 : Ref sig .tc := ⟨.hbm, 37, rfl⟩
abbrev main_call0_call1_v13 : Ref sig .tc := ⟨.hbm, 38, rfl⟩
abbrev main_v1_1 : Ref sig .tc := ⟨.hbm, 39, rfl⟩
abbrev main_c_0 : Ref sig .tc := ⟨.hbm, 40, rfl⟩
abbrev main_call1_v0 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_c : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_c_0 : Ref sig .tc := ⟨.hbm, 54, rfl⟩
abbrev main_call1_call0_v11 : Ref sig .tc := ⟨.hbm, 55, rfl⟩
abbrev main_call1_call0_v12 : Ref sig .tc := ⟨.hbm, 56, rfl⟩
abbrev main_v2_0 : Ref sig .tc := ⟨.hbm, 57, rfl⟩
abbrev main_call1_call1_c : Ref sig .tc := ⟨.hbm, 58, rfl⟩
abbrev main_call1_call1_v0 : Ref sig .tc := ⟨.hbm, 59, rfl⟩
abbrev main_call1_call1_c_0 : Ref sig .tc := ⟨.hbm, 60, rfl⟩
abbrev main_call1_call1_v1 : Ref sig .tc := ⟨.hbm, 61, rfl⟩
abbrev main_call1_call1_v2 : Ref sig .tc := ⟨.hbm, 62, rfl⟩
abbrev main_call1_call1_v3 : Ref sig .tc := ⟨.hbm, 63, rfl⟩
abbrev main_call1_call1_c_1 : Ref sig .tc := ⟨.hbm, 64, rfl⟩
abbrev main_call1_call1_v4 : Ref sig .tc := ⟨.hbm, 65, rfl⟩
abbrev main_call1_call1_v5 : Ref sig .tc := ⟨.hbm, 66, rfl⟩
abbrev main_call1_call1_c_2 : Ref sig .tc := ⟨.hbm, 67, rfl⟩
abbrev main_call1_call1_v6 : Ref sig .tc := ⟨.hbm, 68, rfl⟩
abbrev main_call1_call1_v7 : Ref sig .tc := ⟨.hbm, 69, rfl⟩
abbrev main_call1_call1_c_3 : Ref sig .tc := ⟨.hbm, 70, rfl⟩
abbrev main_call1_call1_v8 : Ref sig .tc := ⟨.hbm, 71, rfl⟩
abbrev main_call1_call1_v9 : Ref sig .tc := ⟨.hbm, 72, rfl⟩
abbrev main_call1_call1_v10 : Ref sig .tc := ⟨.hbm, 73, rfl⟩
abbrev main_call1_call1_v11 : Ref sig .tc := ⟨.hbm, 74, rfl⟩
abbrev main_call1_call1_v12 : Ref sig .tc := ⟨.hbm, 75, rfl⟩
abbrev main_call1_call1_v13 : Ref sig .tc := ⟨.hbm, 76, rfl⟩
abbrev main_v2_1 : Ref sig .tc := ⟨.hbm, 77, rfl⟩
abbrev main_c_1 : Ref sig .tc := ⟨.hbm, 78, rfl⟩
abbrev main_call2_v0 : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_c : Ref sig .tc := ⟨.hbm, 88, rfl⟩
abbrev main_call2_call0_v8 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_c_0 : Ref sig .tc := ⟨.hbm, 92, rfl⟩
abbrev main_call2_call0_v11 : Ref sig .tc := ⟨.hbm, 93, rfl⟩
abbrev main_call2_call0_v12 : Ref sig .tc := ⟨.hbm, 94, rfl⟩
abbrev main_v3_0 : Ref sig .tc := ⟨.hbm, 95, rfl⟩
abbrev main_call2_call1_c : Ref sig .tc := ⟨.hbm, 96, rfl⟩
abbrev main_call2_call1_v0 : Ref sig .tc := ⟨.hbm, 97, rfl⟩
abbrev main_call2_call1_c_0 : Ref sig .tc := ⟨.hbm, 98, rfl⟩
abbrev main_call2_call1_v1 : Ref sig .tc := ⟨.hbm, 99, rfl⟩
abbrev main_call2_call1_v2 : Ref sig .tc := ⟨.hbm, 100, rfl⟩
abbrev main_call2_call1_v3 : Ref sig .tc := ⟨.hbm, 101, rfl⟩
abbrev main_call2_call1_c_1 : Ref sig .tc := ⟨.hbm, 102, rfl⟩
abbrev main_call2_call1_v4 : Ref sig .tc := ⟨.hbm, 103, rfl⟩
abbrev main_call2_call1_v5 : Ref sig .tc := ⟨.hbm, 104, rfl⟩
abbrev main_call2_call1_c_2 : Ref sig .tc := ⟨.hbm, 105, rfl⟩
abbrev main_call2_call1_v6 : Ref sig .tc := ⟨.hbm, 106, rfl⟩
abbrev main_call2_call1_v7 : Ref sig .tc := ⟨.hbm, 107, rfl⟩
abbrev main_call2_call1_c_3 : Ref sig .tc := ⟨.hbm, 108, rfl⟩
abbrev main_call2_call1_v8 : Ref sig .tc := ⟨.hbm, 109, rfl⟩
abbrev main_call2_call1_v9 : Ref sig .tc := ⟨.hbm, 110, rfl⟩
abbrev main_call2_call1_v10 : Ref sig .tc := ⟨.hbm, 111, rfl⟩
abbrev main_call2_call1_v11 : Ref sig .tc := ⟨.hbm, 112, rfl⟩
abbrev main_call2_call1_v12 : Ref sig .tc := ⟨.hbm, 113, rfl⟩
abbrev main_call2_call1_v13 : Ref sig .tc := ⟨.hbm, 114, rfl⟩
abbrev main_v3_1 : Ref sig .tc := ⟨.hbm, 115, rfl⟩
abbrev main_c_2 : Ref sig .tc := ⟨.hbm, 116, rfl⟩
abbrev main_v4 : Ref sig .tc := ⟨.hbm, 117, rfl⟩
abbrev main_v5 : Ref sig .tc := ⟨.hbm, 118, rfl⟩
abbrev main_c_3 : Ref sig .tc := ⟨.hbm, 119, rfl⟩
abbrev main_v6 : Ref sig .tc := ⟨.hbm, 120, rfl⟩
abbrev main_v7 : Ref sig .tc := ⟨.hbm, 121, rfl⟩
abbrev main_c_4 : Ref sig .tc := ⟨.hbm, 122, rfl⟩
abbrev main_call3_v0 : Ref sig .tc := ⟨.hbm, 123, rfl⟩
abbrev main_call3_v1 : Ref sig .tc := ⟨.hbm, 124, rfl⟩
abbrev main_v8 : Ref sig .tc := ⟨.hbm, 125, rfl⟩
abbrev main_c_5 : Ref sig .tc := ⟨.hbm, 126, rfl⟩
abbrev main_call4_v0 : Ref sig .tc := ⟨.hbm, 127, rfl⟩
abbrev main_call4_v1 : Ref sig .tc := ⟨.hbm, 128, rfl⟩
abbrev main_v9 : Ref sig .tc := ⟨.hbm, 129, rfl⟩
abbrev main_c_6 : Ref sig .tc := ⟨.hbm, 130, rfl⟩
abbrev main_call5_v0 : Ref sig .tc := ⟨.hbm, 131, rfl⟩
abbrev main_call5_v1 : Ref sig .tc := ⟨.hbm, 132, rfl⟩
abbrev main_v10 : Ref sig .tc := ⟨.hbm, 133, rfl⟩
abbrev main_c_7 : Ref sig .tc := ⟨.hbm, 134, rfl⟩
abbrev main_call6_v0 : Ref sig .tc := ⟨.hbm, 135, rfl⟩
abbrev main_call6_v1 : Ref sig .tc := ⟨.hbm, 136, rfl⟩
abbrev main_v11 : Ref sig .tc := ⟨.hbm, 137, rfl⟩
abbrev main_c_8 : Ref sig .tc := ⟨.hbm, 138, rfl⟩
abbrev main_call7_v0 : Ref sig .tc := ⟨.hbm, 139, rfl⟩
abbrev main_call7_v1 : Ref sig .tc := ⟨.hbm, 140, rfl⟩
abbrev main_v12 : Ref sig .tc := ⟨.hbm, 141, rfl⟩
abbrev main_c_9 : Ref sig .tc := ⟨.hbm, 142, rfl⟩
abbrev main_call8_v0 : Ref sig .tc := ⟨.hbm, 143, rfl⟩
abbrev main_call8_v1 : Ref sig .tc := ⟨.hbm, 144, rfl⟩
abbrev main_v13 : Ref sig .tc := ⟨.hbm, 145, rfl⟩
abbrev main_c_10 : Ref sig .tc := ⟨.hbm, 146, rfl⟩
abbrev main_v14 : Ref sig .tc := ⟨.hbm, 147, rfl⟩
abbrev main_v15 : Ref sig .tc := ⟨.hbm, 148, rfl⟩
abbrev main_c_11 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_call9_v3 : Ref sig .tc := ⟨.hbm, 153, rfl⟩
abbrev main_call9_v4 : Ref sig .tc := ⟨.hbm, 154, rfl⟩
abbrev main_call9_v5 : Ref sig .tc := ⟨.hbm, 155, rfl⟩
abbrev main_call9_v6 : Ref sig .tc := ⟨.hbm, 156, rfl⟩
abbrev main_call9_v7 : Ref sig .tc := ⟨.hbm, 157, rfl⟩
abbrev main_call9_v8 : Ref sig .tc := ⟨.hbm, 158, rfl⟩
abbrev main_call9_c : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_0 : Ref sig .tc := ⟨.hbm, 163, rfl⟩
abbrev main_call9_v12 : Ref sig .tc := ⟨.hbm, 164, rfl⟩
abbrev main_call9_v13 : Ref sig .tc := ⟨.hbm, 165, rfl⟩
abbrev main_v16 : Ref sig .tc := ⟨.hbm, 166, rfl⟩
abbrev main_c_12 : Ref sig .tc := ⟨.hbm, 167, rfl⟩
abbrev main_v17 : Ref sig .tc := ⟨.hbm, 168, rfl⟩
abbrev main_v18 : Ref sig .tc := ⟨.hbm, 169, rfl⟩
abbrev main_v19 : Ref sig .tc := ⟨.hbm, 170, rfl⟩
abbrev main_c_13 : Ref sig .tc := ⟨.hbm, 171, rfl⟩
abbrev main_call10_v0 : Ref sig .tc := ⟨.hbm, 172, rfl⟩
abbrev main_call10_v1 : Ref sig .tc := ⟨.hbm, 173, rfl⟩
abbrev main_call10_v2 : Ref sig .tc := ⟨.hbm, 174, rfl⟩
abbrev main_call10_v3 : Ref sig .tc := ⟨.hbm, 175, rfl⟩
abbrev main_call10_v4 : Ref sig .tc := ⟨.hbm, 176, rfl⟩
abbrev main_call10_v5 : Ref sig .tc := ⟨.hbm, 177, rfl⟩
abbrev main_call10_v6 : Ref sig .tc := ⟨.hbm, 178, rfl⟩
abbrev main_call10_v7 : Ref sig .tc := ⟨.hbm, 179, rfl⟩
abbrev main_call10_v8 : Ref sig .tc := ⟨.hbm, 180, rfl⟩
abbrev main_call10_c : Ref sig .tc := ⟨.hbm, 181, rfl⟩
abbrev main_call10_v9 : Ref sig .tc := ⟨.hbm, 182, rfl⟩
abbrev main_call10_v10 : Ref sig .tc := ⟨.hbm, 183, rfl⟩
abbrev main_call10_v11 : Ref sig .tc := ⟨.hbm, 184, rfl⟩
abbrev main_call10_c_0 : Ref sig .tc := ⟨.hbm, 185, rfl⟩
abbrev main_call10_v12 : Ref sig .tc := ⟨.hbm, 186, rfl⟩
abbrev main_call10_v13 : Ref sig .tc := ⟨.hbm, 187, rfl⟩
abbrev main_v20 : Ref sig .tc := ⟨.hbm, 188, rfl⟩
abbrev main_v21 : Ref sig .tc := ⟨.hbm, 189, rfl⟩
abbrev main_v22 : Ref sig .tc := ⟨.hbm, 190, rfl⟩
abbrev main_v23 : Ref sig .tc := ⟨.hbm, 191, rfl⟩
abbrev main_c_14 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_c_15 : Ref sig .tc := ⟨.hbm, 196, rfl⟩
abbrev main_v27 : Ref sig .tc := ⟨.hbm, 197, rfl⟩
abbrev main_v28 : Ref sig .tc := ⟨.hbm, 198, rfl⟩
abbrev main_v29 : Ref sig .tc := ⟨.hbm, 199, rfl⟩
abbrev main_c_16 : Ref sig .tc := ⟨.hbm, 200, rfl⟩
abbrev main_v30 : Ref sig .tc := ⟨.hbm, 201, rfl⟩
abbrev main_v31 : Ref sig .tc := ⟨.hbm, 202, rfl⟩
abbrev main_v32 : Ref sig .tc := ⟨.hbm, 203, rfl⟩
abbrev main_c_17 : Ref sig .tc := ⟨.hbm, 204, rfl⟩
abbrev main_v33 : Ref sig .tc := ⟨.hbm, 205, rfl⟩
abbrev main_v34 : Ref sig .tc := ⟨.hbm, 206, rfl⟩
abbrev main_v35 : Ref sig .tc := ⟨.hbm, 207, rfl⟩
abbrev main_v36 : Ref sig .tc := ⟨.hbm, 208, rfl⟩
abbrev main_v37 : Ref sig .tc := ⟨.hbm, 209, rfl⟩
abbrev main_v38 : Ref sig .tc := ⟨.hbm, 210, rfl⟩
abbrev main_v39 : Ref sig .tc := ⟨.hbm, 211, rfl⟩
abbrev main_v40 : Ref sig .tc := ⟨.hbm, 212, rfl⟩
abbrev main_v41 : Ref sig .tc := ⟨.hbm, 213, rfl⟩
abbrev main_v42 : Ref sig .tc := ⟨.hbm, 214, rfl⟩
abbrev main_v43 : Ref sig .tc := ⟨.hbm, 215, rfl⟩
abbrev main_v44 : Ref sig .tc := ⟨.hbm, 216, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  transposes_S16x3x512x512_S16x512x512x3_0_2_3_1 : S16x3x512x512.Transposes [0, 2, 3, 1] S16x512x512x3
  shapeCasts_S16x512x512x3_S4194304x3 : S16x512x512x3.ShapeCasts S4194304x3
  bcast_S_S16384 : S_.BroadcastsInDim S16384 (![] : Fin 0 → Fin S16384.rank)
  bcast_S4194304_S4194304x1_0 : S4194304.BroadcastsInDim S4194304x1 (![0] : Fin 1 → Fin S4194304x1.rank)
  bcast_S16384_S1x16384_1 : S16384.BroadcastsInDim S1x16384 (![1] : Fin 1 → Fin S1x16384.rank)
  concatenates_S1x16384_S1x16384_S1x16384_S1x16384_S4x16384_d0 : Shape.Concatenates [S1x16384, S1x16384, S1x16384, S1x16384] S4x16384 0
  bcast_S4194304_S1x4194304_1 : S4194304.BroadcastsInDim S1x4194304 (![1] : Fin 1 → Fin S1x4194304.rank)
  concatenates_S1x4194304_S1x4194304_S1x4194304_S3x4194304_d0 : Shape.Concatenates [S1x4194304, S1x4194304, S1x4194304] S3x4194304 0
  scatter_S16384_S4194304x1_S4194304_n_0_0_1_wf : ScatterDims.WF S16384 S4194304x1 S4194304 [] [0] [0] 1

variable [Facts₀]

def scatter_S16384_S4194304x1_S4194304_n_0_0_1 : ScatterDims S16384 S4194304x1 S4194304 where
  updateWindowDims := []
  insertedWindowDims := [0]
  scatterDimsToOperandDims := [0]
  indexVectorDim := 1
  wf := scatter_S16384_S4194304x1_S4194304_n_0_0_1_wf

class Facts : Prop extends Facts₀ where

variable [Facts]
-- ==== Proof.Spec.lean ====
/-
  What both programs compute, as plain functions of the image and of array indices.

  A pixel of the batch is numbered n = b·512·512 + y·512 + x (image b of 16, row y, column x, all 512 wide), so
  b = n / 262144, y = n / 512 % 512, x = n % 512.  The image is cut into 16×16 patches, 32 by 32 of them per image, and the patch
  of pixel n is numbered s = b·1024 + (y / 16)·32 + x / 16.  Four arrays are produced:
    · the pixel features: pixel n's three channels, i.e. the image with its channel axis moved last and the pixel axes flattened;
    · the patch number of every pixel;
    · the three coordinates (b, y, x) of every pixel;
    · for every patch s its bounding box: least row, least column, greatest row, greatest column over the patch's pixels.
      A patch is a full 16×16 square, rows (s / 32 % 32)·16 … +15 and columns (s % 32)·16 … +15.
  No floating-point arithmetic occurs: the features are a re-indexing of the input, the rest are 32-bit integers that never
  reach 2^31.
-/
import Idealize.ShloMosaic.Lib.ValueIdx

noncomputable section

namespace Cert.Spec

open Idealize.ShloMosaic Idealize.ShloMosaic.ValueIdx

/-- The image batch [16, 3, 512, 512]. -/
abbrev SImg : Shape := ⟨4, ![16, 3, 512, 512]⟩
/-- Pixel features [16·512·512, 3]. -/
abbrev SFv : Shape := ⟨2, ![4194304, 3]⟩
/-- One word per pixel. -/
abbrev SSeg : Shape := ⟨1, ![4194304]⟩
/-- Three words per pixel, coordinate-major. -/
abbrev SByx : Shape := ⟨2, ![3, 4194304]⟩
/-- Four words per patch, bound-major. -/
abbrev SBb : Shape := ⟨2, ![4, 16384]⟩

/-- Image, row and column of pixel n. -/
def pb (n : ℕ) : ℕ := n / 262144
def py (n : ℕ) : ℕ := n / 512 % 512
def px (n : ℕ) : ℕ := n % 512

theorem pb_lt {n : ℕ} (h : n < 4194304) : pb n < 16 := by unfold pb; omega
theorem py_lt (n : ℕ) : py n < 512 := by unfold py; omega
theorem px_lt (n : ℕ) : px n < 512 := by unfold px; omega

/-- The patch number of pixel n. -/
def segOf (n : ℕ) : ℕ := pb n * 1024 + py n / 16 * 32 + px n / 16

theorem segOf_lt {n : ℕ} (h : n < 4194304) : segOf n < 16384 := by unfold segOf pb py px; omega

/-- Pixel features: entry (n, ch) is channel ch of pixel n. -/
def fV {α : Type} (img : SImg.Idx → α) : SFv.Idx → α := fun j =>
  img (ix4 (⟨pb (j 0).val, pb_lt (idx2_lt0 j)⟩ : Fin 16) (⟨(j 1).val, idx2_lt1 j⟩ : Fin 3)
    (⟨py (j 0).val, py_lt _⟩ : Fin 512) (⟨px (j 0).val, px_lt _⟩ : Fin 512))

/-- Patch numbers. -/
def seg : SSeg.Idx → BitVec 32 := fun j => BitVec.ofNat 32 (segOf (j 0).val)

/-- Coordinate k (0: image, 1: row, 2: column) of pixel n. -/
def byxNat (k n : ℕ) : ℕ := if k = 0 then pb n else if k = 1 then py n else px n

/-- Pixel coordinates. -/
def byx : SByx.Idx → BitVec 32 := fun j => BitVec.ofNat 32 (byxNat (j 0).val (j 1).val)

/-- Bound k (0: least row, 1: least column, 2: greatest row, 3: greatest column) of patch s. -/
def bbNat (k s : ℕ) : ℕ :=
  if k = 0 then s / 32 % 32 * 16 else if k = 1 then s % 32 * 16 else if k = 2 then s / 32 % 32 * 16 + 15 else s % 32 * 16 + 15

/-- Patch bounding boxes. -/
def bb : SBb.Idx → BitVec 32 := fun j => BitVec.ofNat 32 (bbNat (j 0).val (j 1).val)

/-- Every pixel's image, row and column, as vectors over the pixel numbers. -/
def bVec : SSeg.Idx → BitVec 32 := fun j => BitVec.ofNat 32 (pb (j 0).val)
def yVec : SSeg.Idx → BitVec 32 := fun j => BitVec.ofNat 32 (py (j 0).val)
def xVec : SSeg.Idx → BitVec 32 := fun j => BitVec.ofNat 32 (px (j 0).val)
theorem bVec_apply (j : SSeg.Idx) : bVec j = BitVec.ofNat 32 (pb (j 0).val) := rfl
theorem yVec_apply (j : SSeg.Idx) : yVec j = BitVec.ofNat 32 (py (j 0).val) := rfl
theorem xVec_apply (j : SSeg.Idx) : xVec j = BitVec.ofNat 32 (px (j 0).val) := rfl

/-- The definitions' equations, stated once here so that no later module needs to unfold them. -/
theorem fV_apply {α : Type} (img : SImg.Idx → α) (j : SFv.Idx) :
    fV img j = img (ix4 (⟨pb (j 0).val, pb_lt (idx2_lt0 j)⟩ : Fin 16) (⟨(j 1).val, idx2_lt1 j⟩ : Fin 3)
      (⟨py (j 0).val, py_lt _⟩ : Fin 512) (⟨px (j 0).val, px_lt _⟩ : Fin 512)) := rfl
theorem seg_apply (j : SSeg.Idx) : seg j = BitVec.ofNat 32 (segOf (j 0).val) := rfl
theorem byx_apply (j : SByx.Idx) : byx j = BitVec.ofNat 32 (byxNat (j 0).val (j 1).val) := rfl
theorem bb_apply (j : SBb.Idx) : bb j = BitVec.ofNat 32 (bbNat (j 0).val (j 1).val) := rfl

end Cert.Spec

end
-- ==== Proof.KFv.lean ====
/-
  The first kernel region's pixel-feature window.  Grid point (b, h) — image b, row block h of 16 — loads the slab
  [3 channels, rows 32·h … 32·h + 31, 512 columns] of image b and stores it with the channel axis moved last.  So what the
  point writes back is the restriction, to its block, of ONE function of the output array's index: entry (b, y, x, ch)
  is the image's entry (b, ch, y, x).  The 256 blocks tile the [16, 512, 512, 3] array (row y lies in block y / 32), hence
  the array ends holding that function everywhere.
-/
import proofs.«128172_j50629074485716_1_alg».proof.Proof.FrameKernelIdeal
import proofs.«128172_j50629074485716_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- The four zero offsets, as the constant function. -/
private theorem zeros4 : (![0, 0, 0, 0] : Fin 4 → Nat) = fun _ => 0 := funext fun a => by fin_cases a <;> rfl

/-- The image with its channel axis moved last: entry (b, y, x, ch) of the result is entry (b, ch, y, x) of the image. -/
private def chanLast (A : S16x3x512x512.Idx → Elt F .f32) : S16x512x512x3.Idx → Elt F .f32 :=
  fun j => A (ix4 (j 0 : Fin 16) (j 3 : Fin 3) (j 1 : Fin 512) (j 2 : Fin 512))

/-- What the body stores, at an index: dropping the unit axis of a [1,3,32,512] block, moving the channel axis of the
    [3,32,512] block last, and putting a unit axis back in front, reads entry (0, r, q, ch) of the result from entry
    (0, ch, r, q) of the block. -/
private theorem stored_apply (x0 : Vec F S1x3x32x512 .f32) (u : Fin 1) (r : Fin 32) (q : Fin 512) (ch : Fin 3) :
    k0_pay2 x0 (ix4 u r q ch) = x0 (ix4 u ch r q) := by
  unfold k0_pay2
  -- the outer cast adds the unit axis: (u, r, q, ch) reads (r, q, ch)
  refine (shapeCast_addUnit_apply ![32, 512, 3] _ _ _).trans ?_
  -- the transpose by [1, 2, 0]: result axes 0, 1, 2 are source axes 1, 2, 0, so (r, q, ch) reads (ch, r, q)
  refine (transpose_apply _ _ _ _ (ix3 ch r q) ?_).trans ?_
  · intro b
    match b with
    | ⟨0, _⟩ => rfl
    | ⟨1, _⟩ => rfl
    | ⟨2, _⟩ => rfl
  -- the inner cast drops the unit axis: (ch, r, q) reads (0, ch, r, q)
  refine (shapeCast_dropUnit_apply ![3, 32, 512] _ _ _).trans ?_
  refine congrArg x0 (funext fun a => ?_)
  match a with
  | ⟨0, _⟩ => exact Fin.ext (by show 0 = u.val; omega)
  | ⟨1, _⟩ => rfl
  | ⟨2, _⟩ => rfl
  | ⟨3, _⟩ => rfl

/-- The block indices at grid point t = 16·b + h (image b, row block h), decided over the 256 points: the result's block
    is (b, h, 0, 0) of blocks [1,32,512,3] and the image's block is (b, 0, h, 0) of blocks [1,3,32,512]. -/
private theorem blockIdx : ∀ t : Fin cfg0.N,
    win0_1.index t (0 : Fin 4) = t.val / 16 ∧ win0_1.index t (1 : Fin 4) = t.val % 16
    ∧ win0_1.index t (2 : Fin 4) = 0 ∧ win0_1.index t (3 : Fin 4) = 0
    ∧ win0_0.index t (0 : Fin 4) = t.val / 16 ∧ win0_0.index t (1 : Fin 4) = 0
    ∧ win0_0.index t (2 : Fin 4) = t.val % 16 ∧ win0_0.index t (3 : Fin 4) = 0 :=
  (by decide +kernel : ∀ t : Fin grid0.N, _)

/-- What grid point t writes back is block t of the channel-last image: entry (0, r, q, ch) of the stored block is entry
    (0, ch, r, q) of the image's block at t, which sits in the image at (b, ch, 32·h + r, q), and entry (0, r, q, ch) of
    the result's block at t sits in the result at (b, 32·h + r, q, ch) — a block's coordinate in its array is the block
    index times the block's size plus the coordinate inside the block. -/
private theorem writtenBack_eq (c : Dev nD) (t : Fin cfg0.N) :
    (dat0 (V0 m ρ) c).flushed 1 t = ((cfg0.win 1).blk t).view.read (Elt F) (chanLast (V0 m ρ c main_arg0)) := by
  show (cfg0.win 1).cut (grid0.coords t) ((dat0 (V0 m ρ) c).after 1 t) = _
  rw [after0_1]
  unfold out0_1
  rw [View.canon_unit_zero zeros4]
  simp only [View.ld_unit_zero (S := S1x3x32x512) zeros4]
  obtain ⟨e0, e1, e2, e3, f0, f1, f2, f3⟩ := blockIdx t
  have key : ∀ j : S1x32x512x3.Idx, k0_pay2 (iblk0 (V0 m ρ) c 0 t) j
      = chanLast (V0 m ρ c main_arg0) (((cfg0.win 1).blk t).view.emb j) := by
    intro j
    obtain ⟨u, r, q, ch, rfl⟩ : ∃ (u : Fin 1) (r : Fin 32) (q : Fin 512) (ch : Fin 3), j = ix4 u r q ch :=
      ⟨j 0, j 1, j 2, j 3, eq_ix4 j⟩
    rw [stored_apply]
    show V0 m ρ c main_arg0 (((cfg0.win 0).blk t).view.emb (ix4 u ch r q)) = _
    unfold chanLast
    refine congrArg (V0 m ρ c main_arg0) (funext fun a => Fin.ext ?_)
    match a with
    | ⟨0, _⟩ => show win0_0.index t (0 : Fin 4) * 1 + 1 * u.val = win0_1.index t (0 : Fin 4) * 1 + 1 * u.val; omega
    | ⟨1, _⟩ => show win0_0.index t (1 : Fin 4) * 3 + 1 * ch.val = win0_1.index t (3 : Fin 4) * 3 + 1 * ch.val; omega
    | ⟨2, _⟩ => show win0_0.index t (2 : Fin 4) * 32 + 1 * r.val = win0_1.index t (1 : Fin 4) * 32 + 1 * r.val; omega
    | ⟨3, _⟩ => show win0_0.index t (3 : Fin 4) * 512 + 1 * q.val = win0_1.index t (2 : Fin 4) * 512 + 1 * q.val; omega
  funext j
  exact key j

/-- An index of the result array lies in point t's block iff on every axis its coordinate lies in the block's range. -/
private theorem mem_block (t : Fin cfg0.N) (i : S16x512x512x3.Idx) :
    i ∈ ((cfg0.win 1).blk t).view.set ↔ ∀ a : Fin 4, win0_1.index t a * S1x32x512x3.size a ≤ (i a).val
      ∧ (i a).val < win0_1.index t a * S1x32x512x3.size a + S1x32x512x3.size a := by
  show i ∈ ((View.whole main_v0_0).slice (win0_1.rect t)).set ↔ _
  rw [View.set_slice_whole, Rect.mem_set_unit]
  exact Iff.rfl

/-- The blocks cover the result array: entry (b, y, x, ch) lies in the block of grid point 16·b + y / 32. -/
private theorem covered (i : S16x512x512x3.Idx) :
    ∃ t : Fin cfg0.N, (cfg0.win 1).flush t = true ∧ i ∈ ((cfg0.win 1).blk t).view.set := by
  have h0 : (i 0).val < 16 := (i 0).isLt
  have h1 : (i 1).val < 512 := (i 1).isLt
  have h2 : (i 2).val < 512 := (i 2).isLt
  have h3 : (i 3).val < 3 := (i 3).isLt
  obtain ⟨t, ht⟩ : ∃ t : Fin cfg0.N, t.val = (i 0).val * 16 + (i 1).val / 32 :=
    ⟨⟨(i 0).val * 16 + (i 1).val / 32, by show _ < grid0.N; rw [N_0]; omega⟩, rfl⟩
  obtain ⟨e0, e1, e2, e3, -⟩ := blockIdx t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 512 ≤ (i 2).val ∧ (i 2).val < win0_1.index t (2 : Fin 4) * 512 + 512; omega
  | ⟨3, _⟩ => show win0_1.index t (3 : Fin 4) * 3 ≤ (i 3).val ∧ (i 3).val < win0_1.index t (3 : Fin 4) * 3 + 3; omega

/-- So after the region the whole transposed-image array is the channel-last image. -/
private theorem wholeArray (c : Dev nD) : (dat0 (V0 m ρ) c).arrAt 1 cfg0.N = chanLast (V0 m ρ c main_arg0) :=
  (dat0 (V0 m ρ) c).arrAt_eq_of_cover 1 (chanLast (V0 m ρ c main_arg0)) (fun t _ => writtenBack_eq m ρ c t) covered

/-- After the first kernel region, the transposed-image array holds at (b, y, x, ch) the image's entry (b, ch, y, x):
    grid point (b, y / 32) writes rows 32·(y / 32) … +31 of image b, each entry the same entry of the input block with
    the channel axis moved last. -/
theorem arr0_1 (c : Dev nD) (b : Fin 16) (y x : Fin 512) (ch : Fin 3) :
    (dat0 (V0 m ρ) c).arrAt 1 cfg0.N (ix4 b y x ch) = V0 m ρ c main_arg0 (ix4 b ch y x) := by
  rw [wholeArray]
  rfl

end Cert.KernelIdeal.Hand

end
-- ==== Proof.LibBv.lean ====
/-
  Thirty-two-bit words that are small natural numbers.  Every integer either program computes is BitVec.ofNat 32 n with
  n < 2^31, where signed and unsigned readings agree: signed division and remainder are the natural ones, the signed
  comparisons are the comparisons of the numbers, and sums and products are the numbers' (these two for all words, since
  BitVec.ofNat is a ring map).  On top of them the three chains of operations by which the two programs spell floor
  division and the non-negative remainder, each read at such words.
-/
import Idealize.ShloMosaic.PureOps

noncomputable section

namespace Cert.LibBv

open Idealize.ShloMosaic

/-! ## Words below 2^31 -/

theorem toNat_ofNat_lt {n : ℕ} (h : n < 2 ^ 32) : (BitVec.ofNat 32 n).toNat = n := by
  rw [BitVec.toNat_ofNat]; exact Nat.mod_eq_of_lt h
theorem msb_ofNat {n : ℕ} (h : n < 2 ^ 31) : (BitVec.ofNat 32 n).msb = false := by
  rw [BitVec.msb_eq_decide, toNat_ofNat_lt (show n < 2 ^ 32 by omega), decide_eq_false_iff_not]; omega
theorem toInt_ofNat {n : ℕ} (h : n < 2 ^ 31) : (BitVec.ofNat 32 n).toInt = (n : ℤ) := by
  rw [BitVec.toInt_eq_toNat_of_msb (msb_ofNat h), toNat_ofNat_lt (show n < 2 ^ 32 by omega)]
theorem ofNat_eq_iff {a b : ℕ} (ha : a < 2 ^ 32) (hb : b < 2 ^ 32) : BitVec.ofNat 32 a = BitVec.ofNat 32 b ↔ a = b := by
  constructor
  · intro h
    have := congrArg BitVec.toNat h
    rwa [toNat_ofNat_lt ha, toNat_ofNat_lt hb] at this
  · intro h; rw [h]

theorem addi_ofNat (a b : ℕ) : IntOp.addi (BitVec.ofNat 32 a) (BitVec.ofNat 32 b) = BitVec.ofNat 32 (a + b) := by
  unfold IntOp.addi; exact (BitVec.ofNat_add ..).symm
theorem muli_ofNat (a b : ℕ) : IntOp.muli (BitVec.ofNat 32 a) (BitVec.ofNat 32 b) = BitVec.ofNat 32 (a * b) := by
  unfold IntOp.muli; exact (BitVec.ofNat_mul ..).symm
theorem subi_ofNat {a b : ℕ} (h : b ≤ a) : IntOp.subi (BitVec.ofNat 32 a) (BitVec.ofNat 32 b) = BitVec.ofNat 32 (a - b) := by
  have e : BitVec.ofNat 32 a = BitVec.ofNat 32 (a - b) + BitVec.ofNat 32 b := by
    rw [← BitVec.ofNat_add, Nat.sub_add_cancel h]
  unfold IntOp.subi; rw [e, BitVec.add_sub_cancel]

/-- A small dividend over a small positive divisor is not the signed-division corner: the divisor is not zero and the
    dividend is not the least word. -/
private theorem not_corner {n k : ℕ} (hn : n < 2 ^ 31) (hk0 : 0 < k) (hk : k < 2 ^ 31) :
    ¬ IntOp.SDivCorner (BitVec.ofNat 32 n) (BitVec.ofNat 32 k) := by
  rintro (h | ⟨h, -⟩)
  · have e := congrArg BitVec.toNat h
    rw [toNat_ofNat_lt (show k < 2 ^ 32 by omega)] at e
    simp at e; omega
  · have e := congrArg BitVec.msb h
    rw [msb_ofNat hn, BitVec.msb_intMin] at e
    simp at e

theorem divsi_ofNat (u : ArithUnit) {n k : ℕ} (hn : n < 2 ^ 31) (hk0 : 0 < k) (hk : k < 2 ^ 31) :
    IntOp.divsi u (BitVec.ofNat 32 n) (BitVec.ofNat 32 k) = BitVec.ofNat 32 (n / k) := by
  unfold IntOp.divsi
  rw [if_neg (not_corner hn hk0 hk), BitVec.sdiv_eq]
  simp only [msb_ofNat hn, msb_ofNat hk]
  apply BitVec.eq_of_toNat_eq
  rw [BitVec.udiv_eq, BitVec.toNat_udiv, toNat_ofNat_lt (show n < 2 ^ 32 by omega), toNat_ofNat_lt (show k < 2 ^ 32 by omega),
    toNat_ofNat_lt (show n / k < 2 ^ 32 from lt_of_le_of_lt (Nat.div_le_self n k) (by omega))]
theorem remsi_ofNat (u : ArithUnit) {n k : ℕ} (hn : n < 2 ^ 31) (hk0 : 0 < k) (hk : k < 2 ^ 31) :
    IntOp.remsi u (BitVec.ofNat 32 n) (BitVec.ofNat 32 k) = BitVec.ofNat 32 (n % k) := by
  unfold IntOp.remsi
  rw [if_neg (not_corner hn hk0 hk), BitVec.srem_eq]
  simp only [msb_ofNat hn, msb_ofNat hk]
  apply BitVec.eq_of_toNat_eq
  rw [BitVec.toNat_umod, toNat_ofNat_lt (show n < 2 ^ 32 by omega), toNat_ofNat_lt (show k < 2 ^ 32 by omega),
    toNat_ofNat_lt (show n % k < 2 ^ 32 from lt_of_le_of_lt (Nat.mod_le n k) (by omega))]

theorem cmpi_sgt_ofNat {a b : ℕ} (ha : a < 2 ^ 31) (hb : b < 2 ^ 31) :
    IntOp.cmpi .sgt (BitVec.ofNat 32 a) (BitVec.ofNat 32 b) = if b < a then 1#1 else 0#1 := by
  simp only [IntOp.cmpi, BitVec.slt, toInt_ofNat ha, toInt_ofNat hb]
  by_cases h : b < a <;> simp [h]
theorem cmpi_slt_ofNat {a b : ℕ} (ha : a < 2 ^ 31) (hb : b < 2 ^ 31) :
    IntOp.cmpi .slt (BitVec.ofNat 32 a) (BitVec.ofNat 32 b) = if a < b then 1#1 else 0#1 := by
  simp only [IntOp.cmpi, BitVec.slt, toInt_ofNat ha, toInt_ofNat hb]
  by_cases h : a < b <;> simp [h]
theorem cmpi_ne_ofNat {a b : ℕ} (ha : a < 2 ^ 32) (hb : b < 2 ^ 32) :
    IntOp.cmpi .ne (BitVec.ofNat 32 a) (BitVec.ofNat 32 b) = if a = b then 0#1 else 1#1 := by
  simp only [IntOp.cmpi]
  by_cases h : a = b
  · subst h; simp
  · have : BitVec.ofNat 32 a ≠ BitVec.ofNat 32 b := fun e => h ((ofNat_eq_iff ha hb).mp e)
    rw [bne_iff_ne.mpr this, if_neg h]; rfl
theorem cmpi_eq_ofNat {a b : ℕ} (ha : a < 2 ^ 32) (hb : b < 2 ^ 32) :
    IntOp.cmpi .eq (BitVec.ofNat 32 a) (BitVec.ofNat 32 b) = if a = b then 1#1 else 0#1 := by
  simp only [IntOp.cmpi]
  by_cases h : a = b
  · subst h; simp
  · have : BitVec.ofNat 32 a ≠ BitVec.ofNat 32 b := fun e => h ((ofNat_eq_iff ha hb).mp e)
    rw [beq_eq_false_iff_ne.mpr this, if_neg h]; rfl
/-- No small natural is below −1. -/
theorem cmpi_slt_negOne {a : ℕ} (ha : a < 2 ^ 31) : IntOp.cmpi .slt (BitVec.ofNat 32 a) 4294967295#32 = 0#1 := by
  have e : (4294967295#32 : BitVec 32).toInt = -1 := by decide
  simp only [IntOp.cmpi, BitVec.slt, toInt_ofNat ha, e]
  have : ¬ ((a : ℤ) < -1) := by omega
  simp [this]

theorem minsi_ofNat {a b : ℕ} (ha : a < 2 ^ 31) (hb : b < 2 ^ 31) :
    IntOp.minsi (BitVec.ofNat 32 a) (BitVec.ofNat 32 b) = BitVec.ofNat 32 (min a b) := by
  simp only [IntOp.minsi, BitVec.slt, toInt_ofNat ha, toInt_ofNat hb]
  rcases Nat.lt_or_ge a b with h | h
  · rw [if_pos (by simpa using h), Nat.min_eq_left (Nat.le_of_lt h)]
  · rw [if_neg (by simpa using h), Nat.min_eq_right h]
theorem maxsi_ofNat {a b : ℕ} (ha : a < 2 ^ 31) (hb : b < 2 ^ 31) :
    IntOp.maxsi (BitVec.ofNat 32 a) (BitVec.ofNat 32 b) = BitVec.ofNat 32 (max a b) := by
  simp only [IntOp.maxsi, BitVec.slt, toInt_ofNat ha, toInt_ofNat hb]
  rcases Nat.lt_or_ge b a with h | h
  · rw [if_pos (by simpa using h), Nat.max_eq_left (Nat.le_of_lt h)]
  · rw [if_neg (by simpa using h), Nat.max_eq_right h]
/-- The least word is below every small natural. -/
theorem maxsi_intMin {b : ℕ} (hb : b < 2 ^ 31) : IntOp.maxsi 2147483648#32 (BitVec.ofNat 32 b) = BitVec.ofNat 32 b := by
  have e : (2147483648#32 : BitVec 32).toInt = -2147483648 := by decide
  simp only [IntOp.maxsi, BitVec.slt, toInt_ofNat hb, e]
  have : ¬ ((b : ℤ) < -2147483648) := by omega
  rw [if_neg (by simpa using this)]

/-! ## The sign of a word, as the host's `sign` computes it -/

/-- `stablehlo.sign` at one word: 0, −1 or 1. -/
def sgn (a : BitVec 32) : BitVec 32 := if a = 0 then 0 else if a.msb then -1 else 1
theorem sgn_ofNat {n : ℕ} (h : n < 2 ^ 31) : sgn (BitVec.ofNat 32 n) = if n = 0 then 0#32 else 1#32 := by
  unfold sgn
  rw [msb_ofNat h]
  by_cases h0 : n = 0
  · subst h0; simp
  · have : ¬ BitVec.ofNat 32 n = 0 := fun e => h0 ((ofNat_eq_iff (show n < 2 ^ 32 by omega) (by omega)).mp e)
    rw [if_neg this, if_neg h0]; simp

/-! ## Floor division and remainder, as each program spells them at one word -/

/-- A word never differs from itself; a conjunction with a false bit is false; a false bit selects the second value. -/
private theorem cmpi_ne_self {w : ℕ} (x : BitVec w) : IntOp.cmpi .ne x x = 0#1 := by simp [IntOp.cmpi]
private theorem andi_zero_left (c : BitVec 1) : IntOp.andi 0#1 c = 0#1 := by simp [IntOp.andi]
private theorem andi_zero_right (c : BitVec 1) : IntOp.andi c 0#1 = 0#1 := by simp [IntOp.andi]
private theorem select_zero {α : Type} (a b : α) : Scalar.select 0#1 a b = b := by simp [Scalar.select]
private theorem mod_lt32 {n : ℕ} (k : ℕ) (hn : n < 2 ^ 31) : n % k < 2 ^ 32 :=
  lt_of_le_of_lt (Nat.mod_le n k) (by omega)

/-- The kernel's floor division (what `//` lowers to in a Pallas body): the truncating quotient, one less where
    the operands' signs differ and the remainder is not zero; the signs read as (a > 0) − (a < 0). -/
def floorDivK (a d : BitVec 32) : BitVec 32 :=
  Scalar.select
    (IntOp.andi
      (IntOp.cmpi .ne (IntOp.subi ((IntOp.cmpi .sgt a 0#32).setWidth 32) ((IntOp.cmpi .slt a 0#32).setWidth 32))
        (Scalar.subi (Scalar.extui (Scalar.cmpi .sgt d 0#32)) (Scalar.extui (Scalar.cmpi .slt d 0#32))))
      (IntOp.cmpi .ne (IntOp.remsi .vector a d) 0#32))
    (IntOp.subi (IntOp.divsi .vector a d) 1#32) (IntOp.divsi .vector a d)

theorem floorDivK_ofNat {n k : ℕ} (hn : n < 2 ^ 31) (hk0 : 0 < k) (hk : k < 2 ^ 31) :
    floorDivK (BitVec.ofNat 32 n) (BitVec.ofNat 32 k) = BitVec.ofNat 32 (n / k) := by
  unfold floorDivK Scalar.cmpi Scalar.subi Scalar.extui
  rw [divsi_ofNat .vector hn hk0 hk, remsi_ofNat .vector hn hk0 hk,
    cmpi_ne_ofNat (b := 0) (mod_lt32 k hn) (by omega)]
  rcases Nat.eq_zero_or_pos n with h0 | h0
  · -- a zero dividend leaves no remainder
    have hr : n % k = 0 := by rw [h0]; exact Nat.zero_mod k
    rw [if_pos hr, andi_zero_right, select_zero]
  · -- both operands are positive: their signs are the same word
    rw [cmpi_sgt_ofNat (b := 0) hn (by omega), cmpi_slt_ofNat (b := 0) hn (by omega),
      cmpi_sgt_ofNat (b := 0) hk (by omega), cmpi_slt_ofNat (b := 0) hk (by omega),
      if_pos h0, if_pos hk0, if_neg (Nat.not_lt_zero n), if_neg (Nat.not_lt_zero k),
      cmpi_ne_self, andi_zero_left, select_zero]

/-- The reference's floor division (jnp's `floor_divide` on the host): the truncating quotient, one less where
    the operands' signs (`sgn`) differ and the remainder is not zero. -/
def floorDivR (a d : BitVec 32) : BitVec 32 :=
  Scalar.select
    (IntOp.andi (IntOp.cmpi .ne (sgn a) (sgn d)) (IntOp.cmpi .ne (IntOp.remsi .host a d) 0#32))
    (IntOp.subi (IntOp.divsi .host a d) 1#32) (IntOp.divsi .host a d)

theorem floorDivR_ofNat {n k : ℕ} (hn : n < 2 ^ 31) (hk0 : 0 < k) (hk : k < 2 ^ 31) :
    floorDivR (BitVec.ofNat 32 n) (BitVec.ofNat 32 k) = BitVec.ofNat 32 (n / k) := by
  unfold floorDivR
  rw [divsi_ofNat .host hn hk0 hk, remsi_ofNat .host hn hk0 hk,
    cmpi_ne_ofNat (b := 0) (mod_lt32 k hn) (by omega), sgn_ofNat hn, sgn_ofNat hk, if_neg (Nat.ne_of_gt hk0)]
  rcases Nat.eq_zero_or_pos n with h0 | h0
  · -- a zero dividend leaves no remainder
    have hr : n % k = 0 := by rw [h0]; exact Nat.zero_mod k
    rw [if_pos hr, andi_zero_right, select_zero]
  · -- both operands are positive: their signs are the same word
    rw [if_neg (Nat.ne_of_gt h0), cmpi_ne_self, andi_zero_left, select_zero]

/-- The reference's remainder (jnp's `remainder` on the host): a zero divisor is replaced by one, and the truncating
    remainder is moved by one divisor where it is not zero and its sign differs from the divisor's. -/
def modR (a d : BitVec 32) : BitVec 32 :=
  let d' : BitVec 32 := Scalar.select (IntOp.cmpi .eq d 0#32) 1#32 d
  let r : BitVec 32 := IntOp.remsi .host a d'
  Scalar.select
    (IntOp.andi (IntOp.cmpi .ne (IntOp.cmpi .slt r 0#32) (IntOp.cmpi .slt d' 0#32)) (IntOp.cmpi .ne r 0#32))
    (IntOp.addi r d') r

theorem modR_ofNat {n k : ℕ} (hn : n < 2 ^ 31) (hk0 : 0 < k) (hk : k < 2 ^ 31) :
    modR (BitVec.ofNat 32 n) (BitVec.ofNat 32 k) = BitVec.ofNat 32 (n % k) := by
  have hr31 : n % k < 2 ^ 31 := lt_of_le_of_lt (Nat.mod_le n k) hn
  unfold modR
  dsimp only
  -- the divisor is not zero, so it is kept; the remainder and the divisor are both non-negative
  rw [cmpi_eq_ofNat (b := 0) (show k < 2 ^ 32 by omega) (by omega), if_neg (Nat.ne_of_gt hk0), select_zero,
    remsi_ofNat .host hn hk0 hk, cmpi_slt_ofNat (b := 0) hr31 (by omega), cmpi_slt_ofNat (b := 0) hk (by omega),
    if_neg (Nat.not_lt_zero _), if_neg (Nat.not_lt_zero _), cmpi_ne_self, andi_zero_left, select_zero]

/-- The clamp of jnp's `unravel_index`: from the last quotient q (zero exactly when the number is in range), the
    coordinate r, or the axis's last index `hi` when q is positive, or 0 when q is below −1. -/
def clampSel (q hi r : BitVec 32) : BitVec 32 :=
  Scalar.select (IntOp.cmpi .sgt q 0#32) hi (Scalar.select (IntOp.cmpi .slt q 4294967295#32) 0#32 r)

theorem clampSel_zero (hi r : BitVec 32) : clampSel 0#32 hi r = r := by
  unfold clampSel
  rw [cmpi_slt_negOne (a := 0) (by omega), cmpi_sgt_ofNat (a := 0) (b := 0) (by omega) (by omega),
    if_neg (Nat.lt_irrefl 0), select_zero, select_zero]

end Cert.LibBv

end
-- ==== Proof.KSegByx.lean ====
/-
  The first kernel region's two integer windows.  At grid point (b, h) the body forms, for the local row yl and column x
  of its [32, 512] tile, the global row y = 32·h + yl (an iota plus the point's offset), the column x (an iota), and from
  them the patch number b·1024 + (y div 16)·32 + x div 16 — the two floor divisions spelt as a truncating division with a
  sign correction that never fires on non-negative words — and the three coordinate words b, y, x, stored as three slabs
  of one block.  Each is the restriction to the point's block of one function of the array index, and the blocks tile the
  arrays, so the arrays end holding those functions.
-/
import proofs.«128172_j50629074485716_1_alg».proof.Proof.FrameKernelIdeal
import proofs.«128172_j50629074485716_1_alg».proof.Proof.Spec
import proofs.«128172_j50629074485716_1_alg».proof.Proof.LibBv
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Cert.LibBv

variable {F : FTy → Type} [FloatOps F]
variable (m : (ℓ : Loc nD τ sig) → Buf (Elt F) ℓ) (ρ : Dev nD → PrngReg)

/-! ## The body's words at one element of a block

Grid point i works on image (i 0) and on the 32 rows (i 1)·32 … (i 1)·32 + 31 of it. Every word below is a natural
number under 2^31 written as a 32-bit word, so the word operations are the operations on naturals. -/

private theorem zero3 : (![0, 0, 0] : Fin 3 → Nat) = fun _ => 0 := funext fun a => by fin_cases a <;> rfl

/-- Local row yl of row block (i 1) is the image's row (i 1)·32 + yl. -/
private theorem rowWord (i : grid0.Coords) (yl : Fin 32) (x : Fin 512) :
    k0_pay3 i (ix2 yl x) = BitVec.ofNat 32 ((i 1).val * 32 + yl.val) := by
  unfold k0_pay3
  show IntOp.addi (iota .tc S32x512 32 [0] iota_S32x512_d0_w32 (ix2 yl x)) (IntOp.muli (BitVec.ofNat 32 (i 1).val) (BitVec.ofNat 32 32)) = _
  rw [iota_single_apply, muli_ofNat, addi_ofNat]
  congr 1
  show yl.val + (i 1).val * 32 = _
  omega

/-- The row's patch row: the floor division of the row by 16, which for a row that is not negative is the quotient. -/
private theorem rowPatch (i : grid0.Coords) (yl : Fin 32) (x : Fin 512) :
    k0_pay4 i (ix2 yl x) = BitVec.ofNat 32 (((i 1).val * 32 + yl.val) / 16) := by
  have hi : (i 1).val < 16 := (i 1).isLt
  have e : k0_pay4 i (ix2 yl x) = floorDivK (k0_pay3 i (ix2 yl x)) (BitVec.ofNat 32 16) := rfl
  rw [e, rowWord, floorDivK_ofNat (by omega) (by omega) (by omega)]

/-- The patch number at (yl, x) of the block: image·1024 + (row / 16)·32 + column / 16. -/
private theorem segWord (i : grid0.Coords) (u : Fin 1) (yl : Fin 32) (x : Fin 512) :
    k0_pay7 (BitVec.ofNat 32 (i 0).val) (iota .tc S32x512 32 [1] iota_S32x512_d1_w32) (k0_pay4 i) 16#32 k0_pay5 k0_pay6 (ix3 u yl x)
      = BitVec.ofNat 32 ((i 0).val * 1024 + ((i 1).val * 32 + yl.val) / 16 * 32 + x.val / 16) := by
  have hi : (i 1).val < 16 := (i 1).isLt
  unfold k0_pay7
  rw [shapeCast_apply _ _ (ix3 u yl x) (ix2 yl x) (by
    rw [Shape.rowMajor_val_two, Shape.rowMajor_val_three]
    have : u.val = 0 := by omega
    show yl.val * 512 + x.val = (u.val * 32 + yl.val) * 512 + x.val
    omega)]
  show IntOp.addi (IntOp.addi (IntOp.muli (BitVec.ofNat 32 (i 0).val) (BitVec.ofNat 32 1024)) (IntOp.muli (k0_pay4 i (ix2 yl x)) (BitVec.ofNat 32 32)))
      (floorDivK (iota .tc S32x512 32 [1] iota_S32x512_d1_w32 (ix2 yl x)) (BitVec.ofNat 32 16)) = _
  rw [rowPatch, iota_single_apply, floorDivK_ofNat (by have := x.isLt; show x.val < 2 ^ 31; omega) (by omega) (by omega), muli_ofNat, muli_ofNat, addi_ofNat, addi_ofNat]

private theorem segWord_at (i : grid0.Coords) (j : S1x32x512.Idx) :
    k0_pay7 (BitVec.ofNat 32 (i 0).val) (iota .tc S32x512 32 [1] iota_S32x512_d1_w32) (k0_pay4 i) 16#32 k0_pay5 k0_pay6 j
      = BitVec.ofNat 32 ((i 0).val * 1024 + ((i 1).val * 32 + (j 1).val) / 16 * 32 + (j 2).val / 16) := by
  obtain ⟨u, yl, x, rfl⟩ : ∃ (u : Fin 1) (yl : Fin 32) (x : Fin 512), j = ix3 u yl x := ⟨j 0, j 1, j 2, eq_ix3 j⟩
  exact segWord i u yl x

/-! ## The grid -/

/-- The block index of the patch-number window at the grid's point t is (t / 16, t % 16, 0). -/
private theorem segIndex : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)

/-- The block index of the coordinate window at the grid's point t is (0, t / 16, t % 16, 0). -/
private theorem byxIndex : ∀ t : Fin cfg0.N, win0_3.index t (0 : Fin 4) = 0 ∧ win0_3.index t (1 : Fin 4) = t.val / 16
    ∧ win0_3.index t (2 : Fin 4) = t.val % 16 ∧ win0_3.index t (3 : Fin 4) = 0 :=
  (by decide +kernel : ∀ t : Fin grid0.N, _)

/-- The grid's point t is image t / 16, row block t % 16: the window's block index is made of the point's coordinates. -/
private theorem pointCoords (t : Fin cfg0.N) : ((grid0.coords t) 0).val = t.val / 16 ∧ ((grid0.coords t) 1).val = t.val % 16 := by
  obtain ⟨e0, e1, -⟩ := segIndex t
  have c0 : win0_2.index t (0 : Fin 3) = (BitVec.ofNat 32 ((grid0.coords t) 0).val).toNat := rfl
  have c1 : win0_2.index t (1 : Fin 3) = (BitVec.ofNat 32 ((grid0.coords t) 1).val).toNat := rfl
  have l0 : ((grid0.coords t) 0).val < 16 := ((grid0.coords t) 0).isLt
  have l1 : ((grid0.coords t) 1).val < 16 := ((grid0.coords t) 1).isLt
  rw [toNat_ofNat_lt (by omega)] at c0 c1
  omega

/-! ## The patch-number array -/

/-- The patch number of every pixel of the [16,512,512] array, as one function of the index. -/
private def segArr : S16x512x512.Idx → BitVec 32 := fun j =>
  BitVec.ofNat 32 ((j 0).val * 1024 + (j 1).val / 16 * 32 + (j 2).val / 16)

section PatchNumbers
variable (V : (c : Dev nD) → (b : Ref sig .tc) → Buf (Elt F) ((c : Thread nD τ).loc b))

/-- What the point t writes back is its block of segArr: element (0, yl, x) of the block is pixel
    (t / 16, (t % 16)·32 + yl, x) of the array. -/
private theorem segFlushed (c : Dev nD) (t : Fin cfg0.N) :
    (dat0 V c).flushed 2 t = ((cfg0.win 2).blk t).view.read (Elt F) segArr := by
  show (cfg0.win 2).cut (grid0.coords t) ((dat0 V c).after 2 t) = _
  rw [after0_2]
  unfold out0_2
  rw [View.canon_unit_zero zero3]
  obtain ⟨g0, g1⟩ := pointCoords t
  obtain ⟨e0, e1, e2⟩ := segIndex t
  funext j
  show k0_pay7 (BitVec.ofNat 32 ((grid0.coords t) 0).val) (iota .tc S32x512 32 [1] iota_S32x512_d1_w32) (k0_pay4 (grid0.coords t)) 16#32 k0_pay5 k0_pay6 j
    = segArr (((cfg0.win 2).blk t).view.emb j)
  refine (segWord_at (grid0.coords t) j).trans ?_
  have h0 : ((((cfg0.win 2).blk t).view.emb j) 0).val = win0_2.index t (0 : Fin 3) * 1 + 1 * (j 0).val := rfl
  have h1 : ((((cfg0.win 2).blk t).view.emb j) 1).val = win0_2.index t (1 : Fin 3) * 32 + 1 * (j 1).val := rfl
  have h2 : ((((cfg0.win 2).blk t).view.emb j) 2).val = win0_2.index t (2 : Fin 3) * 512 + 1 * (j 2).val := rfl
  have j0 : (j 0).val < 1 := (j 0).isLt
  have j1 : (j 1).val < 32 := (j 1).isLt
  have j2 : (j 2).val < 512 := (j 2).isLt
  show BitVec.ofNat 32 _ = BitVec.ofNat 32 (((((cfg0.win 2).blk t).view.emb j) 0).val * 1024 + ((((cfg0.win 2).blk t).view.emb j) 1).val / 16 * 32 + ((((cfg0.win 2).blk t).view.emb j) 2).val / 16)
  rw [h0, h1, h2, g0, g1, e0, e1, e2]
  refine congrArg (BitVec.ofNat 32) ?_
  omega

/-- An index of the array is in point t's block iff each coordinate is in the block's range on its axis. -/
private theorem segMem (t : Fin cfg0.N) (i : S16x512x512.Idx) :
    i ∈ ((cfg0.win 2).blk t).view.set ↔ ∀ a : Fin 3, win0_2.index t a * S1x32x512.size a ≤ (i a).val ∧ (i a).val < win0_2.index t a * S1x32x512.size a + S1x32x512.size a := by
  show i ∈ ((View.whole main_v0_1).slice (win0_2.rect t)).set ↔ _
  rw [View.set_slice_whole, Rect.mem_set_unit]
  exact Iff.rfl

/-- Row y of image b lies in the block of the grid's point b·16 + y / 32: the blocks fill the array. -/
private theorem segCover (i : S16x512x512.Idx) : ∃ t : Fin cfg0.N, (cfg0.win 2).flush t = true ∧ i ∈ ((cfg0.win 2).blk t).view.set := by
  have i0 : (i 0).val < 16 := (i 0).isLt
  have i1 : (i 1).val < 512 := (i 1).isLt
  have i2 : (i 2).val < 512 := (i 2).isLt
  have hN : cfg0.N = 256 := N_0
  refine ⟨⟨(i 0).val * 16 + (i 1).val / 32, by omega⟩, flush0_2 _, ?_⟩
  rw [segMem]
  obtain ⟨e0, e1, e2⟩ := segIndex ⟨(i 0).val * 16 + (i 1).val / 32, by omega⟩
  intro a
  match a with
  | ⟨0, _⟩ => show win0_2.index _ (0 : Fin 3) * 1 ≤ (i 0).val ∧ (i 0).val < win0_2.index _ (0 : Fin 3) * 1 + 1; rw [e0]; show ((i 0).val * 16 + (i 1).val / 32) / 16 * 1 ≤ (i 0).val ∧ (i 0).val < ((i 0).val * 16 + (i 1).val / 32) / 16 * 1 + 1; omega
  | ⟨1, _⟩ => show win0_2.index _ (1 : Fin 3) * 32 ≤ (i 1).val ∧ (i 1).val < win0_2.index _ (1 : Fin 3) * 32 + 32; rw [e1]; show ((i 0).val * 16 + (i 1).val / 32) % 16 * 32 ≤ (i 1).val ∧ (i 1).val < ((i 0).val * 16 + (i 1).val / 32) % 16 * 32 + 32; omega
  | ⟨2, _⟩ => show win0_2.index _ (2 : Fin 3) * 512 ≤ (i 2).val ∧ (i 2).val < win0_2.index _ (2 : Fin 3) * 512 + 512; rw [e2]; omega

/-- So the patch-number array ends holding segArr. -/
private theorem segFinal (c : Dev nD) : (dat0 V c).arrAt 2 cfg0.N = segArr :=
  (dat0 V c).arrAt_eq_of_cover 2 segArr (fun t _ => segFlushed V c t) segCover

end PatchNumbers

/-- After the first kernel region, the patch-number array holds at pixel (b, y, x) the word b·1024 + (y / 16)·32 + x / 16. -/
theorem arr0_2 (c : Dev nD) (b : Fin 16) (y x : Fin 512) :
    (dat0 (V0 m ρ) c).arrAt 2 cfg0.N (ix3 b y x) = BitVec.ofNat 32 (b.val * 1024 + y.val / 16 * 32 + x.val / 16) := by
  rw [segFinal]
  rfl

/-! ## The coordinate array

Its block at a grid point is three planes, each stored on its own: plane 0 the image number everywhere, plane 1 the
rows, plane 2 the columns. -/

/-- The column plane reads the column. -/
private theorem colPlane (u v : Fin 1) (yl : Fin 32) (x : Fin 512) :
    k0_pay1 (iota .tc S32x512 32 [1] iota_S32x512_d1_w32) (ix4 u v yl x) = BitVec.ofNat 32 x.val := by
  unfold k0_pay1
  rw [shapeCast_apply _ _ (ix4 u v yl x) (ix2 yl x) (by
    rw [Shape.rowMajor_val_two, Shape.rowMajor_val_four]
    have : u.val = 0 := by omega
    have : v.val = 0 := by omega
    show yl.val * 512 + x.val = ((u.val * 1 + v.val) * 32 + yl.val) * 512 + x.val
    omega)]
  rw [iota_single_apply]

/-- The row plane reads the image's row. -/
private theorem rowPlane (i : grid0.Coords) (u v : Fin 1) (yl : Fin 32) (x : Fin 512) :
    k0_pay9 (k0_pay3 i) (ix4 u v yl x) = BitVec.ofNat 32 ((i 1).val * 32 + yl.val) := by
  unfold k0_pay9
  rw [shapeCast_apply _ _ (ix4 u v yl x) (ix2 yl x) (by
    rw [Shape.rowMajor_val_two, Shape.rowMajor_val_four]
    have : u.val = 0 := by omega
    have : v.val = 0 := by omega
    show yl.val * 512 + x.val = ((u.val * 1 + v.val) * 32 + yl.val) * 512 + x.val
    omega)]
  rw [rowWord]

/-- The image plane is one word everywhere. -/
private theorem imgPlane (a : BitVec 32) (j : S1x1x32x512.Idx) : k0_pay8 a j = a := rfl

/-- One block of the coordinate array at grid point i: plane 0 the image, plane 1 the image's row, plane 2 the column. -/
private def byxBlk (i : grid0.Coords) : S3x1x32x512.Idx → BitVec 32 := fun y =>
  BitVec.ofNat 32 (if (y 0).val = 0 then (i 0).val else if (y 0).val = 1 then (i 1).val * 32 + (y 2).val else (y 3).val)

/-- The store to plane 0 agrees with byxBlk there, -/
private theorem plane0 (i : grid0.Coords) (j : S1x1x32x512.Idx) : k0_pay8 (BitVec.ofNat 32 (i 0).val) j = byxBlk i (r0_3.emb j) := by
  rw [imgPlane]
  have e0 : ((r0_3.emb j) 0).val = 0 + 1 * (j 0).val := rfl
  have j0 : (j 0).val < 1 := (j 0).isLt
  unfold byxBlk
  rw [e0, if_pos (by omega)]

/-- the store to plane 1 there, -/
private theorem plane1 (i : grid0.Coords) (j : S1x1x32x512.Idx) : k0_pay9 (k0_pay3 i) j = byxBlk i (r0_4.emb j) := by
  obtain ⟨u, v, yl, x, rfl⟩ : ∃ (u v : Fin 1) (yl : Fin 32) (x : Fin 512), j = ix4 u v yl x := ⟨j 0, j 1, j 2, j 3, eq_ix4 j⟩
  rw [rowPlane]
  have e0 : ((r0_4.emb (ix4 u v yl x)) 0).val = 1 + 1 * u.val := rfl
  have e2 : ((r0_4.emb (ix4 u v yl x)) 2).val = 0 + 1 * yl.val := rfl
  have j0 : u.val < 1 := u.isLt
  unfold byxBlk
  rw [e0, e2, if_neg (by omega), if_pos (by omega)]
  refine congrArg (BitVec.ofNat 32) ?_
  omega

/-- and the store to plane 2 there. -/
private theorem plane2 (i : grid0.Coords) (j : S1x1x32x512.Idx) : k0_pay1 (iota .tc S32x512 32 [1] iota_S32x512_d1_w32) j = byxBlk i (r0_5.emb j) := by
  obtain ⟨u, v, yl, x, rfl⟩ : ∃ (u v : Fin 1) (yl : Fin 32) (x : Fin 512), j = ix4 u v yl x := ⟨j 0, j 1, j 2, j 3, eq_ix4 j⟩
  rw [colPlane]
  have e0 : ((r0_5.emb (ix4 u v yl x)) 0).val = 2 + 1 * u.val := rfl
  have e3 : ((r0_5.emb (ix4 u v yl x)) 3).val = 0 + 1 * x.val := rfl
  have j0 : u.val < 1 := u.isLt
  unfold byxBlk
  rw [e0, e3, if_neg (by omega), if_neg (by omega)]
  refine congrArg (BitVec.ofNat 32) ?_
  omega

/-- The three stores tile the block, so together they leave byxBlk in it. -/
private theorem byxBlock (i : grid0.Coords) (x0 : Vec F S1x3x32x512 .f32) (y : S3x1x32x512.Idx) :
    (out0_3 i x0 : S3x1x32x512.Idx → BitVec 32) y = byxBlk i y := by
  unfold out0_3
  refine View.canon_apply_of_pieces (Val := Elt F) (e := .i32) (byxBlk i) _ ?_ y (cover0_3 (F := F) _ _ _ y)
  intro p hp x
  simp only [List.mem_cons, List.not_mem_nil, or_false] at hp
  rcases hp with rfl | rfl | rfl
  · exact plane2 i x
  · exact plane1 i x
  · exact plane0 i x

/-- The coordinates of every pixel of the [3,16,512,512] array, as one function of the index. -/
private def byxArr : S3x16x512x512.Idx → BitVec 32 := fun j =>
  BitVec.ofNat 32 (if (j 0).val = 0 then (j 1).val else if (j 0).val = 1 then (j 2).val else (j 3).val)

section Coordinates
variable (V : (c : Dev nD) → (b : Ref sig .tc) → Buf (Elt F) ((c : Thread nD τ).loc b))

/-- What the point t writes back is its block of byxArr: element (k, 0, yl, x) of the block is element
    (k, t / 16, (t % 16)·32 + yl, x) of the array. -/
private theorem byxFlushed (c : Dev nD) (t : Fin cfg0.N) :
    (dat0 V c).flushed 3 t = ((cfg0.win 3).blk t).view.read (Elt F) byxArr := by
  show (cfg0.win 3).cut (grid0.coords t) ((dat0 V c).after 3 t) = _
  rw [after0_3]
  obtain ⟨g0, g1⟩ := pointCoords t
  obtain ⟨e0, e1, e2, e3⟩ := byxIndex t
  funext j
  show (out0_3 (grid0.coords t) (iblk0 V c 0 t) : S3x1x32x512.Idx → BitVec 32) j = byxArr (((cfg0.win 3).blk t).view.emb j)
  refine (byxBlock (grid0.coords t) _ j).trans ?_
  have h0 : ((((cfg0.win 3).blk t).view.emb j) 0).val = win0_3.index t (0 : Fin 4) * 3 + 1 * (j 0).val := rfl
  have h1 : ((((cfg0.win 3).blk t).view.emb j) 1).val = win0_3.index t (1 : Fin 4) * 1 + 1 * (j 1).val := rfl
  have h2 : ((((cfg0.win 3).blk t).view.emb j) 2).val = win0_3.index t (2 : Fin 4) * 32 + 1 * (j 2).val := rfl
  have h3 : ((((cfg0.win 3).blk t).view.emb j) 3).val = win0_3.index t (3 : Fin 4) * 512 + 1 * (j 3).val := rfl
  have j0 : (j 0).val < 3 := (j 0).isLt
  have j1 : (j 1).val < 1 := (j 1).isLt
  have j2 : (j 2).val < 32 := (j 2).isLt
  have j3 : (j 3).val < 512 := (j 3).isLt
  show BitVec.ofNat 32 (if (j 0).val = 0 then ((grid0.coords t) 0).val else if (j 0).val = 1 then ((grid0.coords t) 1).val * 32 + (j 2).val else (j 3).val)
    = BitVec.ofNat 32 (if ((((cfg0.win 3).blk t).view.emb j) 0).val = 0 then ((((cfg0.win 3).blk t).view.emb j) 1).val
        else if ((((cfg0.win 3).blk t).view.emb j) 0).val = 1 then ((((cfg0.win 3).blk t).view.emb j) 2).val else ((((cfg0.win 3).blk t).view.emb j) 3).val)
  rw [h0, h1, h2, h3, g0, g1, e0, e1, e2, e3]
  refine congrArg (BitVec.ofNat 32) ?_
  split_ifs <;> omega

/-- An index of the array is in point t's block iff each coordinate is in the block's range on its axis. -/
private theorem byxMem (t : Fin cfg0.N) (i : S3x16x512x512.Idx) :
    i ∈ ((cfg0.win 3).blk t).view.set ↔ ∀ a : Fin 4, win0_3.index t a * S3x1x32x512.size a ≤ (i a).val ∧ (i a).val < win0_3.index t a * S3x1x32x512.size a + S3x1x32x512.size a := by
  show i ∈ ((View.whole main_v0_2).slice (win0_3.rect t)).set ↔ _
  rw [View.set_slice_whole, Rect.mem_set_unit]
  exact Iff.rfl

/-- Row y of image b, in every plane, lies in the block of the grid's point b·16 + y / 32: the blocks fill the array. -/
private theorem byxCover (i : S3x16x512x512.Idx) : ∃ t : Fin cfg0.N, (cfg0.win 3).flush t = true ∧ i ∈ ((cfg0.win 3).blk t).view.set := by
  have i0 : (i 0).val < 3 := (i 0).isLt
  have i1 : (i 1).val < 16 := (i 1).isLt
  have i2 : (i 2).val < 512 := (i 2).isLt
  have i3 : (i 3).val < 512 := (i 3).isLt
  have hN : cfg0.N = 256 := N_0
  refine ⟨⟨(i 1).val * 16 + (i 2).val / 32, by omega⟩, flush0_3 _, ?_⟩
  rw [byxMem]
  obtain ⟨e0, e1, e2, e3⟩ := byxIndex ⟨(i 1).val * 16 + (i 2).val / 32, by omega⟩
  intro a
  match a with
  | ⟨0, _⟩ => show win0_3.index _ (0 : Fin 4) * 3 ≤ (i 0).val ∧ (i 0).val < win0_3.index _ (0 : Fin 4) * 3 + 3; rw [e0]; omega
  | ⟨1, _⟩ => show win0_3.index _ (1 : Fin 4) * 1 ≤ (i 1).val ∧ (i 1).val < win0_3.index _ (1 : Fin 4) * 1 + 1; rw [e1]; show ((i 1).val * 16 + (i 2).val / 32) / 16 * 1 ≤ (i 1).val ∧ (i 1).val < ((i 1).val * 16 + (i 2).val / 32) / 16 * 1 + 1; omega
  | ⟨2, _⟩ => show win0_3.index _ (2 : Fin 4) * 32 ≤ (i 2).val ∧ (i 2).val < win0_3.index _ (2 : Fin 4) * 32 + 32; rw [e2]; show ((i 1).val * 16 + (i 2).val / 32) % 16 * 32 ≤ (i 2).val ∧ (i 2).val < ((i 1).val * 16 + (i 2).val / 32) % 16 * 32 + 32; omega
  | ⟨3, _⟩ => show win0_3.index _ (3 : Fin 4) * 512 ≤ (i 3).val ∧ (i 3).val < win0_3.index _ (3 : Fin 4) * 512 + 512; rw [e3]; omega

/-- So the coordinate array ends holding byxArr. -/
private theorem byxFinal (c : Dev nD) : (dat0 V c).arrAt 3 cfg0.N = byxArr :=
  (dat0 V c).arrAt_eq_of_cover 3 byxArr (fun t _ => byxFlushed V c t) byxCover

end Coordinates

/-- After the first kernel region, the coordinate array holds at (k, b, y, x) the k-th of the words b, y, x. -/
theorem arr0_3 (c : Dev nD) (k : Fin 3) (b : Fin 16) (y x : Fin 512) :
    (dat0 (V0 m ρ) c).arrAt 3 cfg0.N (ix4 k b y x)
      = BitVec.ofNat 32 (if k.val = 0 then b.val else if k.val = 1 then y.val else x.val) := by
  rw [byxFinal]
  rfl

end Cert.KernelIdeal.Hand

end
-- ==== Proof.KBox.lean ====
/-
  The second kernel region has ONE grid point and one window, whose block is the whole bounding-box array
  [4, 16, 32, 32].  The body stores four slabs [1, 16, 32, 32], one per bound k: slab k at (b, hp, wp) holds hp·16, wp·16,
  hp·16 + 15, wp·16 + 15 (an iota along the patch-row or patch-column axis, times 16, plus 15 for the two greatest
  bounds).  The four slabs tile the block, so the block is ONE function of its index; the single block covers the
  array, so the array ends holding that function.
-/
import proofs.«128172_j50629074485716_1_alg».proof.Proof.FrameKernelIdeal
import proofs.«128172_j50629074485716_1_alg».proof.Proof.Spec
import proofs.«128172_j50629074485716_1_alg».proof.Proof.LibBv
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- Bound k of the patch in patch-row hp and patch-column wp. -/
def boxWord (k hp wp : ℕ) : BitVec 32 :=
  BitVec.ofNat 32 (if k = 0 then hp * 16 else if k = 1 then wp * 16 else if k = 2 then hp * 16 + 15 else wp * 16 + 15)

/-- What the bounding-box array ends holding, as one function of its index (k, b, hp, wp). -/
def GB : S4x16x32x32.Idx → Elt F .i32 := fun j => boxWord (j 0).val (j 2).val (j 3).val

theorem GB_apply (j : S4x16x32x32.Idx) : GB (F := F) j = boxWord (j 0).val (j 2).val (j 3).val := rfl

/-- The four slabs' payloads at an index (u, b, hp, wp) of a slab (u the unit axis): the iota's coordinate times 16,
    plus 15 for the greatest bounds. -/
theorem pay1_apply (x : S1x16x32x32.Idx) : k1_pay1 x = BitVec.ofNat 32 ((x 2).val * 16) := by
  unfold k1_pay1
  rw [shapeCast_addUnit_apply]
  have hi : iota .tc S16x32x32 32 [1] iota_S16x32x32_d1_w32 (fun a => x a.succ) = BitVec.ofNat 32 (x 2).val :=
    iota_single_apply .tc S16x32x32 32 1 iota_S16x32x32_d1_w32 (fun a => x a.succ)
  exact (congrArg (fun z => IntOp.muli z 16#32) hi).trans (Cert.LibBv.muli_ofNat _ 16)
theorem pay2_apply (x : S1x16x32x32.Idx) : k1_pay2 x = BitVec.ofNat 32 ((x 3).val * 16) := by
  unfold k1_pay2
  rw [shapeCast_addUnit_apply]
  have hi : iota .tc S16x32x32 32 [2] iota_S16x32x32_d2_w32 (fun a => x a.succ) = BitVec.ofNat 32 (x 3).val :=
    iota_single_apply .tc S16x32x32 32 2 iota_S16x32x32_d2_w32 (fun a => x a.succ)
  exact (congrArg (fun z => IntOp.muli z 16#32) hi).trans (Cert.LibBv.muli_ofNat _ 16)
theorem pay3_apply (x : S1x16x32x32.Idx) : k1_pay3 x = BitVec.ofNat 32 ((x 2).val * 16 + 15) := by
  unfold k1_pay3
  rw [shapeCast_addUnit_apply]
  have hi : iota .tc S16x32x32 32 [1] iota_S16x32x32_d1_w32 (fun a => x a.succ) = BitVec.ofNat 32 (x 2).val :=
    iota_single_apply .tc S16x32x32 32 1 iota_S16x32x32_d1_w32 (fun a => x a.succ)
  exact (congrArg (fun z => IntOp.addi (IntOp.muli z 16#32) 15#32) hi).trans
    ((congrArg (IntOp.addi · 15#32) (Cert.LibBv.muli_ofNat _ 16)).trans (Cert.LibBv.addi_ofNat _ 15))
theorem pay4_apply (x : S1x16x32x32.Idx) : k1_pay4 x = BitVec.ofNat 32 ((x 3).val * 16 + 15) := by
  unfold k1_pay4
  rw [shapeCast_addUnit_apply]
  have hi : iota .tc S16x32x32 32 [2] iota_S16x32x32_d2_w32 (fun a => x a.succ) = BitVec.ofNat 32 (x 3).val :=
    iota_single_apply .tc S16x32x32 32 2 iota_S16x32x32_d2_w32 (fun a => x a.succ)
  exact (congrArg (fun z => IntOp.addi (IntOp.muli z 16#32) 15#32) hi).trans
    ((congrArg (IntOp.addi · 15#32) (Cert.LibBv.muli_ofNat _ 16)).trans (Cert.LibBv.addi_ofNat _ 15))

/-- The block the body leaves is that function: each slab is its restriction to one bound. -/
theorem out1_eq : out1_0 (F := F) = GB (F := F) := by
  funext y
  unfold out1_0
  refine View.canon_apply_of_pieces (GB (F := F)) _ ?_ y (cover1_0 _ _ _ _ y)
  intro p hp x
  simp only [List.mem_cons, List.not_mem_nil, or_false] at hp
  rcases hp with rfl | rfl | rfl | rfl
  · show k1_pay4 x = GB (r1_3.emb x)
    have h0 : (x 0).val = 0 := by have : (x 0).val < 1 := (x 0).isLt; omega
    have e0 : (r1_3.emb x 0).val = 3 + 1 * (x 0).val := rfl
    have e2 : (r1_3.emb x 2).val = 0 + 1 * (x 2).val := rfl
    have e3 : (r1_3.emb x 3).val = 0 + 1 * (x 3).val := rfl
    rw [pay4_apply, GB_apply, e0, e2, e3, h0]
    simp [boxWord]
  · show k1_pay3 x = GB (r1_2.emb x)
    have h0 : (x 0).val = 0 := by have : (x 0).val < 1 := (x 0).isLt; omega
    have e0 : (r1_2.emb x 0).val = 2 + 1 * (x 0).val := rfl
    have e2 : (r1_2.emb x 2).val = 0 + 1 * (x 2).val := rfl
    have e3 : (r1_2.emb x 3).val = 0 + 1 * (x 3).val := rfl
    rw [pay3_apply, GB_apply, e0, e2, e3, h0]
    simp [boxWord]
  · show k1_pay2 x = GB (r1_1.emb x)
    have h0 : (x 0).val = 0 := by have : (x 0).val < 1 := (x 0).isLt; omega
    have e0 : (r1_1.emb x 0).val = 1 + 1 * (x 0).val := rfl
    have e2 : (r1_1.emb x 2).val = 0 + 1 * (x 2).val := rfl
    have e3 : (r1_1.emb x 3).val = 0 + 1 * (x 3).val := rfl
    rw [pay2_apply, GB_apply, e0, e2, e3, h0]
    simp [boxWord]
  · show k1_pay1 x = GB (r1_0.emb x)
    have h0 : (x 0).val = 0 := by have : (x 0).val < 1 := (x 0).isLt; omega
    have e0 : (r1_0.emb x 0).val = 0 + 1 * (x 0).val := rfl
    have e2 : (r1_0.emb x 2).val = 0 + 1 * (x 2).val := rfl
    have e3 : (r1_0.emb x 3).val = 0 + 1 * (x 3).val := rfl
    rw [pay1_apply, GB_apply, e0, e2, e3, h0]
    simp [boxWord]

section Region
variable (V : (c : Dev nD) → (b : Ref sig .tc) → Buf (Elt F) ((c : Thread nD τ).loc b))

/-- The one window's block index is zero on every axis, at the one point. -/
theorem idx_zero : ∀ (t : Fin cfg1.N) (a : Fin 4), win1_0.index t a = 0 :=
  (by decide +kernel : ∀ (t : Fin grid1.N) (a : Fin 4), win1_0.index t a = 0)

/-- What the point writes back is the block function read through the point's block (the whole array). -/
theorem flushedB (c : Dev nD) (t : Fin cfg1.N) :
    (dat1 V c).flushed 0 t = ((cfg1.win 0).blk t).view.read (Elt F) (GB (F := F)) := by
  show (cfg1.win 0).cut (grid1.coords t) ((dat1 V c).after 0 t) = _
  rw [after1_0, out1_eq]
  funext j
  show GB (F := F) j = GB (F := F) (((cfg1.win 0).blk t).view.emb j)
  congr 1
  funext a; apply Fin.ext
  show (j a).val = win1_0.index t a * S4x16x32x32.size a + 1 * (j a).val
  rw [idx_zero t a]; omega

/-- Every index of the array lies in the one point's block. -/
theorem coverB (i : S4x16x32x32.Idx) :
    ∃ t : Fin cfg1.N, (cfg1.win 0).flush t = true ∧ i ∈ ((cfg1.win 0).blk t).view.set := by
  refine ⟨t1_0, flush1_0 t1_0, ?_⟩
  show i ∈ ((View.whole main_v4).slice (win1_0.rect t1_0)).set
  rw [View.set_slice_whole, Rect.mem_set_unit]
  intro a
  show win1_0.index t1_0 a * S4x16x32x32.size a ≤ (i a).val ∧ (i a).val < win1_0.index t1_0 a * S4x16x32x32.size a + S4x16x32x32.size a
  rw [idx_zero t1_0 a]
  have := (i a).isLt
  omega

/-- The array after the region. -/
theorem finalB (c : Dev nD) : (dat1 V c).arrAt 0 cfg1.N = GB (F := F) :=
  (dat1 V c).arrAt_eq_of_cover 0 (GB (F := F)) (fun t _ => flushedB V c t) coverB

end Region

/-- After the second kernel region (one grid point, one block: the whole array), the bounding-box array holds at
    (k, b, hp, wp) the k-th of the words hp·16, wp·16, hp·16 + 15, wp·16 + 15. -/
theorem arr1_0 (c : Dev nD) (k : Fin 4) (b : Fin 16) (hp wp : Fin 32) :
    (dat1 (V2 m ρ) c).arrAt 0 cfg1.N (ix4 k b hp wp)
      = BitVec.ofNat 32 (if k.val = 0 then hp.val * 16 else if k.val = 1 then wp.val * 16
          else if k.val = 2 then hp.val * 16 + 15 else wp.val * 16 + 15) := by
  rw [finalB]; rfl

end Cert.KernelIdeal.Hand

end
-- ==== Proof.KOut.lean ====
/-
  The kernel program's four results.  Each is a reshape of a kernel region's output array, and a reshape keeps the
  row-major number of every element: result index (n, ch) of [4194304, 3] is array index (b, y, x, ch) of [16, 512, 512, 3]
  with n = (b·512 + y)·512 + x, that is b = n / 262144, y = n / 512 % 512, x = n % 512; likewise [4194304] ← [16, 512, 512],
  [3, 4194304] ← [3, 16, 512, 512], and [4, 16384] ← [4, 16, 32, 32] with s = (b·32 + hp)·32 + wp.  Between the regions and the
  reshapes nothing else writes these buffers, so the last boundary's contents are the reshapes of the regions' outputs.
-/
import proofs.«128172_j50629074485716_1_alg».proof.Proof.FrameKernelIdeal
import proofs.«128172_j50629074485716_1_alg».proof.Proof.Spec
import proofs.«128172_j50629074485716_1_alg».proof.Proof.KFv
import proofs.«128172_j50629074485716_1_alg».proof.Proof.KSegByx
import proofs.«128172_j50629074485716_1_alg».proof.Proof.KBox
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- The kernel program's four results at the last segment boundary, as the specification's functions: each is a
    reshape (a row-major re-indexing) of a kernel region's output array. -/
theorem kernel_fv (c : Dev nD) :
    W4 m ρ c (Proc.devRef .tc main_v1) = Cert.Spec.fV (m ((c.tc : Thread nD τ).loc main_arg0)) := by
  -- the last reshape writes another buffer, the second region does not hold this one
  have e4 : W4 m ρ c (Proc.devRef .tc main_v1) = W3 m ρ c (Proc.devRef .tc main_v1) := by
    dsimp only [W4, hostOps2]; after_results
  have e3 : W3 m ρ c (Proc.devRef .tc main_v1) = W2 m ρ c (Proc.devRef .tc main_v1) :=
    W3_of_ne m ρ c main_v1 (by decide)
  rw [e4, e3]
  -- the result is the first region's [16,512,512,3] output read row-major as [4194304,3]
  dsimp only [W2, hostOps1]
  after_results
  funext j
  show shapeCast S4194304x3 (W1 m ρ c (Proc.devRef .tc main_v0_0)) shapeCasts_S16x512x512x3_S4194304x3 j = _
  rw [show W1 m ρ c (Proc.devRef .tc main_v0_0) = (dat0 (V0 m ρ) c).arrAt 1 cfg0.N from W1_arr m ρ c 1]
  obtain ⟨n, ch, rfl⟩ : ∃ (n : Fin 4194304) (ch : Fin 3), j = ix2 n ch := ⟨j 0, j 1, eq_ix2 j⟩
  -- entry (n, ch) is entry (b, y, x, ch) with n = (b·512 + y)·512 + x
  rw [shapeCast_apply _ _ (ix2 n ch)
    (ix4 (⟨Spec.pb n.val, Spec.pb_lt n.isLt⟩ : Fin 16) (⟨Spec.py n.val, Spec.py_lt _⟩ : Fin 512)
      (⟨Spec.px n.val, Spec.px_lt _⟩ : Fin 512) ch) ?_, arr0_1, Spec.fV_apply]
  rw [Shape.rowMajor_val_four, Shape.rowMajor_val_two]
  show ((Spec.pb n.val * 512 + Spec.py n.val) * 512 + Spec.px n.val) * 3 + ch.val = n.val * 3 + ch.val
  unfold Spec.pb Spec.py Spec.px
  omega

theorem kernel_seg (c : Dev nD) : W4 m ρ c (Proc.devRef .tc main_v2) = Cert.Spec.seg := by
  have e4 : W4 m ρ c (Proc.devRef .tc main_v2) = W3 m ρ c (Proc.devRef .tc main_v2) := by
    dsimp only [W4, hostOps2]; after_results
  have e3 : W3 m ρ c (Proc.devRef .tc main_v2) = W2 m ρ c (Proc.devRef .tc main_v2) :=
    W3_of_ne m ρ c main_v2 (by decide)
  rw [e4, e3]
  -- the result is the first region's [16,512,512] output read row-major as [4194304]
  dsimp only [W2, hostOps1]
  after_results
  funext j
  show shapeCast S4194304 (W1 m ρ c (Proc.devRef .tc main_v0_1)) shapeCasts_S16x512x512_S4194304 j = _
  rw [show W1 m ρ c (Proc.devRef .tc main_v0_1) = (dat0 (V0 m ρ) c).arrAt 2 cfg0.N from W1_arr m ρ c 2]
  obtain ⟨n, rfl⟩ : ∃ (n : Fin 4194304), j = ix1 n := ⟨j 0, eq_ix1 j⟩
  -- entry n is entry (b, y, x) with n = (b·512 + y)·512 + x
  rw [shapeCast_apply _ _ (ix1 n)
    (ix3 (⟨Spec.pb n.val, Spec.pb_lt n.isLt⟩ : Fin 16) (⟨Spec.py n.val, Spec.py_lt _⟩ : Fin 512)
      (⟨Spec.px n.val, Spec.px_lt _⟩ : Fin 512)) ?_, arr0_2, Spec.seg_apply]
  · rfl
  rw [Shape.rowMajor_val_three, Shape.rowMajor_val_one]
  show (Spec.pb n.val * 512 + Spec.py n.val) * 512 + Spec.px n.val = n.val
  unfold Spec.pb Spec.py Spec.px
  omega

theorem kernel_byx (c : Dev nD) : W4 m ρ c (Proc.devRef .tc main_v3) = Cert.Spec.byx := by
  have e4 : W4 m ρ c (Proc.devRef .tc main_v3) = W3 m ρ c (Proc.devRef .tc main_v3) := by
    dsimp only [W4, hostOps2]; after_results
  have e3 : W3 m ρ c (Proc.devRef .tc main_v3) = W2 m ρ c (Proc.devRef .tc main_v3) :=
    W3_of_ne m ρ c main_v3 (by decide)
  rw [e4, e3]
  -- the result is the first region's [3,16,512,512] output read row-major as [3,4194304]
  dsimp only [W2, hostOps1]
  after_results
  funext j
  show shapeCast S3x4194304 (W1 m ρ c (Proc.devRef .tc main_v0_2)) shapeCasts_S3x16x512x512_S3x4194304 j = _
  rw [show W1 m ρ c (Proc.devRef .tc main_v0_2) = (dat0 (V0 m ρ) c).arrAt 3 cfg0.N from W1_arr m ρ c 3]
  obtain ⟨k, n, rfl⟩ : ∃ (k : Fin 3) (n : Fin 4194304), j = ix2 k n := ⟨j 0, j 1, eq_ix2 j⟩
  -- entry (k, n) is entry (k, b, y, x) with n = (b·512 + y)·512 + x
  rw [shapeCast_apply _ _ (ix2 k n)
    (ix4 k (⟨Spec.pb n.val, Spec.pb_lt n.isLt⟩ : Fin 16) (⟨Spec.py n.val, Spec.py_lt _⟩ : Fin 512)
      (⟨Spec.px n.val, Spec.px_lt _⟩ : Fin 512)) ?_, arr0_3, Spec.byx_apply]
  · rfl
  rw [Shape.rowMajor_val_four, Shape.rowMajor_val_two]
  show ((k.val * 16 + Spec.pb n.val) * 512 + Spec.py n.val) * 512 + Spec.px n.val = k.val * 4194304 + n.val
  unfold Spec.pb Spec.py Spec.px
  omega

theorem kernel_bb (c : Dev nD) : W4 m ρ c (Proc.devRef .tc main_v5) = Cert.Spec.bb := by
  -- the result is the second region's [4,16,32,32] output read row-major as [4,16384]
  dsimp only [W4, hostOps2]
  after_results
  funext j
  show shapeCast S4x16384 (W3 m ρ c (Proc.devRef .tc main_v4)) shapeCasts_S4x16x32x32_S4x16384 j = _
  rw [show W3 m ρ c (Proc.devRef .tc main_v4) = (dat1 (V2 m ρ) c).arrAt 0 cfg1.N from W3_arr m ρ c 0]
  obtain ⟨k, s, rfl⟩ : ∃ (k : Fin 4) (s : Fin 16384), j = ix2 k s := ⟨j 0, j 1, eq_ix2 j⟩
  -- entry (k, s) is entry (k, b, hp, wp) with s = (b·32 + hp)·32 + wp
  rw [shapeCast_apply _ _ (ix2 k s)
    (ix4 k (⟨s.val / 1024, by omega⟩ : Fin 16) (⟨s.val / 32 % 32, by omega⟩ : Fin 32)
      (⟨s.val % 32, by omega⟩ : Fin 32)) ?_, arr1_0, Spec.bb_apply]
  · rfl
  rw [Shape.rowMajor_val_four, Shape.rowMajor_val_two]
  show ((k.val * 16 + s.val / 1024) * 32 + s.val / 32 % 32) * 32 + s.val % 32 = k.val * 16384 + s.val
  omega

end Cert.KernelIdeal.Hand

end
-- ==== Proof.RefOps.lean ====
/- GENERATED by: node scratch/mk_refops.js proof/ReferenceIdeal.lean proof/Proof/RefOps.lean 128172_j50629074485716_1_alg (run in the unit directory; the script is filed with the unit). A TABLE, no argument:
  the reference program's @main as lists of its host operations, in program order, each line of the printed program
  copied as it stands, with every call of a module-local function (`divmod`, `floor_divide`, `remainder`, `_where` …)
  replaced by the callee's lines over that call's own buffers — what the compiler's inlining makes of it.  Six
  consecutive stretches, cut where the mathematics turns: three quotient-and-remainder steps that split a pixel number
  into column, row and image; the clamping selects; the patch number; the four results.  The whole program is their
  concatenation `ops`; `opsIdx` is the part that computes the coordinates, `opsOut` the part that computes the results
  from them. -/
import proofs.«128172_j50629074485716_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1–39: the pixel numbers n (an iota), the constant 512, and the first `divmod(n, 512)` inlined — the floor quotient n / 512 into `main_v1_0`, the remainder n mod 512 into `main_v1_1`. -/
abbrev opsA : List (HloOp τ sig (Elt F)) :=
  [ StableHlo.nullary main_v0 (iotaInDim S4194304 32 0),
    StableHlo.nullary main_c (constantI S_ 32 512#32),
    StableHlo.TRef.unary (.of main_c) main_call0.v0 id,
    StableHlo.TRef.unary main_call0.v0 main_call0.call0.v0 (broadcastInDim S4194304 ![] bcast_S_S4194304),
    StableHlo.TRef.binary (.of main_v0) main_call0.call0.v0 main_call0.call0.v1 Host.divsi,
    StableHlo.TRef.unary (.of main_v0) main_call0.call0.v2 signi,
    StableHlo.TRef.unary main_call0.v0 main_call0.call0.v3 signi,
    StableHlo.TRef.unary main_call0.call0.v3 main_call0.call0.v4 (broadcastInDim S4194304 ![] bcast_S_S4194304),
    StableHlo.TRef.binary main_call0.call0.v2 main_call0.call0.v4 main_call0.call0.v5 (cmpi .ne),
    StableHlo.TRef.unary main_call0.v0 main_call0.call0.v6 (broadcastInDim S4194304 ![] bcast_S_S4194304),
    StableHlo.TRef.binary (.of main_v0) main_call0.call0.v6 main_call0.call0.v7 Host.remsi,
    StableHlo.TRef.nullary main_call0.call0.c (constantI S_ 32 0#32),
    StableHlo.TRef.unary main_call0.call0.c main_call0.call0.v8 (broadcastInDim S4194304 ![] bcast_S_S4194304),
    StableHlo.TRef.binary main_call0.call0.v7 main_call0.call0.v8 main_call0.call0.v9 (cmpi .ne),
    StableHlo.TRef.binary main_call0.call0.v5 main_call0.call0.v9 main_call0.call0.v10 andi,
    StableHlo.TRef.nullary main_call0.call0.c_0 (constantI S_ 32 1#32),
    StableHlo.TRef.unary main_call0.call0.c_0 main_call0.call0.v11 (broadcastInDim S4194304 ![] bcast_S_S4194304),
    StableHlo.TRef.binary main_call0.call0.v1 main_call0.call0.v11 main_call0.call0.v12 subi,
    StableHlo.TRef.ternary main_call0.call0.v10 main_call0.call0.v12 main_call0.call0.v1 main_call0.call0.call0.v0 select,
    StableHlo.TRef.nullary main_call0.call1.c (constantI S_ 32 0#32),
    StableHlo.TRef.binary main_call0.v0 main_call0.call1.c main_call0.call1.v0 (cmpi .eq),
    StableHlo.TRef.nullary main_call0.call1.c_0 (constantI S_ 32 1#32),
    StableHlo.TRef.ternary main_call0.call1.v0 main_call0.call1.c_0 main_call0.v0 main_call0.call1.call0.v0 select,
    StableHlo.TRef.unary main_call0.call1.call0.v0 main_call0.call1.v2 (broadcastInDim S4194304 ![] bcast_S_S4194304),
    StableHlo.TRef.binary (.of main_v0) main_call0.call1.v2 main_call0.call1.v3 Host.remsi,
    StableHlo.TRef.nullary main_call0.call1.c_1 (constantI S_ 32 0#32),
    StableHlo.TRef.unary main_call0.call1.c_1 main_call0.call1.v4 (broadcastInDim S4194304 ![] bcast_S_S4194304),
    StableHlo.TRef.binary main_call0.call1.v3 main_call0.call1.v4 main_call0.call1.v5 (cmpi .ne),
    StableHlo.TRef.nullary main_call0.call1.c_2 (constantI S_ 32 0#32),
    StableHlo.TRef.unary main_call0.call1.c_2 main_call0.call1.v6 (broadcastInDim S4194304 ![] bcast_S_S4194304),
    StableHlo.TRef.binary main_call0.call1.v3 main_call0.call1.v6 main_call0.call1.v7 (cmpi .slt),
    StableHlo.TRef.nullary main_call0.call1.c_3 (constantI S_ 32 0#32),
    StableHlo.TRef.binary main_call0.call1.call0.v0 main_call0.call1.c_3 main_call0.call1.v8 (cmpi .slt),
    StableHlo.TRef.unary main_call0.call1.v8 main_call0.call1.v9 (broadcastInDim S4194304 ![] bcast_S_S4194304),
    StableHlo.TRef.binary main_call0.call1.v7 main_call0.call1.v9 main_call0.call1.v10 (cmpi .ne),
    StableHlo.TRef.binary main_call0.call1.v10 main_call0.call1.v5 main_call0.call1.v11 andi,
    StableHlo.TRef.unary main_call0.call1.call0.v0 main_call0.call1.v12 (broadcastInDim S4194304 ![] bcast_S_S4194304),
    StableHlo.TRef.binary main_call0.call1.v3 main_call0.call1.v12 main_call0.call1.v13 addi,
    StableHlo.TRef.ternary main_call0.call1.v11 main_call0.call1.v13 main_call0.call1.v3 main_call0.call1.v14 select ]

/-- Operations 40–77: the constant 512 and `divmod(n / 512, 512)` inlined — quotient into `main_v2_0`, remainder (the row) into `main_v2_1`. -/
abbrev opsB : List (HloOp τ sig (Elt F)) :=
  [ StableHlo.nullary main_c_0 (constantI S_ 32 512#32),
    StableHlo.TRef.unary (.of main_c_0) main_call1.v0 id,
    StableHlo.TRef.unary main_call1.v0 main_call1.call0.v0 (broadcastInDim S4194304 ![] bcast_S_S4194304),
    StableHlo.TRef.binary (.of main_v1_0) main_call1.call0.v0 main_call1.call0.v1 Host.divsi,
    StableHlo.TRef.unary (.of main_v1_0) main_call1.call0.v2 signi,
    StableHlo.TRef.unary main_call1.v0 main_call1.call0.v3 signi,
    StableHlo.TRef.unary main_call1.call0.v3 main_call1.call0.v4 (broadcastInDim S4194304 ![] bcast_S_S4194304),
    StableHlo.TRef.binary main_call1.call0.v2 main_call1.call0.v4 main_call1.call0.v5 (cmpi .ne),
    StableHlo.TRef.unary main_call1.v0 main_call1.call0.v6 (broadcastInDim S4194304 ![] bcast_S_S4194304),
    StableHlo.TRef.binary (.of main_v1_0) main_call1.call0.v6 main_call1.call0.v7 Host.remsi,
    StableHlo.TRef.nullary main_call1.call0.c (constantI S_ 32 0#32),
    StableHlo.TRef.unary main_call1.call0.c main_call1.call0.v8 (broadcastInDim S4194304 ![] bcast_S_S4194304),
    StableHlo.TRef.binary main_call1.call0.v7 main_call1.call0.v8 main_call1.call0.v9 (cmpi .ne),
    StableHlo.TRef.binary main_call1.call0.v5 main_call1.call0.v9 main_call1.call0.v10 andi,
    StableHlo.TRef.nullary main_call1.call0.c_0 (constantI S_ 32 1#32),
    StableHlo.TRef.unary main_call1.call0.c_0 main_call1.call0.v11 (broadcastInDim S4194304 ![] bcast_S_S4194304),
    StableHlo.TRef.binary main_call1.call0.v1 main_call1.call0.v11 main_call1.call0.v12 subi,
    StableHlo.TRef.ternary main_call1.call0.v10 main_call1.call0.v12 main_call1.call0.v1 main_call1.call0.call0.v0 select,
    StableHlo.TRef.nullary main_call1.call1.c (constantI S_ 32 0#32),
    StableHlo.TRef.binary main_call1.v0 main_call1.call1.c main_call1.call1.v0 (cmpi .eq),
    StableHlo.TRef.nullary main_call1.call1.c_0 (constantI S_ 32 1#32),
    StableHlo.TRef.ternary main_call1.call1.v0 main_call1.call1.c_0 main_call1.v0 main_call1.call1.call0.v0 select,
    StableHlo.TRef.unary main_call1.call1.call0.v0 main_call1.call1.v2 (broadcastInDim S4194304 ![] bcast_S_S4194304),
    StableHlo.TRef.binary (.of main_v1_0) main_call1.call1.v2 main_call1.call1.v3 Host.remsi,
    StableHlo.TRef.nullary main_call1.call1.c_1 (constantI S_ 32 0#32),
    StableHlo.TRef.unary main_call1.call1.c_1 main_call1.call1.v4 (broadcastInDim S4194304 ![] bcast_S_S4194304),
    StableHlo.TRef.binary main_call1.call1.v3 main_call1.call1.v4 main_call1.call1.v5 (cmpi .ne),
    StableHlo.TRef.nullary main_call1.call1.c_2 (constantI S_ 32 0#32),
    StableHlo.TRef.unary main_call1.call1.c_2 main_call1.call1.v6 (broadcastInDim S4194304 ![] bcast_S_S4194304),
    StableHlo.TRef.binary main_call1.call1.v3 main_call1.call1.v6 main_call1.call1.v7 (cmpi .slt),
    StableHlo.TRef.nullary main_call1.call1.c_3 (constantI S_ 32 0#32),
    StableHlo.TRef.binary main_call1.call1.call0.v0 main_call1.call1.c_3 main_call1.call1.v8 (cmpi .slt),
    StableHlo.TRef.unary main_call1.call1.v8 main_call1.call1.v9 (broadcastInDim S4194304 ![] bcast_S_S4194304),
    StableHlo.TRef.binary main_call1.call1.v7 main_call1.call1.v9 main_call1.call1.v10 (cmpi .ne),
    StableHlo.TRef.binary main_call1.call1.v10 main_call1.call1.v5 main_call1.call1.v11 andi,
    StableHlo.TRef.unary main_call1.call1.call0.v0 main_call1.call1.v12 (broadcastInDim S4194304 ![] bcast_S_S4194304),
    StableHlo.TRef.binary main_call1.call1.v3 main_call1.call1.v12 main_call1.call1.v13 addi,
    StableHlo.TRef.ternary main_call1.call1.v11 main_call1.call1.v13 main_call1.call1.v3 main_call1.call1.v14 select ]

/-- Operations 78–115: the constant 16 and `divmod(n / 262144, 16)` inlined — quotient into `main_v3_0`, remainder (the image) into `main_v3_1`. -/
abbrev opsC : List (HloOp τ sig (Elt F)) :=
  [ StableHlo.nullary main_c_1 (constantI S_ 32 16#32),
    StableHlo.TRef.unary (.of main_c_1) main_call2.v0 id,
    StableHlo.TRef.unary main_call2.v0 main_call2.call0.v0 (broadcastInDim S4194304 ![] bcast_S_S4194304),
    StableHlo.TRef.binary (.of main_v2_0) main_call2.call0.v0 main_call2.call0.v1 Host.divsi,
    StableHlo.TRef.unary (.of main_v2_0) main_call2.call0.v2 signi,
    StableHlo.TRef.unary main_call2.v0 main_call2.call0.v3 signi,
    StableHlo.TRef.unary main_call2.call0.v3 main_call2.call0.v4 (broadcastInDim S4194304 ![] bcast_S_S4194304),
    StableHlo.TRef.binary main_call2.call0.v2 main_call2.call0.v4 main_call2.call0.v5 (cmpi .ne),
    StableHlo.TRef.unary main_call2.v0 main_call2.call0.v6 (broadcastInDim S4194304 ![] bcast_S_S4194304),
    StableHlo.TRef.binary (.of main_v2_0) main_call2.call0.v6 main_call2.call0.v7 Host.remsi,
    StableHlo.TRef.nullary main_call2.call0.c (constantI S_ 32 0#32),
    StableHlo.TRef.unary main_call2.call0.c main_call2.call0.v8 (broadcastInDim S4194304 ![] bcast_S_S4194304),
    StableHlo.TRef.binary main_call2.call0.v7 main_call2.call0.v8 main_call2.call0.v9 (cmpi .ne),
    StableHlo.TRef.binary main_call2.call0.v5 main_call2.call0.v9 main_call2.call0.v10 andi,
    StableHlo.TRef.nullary main_call2.call0.c_0 (constantI S_ 32 1#32),
    StableHlo.TRef.unary main_call2.call0.c_0 main_call2.call0.v11 (broadcastInDim S4194304 ![] bcast_S_S4194304),
    StableHlo.TRef.binary main_call2.call0.v1 main_call2.call0.v11 main_call2.call0.v12 subi,
    StableHlo.TRef.ternary main_call2.call0.v10 main_call2.call0.v12 main_call2.call0.v1 main_call2.call0.call0.v0 select,
    StableHlo.TRef.nullary main_call2.call1.c (constantI S_ 32 0#32),
    StableHlo.TRef.binary main_call2.v0 main_call2.call1.c main_call2.call1.v0 (cmpi .eq),
    StableHlo.TRef.nullary main_call2.call1.c_0 (constantI S_ 32 1#32),
    StableHlo.TRef.ternary main_call2.call1.v0 main_call2.call1.c_0 main_call2.v0 main_call2.call1.call0.v0 select,
    StableHlo.TRef.unary main_call2.call1.call0.v0 main_call2.call1.v2 (broadcastInDim S4194304 ![] bcast_S_S4194304),
    StableHlo.TRef.binary (.of main_v2_0) main_call2.call1.v2 main_call2.call1.v3 Host.remsi,
    StableHlo.TRef.nullary main_call2.call1.c_1 (constantI S_ 32 0#32),
    StableHlo.TRef.unary main_call2.call1.c_1 main_call2.call1.v4 (broadcastInDim S4194304 ![] bcast_S_S4194304),
    StableHlo.TRef.binary main_call2.call1.v3 main_call2.call1.v4 main_call2.call1.v5 (cmpi .ne),
    StableHlo.TRef.nullary main_call2.call1.c_2 (constantI S_ 32 0#32),
    StableHlo.TRef.unary main_call2.call1.c_2 main_call2.call1.v6 (broadcastInDim S4194304 ![] bcast_S_S4194304),
    StableHlo.TRef.binary main_call2.call1.v3 main_call2.call1.v6 main_call2.call1.v7 (cmpi .slt),
    StableHlo.TRef.nullary main_call2.call1.c_3 (constantI S_ 32 0#32),
    StableHlo.TRef.binary main_call2.call1.call0.v0 main_call2.call1.c_3 main_call2.call1.v8 (cmpi .slt),
    StableHlo.TRef.unary main_call2.call1.v8 main_call2.call1.v9 (broadcastInDim S4194304 ![] bcast_S_S4194304),
    StableHlo.TRef.binary main_call2.call1.v7 main_call2.call1.v9 main_call2.call1.v10 (cmpi .ne),
    StableHlo.TRef.binary main_call2.call1.v10 main_call2.call1.v5 main_call2.call1.v11 andi,
    StableHlo.TRef.unary main_call2.call1.call0.v0 main_call2.call1.v12 (broadcastInDim S4194304 ![] bcast_S_S4194304),
    StableHlo.TRef.binary main_call2.call1.v3 main_call2.call1.v12 main_call2.call1.v13 addi,
    StableHlo.TRef.ternary main_call2.call1.v11 main_call2.call1.v13 main_call2.call1.v3 main_call2.call1.v14 select ]

/-- Operations 116–145: the two range tests on the last quotient (positive; below −1) and the six selects that clamp an out-of-range pixel number's coordinates: the image into `main_v9`, the row into `main_v11`, the column into `main_v13`. -/
abbrev opsD : List (HloOp τ sig (Elt F)) :=
  [ StableHlo.nullary main_c_2 (constantI S_ 32 0#32),
    StableHlo.unary main_c_2 main_v4 (broadcastInDim S4194304 ![] bcast_S_S4194304 : (⟨S_, .i32⟩ : BufTy).Contents (Elt F) → (⟨S4194304, .i32⟩ : BufTy).Contents (Elt F)),
    StableHlo.binary main_v3_0 main_v4 main_v5 (cmpi .sgt : (⟨S4194304, .i32⟩ : BufTy).Contents (Elt F) → (⟨S4194304, .i32⟩ : BufTy).Contents (Elt F) → (⟨S4194304, .i1⟩ : BufTy).Contents (Elt F)),
    StableHlo.nullary main_c_3 (constantI S_ 32 4294967295#32),
    StableHlo.unary main_c_3 main_v6 (broadcastInDim S4194304 ![] bcast_S_S4194304 : (⟨S_, .i32⟩ : BufTy).Contents (Elt F) → (⟨S4194304, .i32⟩ : BufTy).Contents (Elt F)),
    StableHlo.binary main_v3_0 main_v6 main_v7 (cmpi .slt : (⟨S4194304, .i32⟩ : BufTy).Contents (Elt F) → (⟨S4194304, .i32⟩ : BufTy).Contents (Elt F) → (⟨S4194304, .i1⟩ : BufTy).Contents (Elt F)),
    StableHlo.nullary main_c_4 (constantI S_ 32 0#32),
    StableHlo.TRef.unary (.of main_c_4) main_call3.v0 id,
    StableHlo.TRef.unary main_call3.v0 main_call3.v1 (broadcastInDim S4194304 ![] bcast_S_S4194304),
    StableHlo.TRef.ternary (.of main_v7) main_call3.v1 (.of main_v3_1) main_call3.v2 select,
    StableHlo.nullary main_c_5 (constantI S_ 32 15#32),
    StableHlo.TRef.unary (.of main_c_5) main_call4.v0 id,
    StableHlo.TRef.unary main_call4.v0 main_call4.v1 (broadcastInDim S4194304 ![] bcast_S_S4194304),
    StableHlo.TRef.ternary (.of main_v5) main_call4.v1 (.of main_v8) main_call4.v2 select,
    StableHlo.nullary main_c_6 (constantI S_ 32 0#32),
    StableHlo.TRef.unary (.of main_c_6) main_call5.v0 id,
    StableHlo.TRef.unary main_call5.v0 main_call5.v1 (broadcastInDim S4194304 ![] bcast_S_S4194304),
    StableHlo.TRef.ternary (.of main_v7) main_call5.v1 (.of main_v2_1) main_call5.v2 select,
    StableHlo.nullary main_c_7 (constantI S_ 32 511#32),
    StableHlo.TRef.unary (.of main_c_7) main_call6.v0 id,
    StableHlo.TRef.unary main_call6.v0 main_call6.v1 (broadcastInDim S4194304 ![] bcast_S_S4194304),
    StableHlo.TRef.ternary (.of main_v5) main_call6.v1 (.of main_v10) main_call6.v2 select,
    StableHlo.nullary main_c_8 (constantI S_ 32 0#32),
    StableHlo.TRef.unary (.of main_c_8) main_call7.v0 id,
    StableHlo.TRef.unary main_call7.v0 main_call7.v1 (broadcastInDim S4194304 ![] bcast_S_S4194304),
    StableHlo.TRef.ternary (.of main_v7) main_call7.v1 (.of main_v1_1) main_call7.v2 select,
    StableHlo.nullary main_c_9 (constantI S_ 32 511#32),
    StableHlo.TRef.unary (.of main_c_9) main_call8.v0 id,
    StableHlo.TRef.unary main_call8.v0 main_call8.v1 (broadcastInDim S4194304 ![] bcast_S_S4194304),
    StableHlo.TRef.ternary (.of main_v5) main_call8.v1 (.of main_v12) main_call8.v2 select ]

/-- Operations 146–189: the patch number `(b·1024 + (y div 16)·32) + x div 16` into `main_v21`, the two floor divisions by 16 inlined. -/
abbrev opsE : List (HloOp τ sig (Elt F)) :=
  [ StableHlo.nullary main_c_10 (constantI S_ 32 1024#32),
    StableHlo.unary main_c_10 main_v14 (broadcastInDim S4194304 ![] bcast_S_S4194304 : (⟨S_, .i32⟩ : BufTy).Contents (Elt F) → (⟨S4194304, .i32⟩ : BufTy).Contents (Elt F)),
    StableHlo.binary main_v9 main_v14 main_v15 (muli : (⟨S4194304, .i32⟩ : BufTy).Contents (Elt F) → (⟨S4194304, .i32⟩ : BufTy).Contents (Elt F) → (⟨S4194304, .i32⟩ : BufTy).Contents (Elt F)),
    StableHlo.nullary main_c_11 (constantI S_ 32 16#32),
    StableHlo.TRef.unary (.of main_c_11) main_call9.v0 id,
    StableHlo.TRef.unary main_call9.v0 main_call9.v1 (broadcastInDim S4194304 ![] bcast_S_S4194304),
    StableHlo.TRef.binary (.of main_v11) main_call9.v1 main_call9.v2 Host.divsi,
    StableHlo.TRef.unary (.of main_v11) main_call9.v3 signi,
    StableHlo.TRef.unary main_call9.v0 main_call9.v4 signi,
    StableHlo.TRef.unary main_call9.v4 main_call9.v5 (broadcastInDim S4194304 ![] bcast_S_S4194304),
    StableHlo.TRef.binary main_call9.v3 main_call9.v5 main_call9.v6 (cmpi .ne),
    StableHlo.TRef.unary main_call9.v0 main_call9.v7 (broadcastInDim S4194304 ![] bcast_S_S4194304),
    StableHlo.TRef.binary (.of main_v11) main_call9.v7 main_call9.v8 Host.remsi,
    StableHlo.TRef.nullary main_call9.c (constantI S_ 32 0#32),
    StableHlo.TRef.unary main_call9.c main_call9.v9 (broadcastInDim S4194304 ![] bcast_S_S4194304),
    StableHlo.TRef.binary main_call9.v8 main_call9.v9 main_call9.v10 (cmpi .ne),
    StableHlo.TRef.binary main_call9.v6 main_call9.v10 main_call9.v11 andi,
    StableHlo.TRef.nullary main_call9.c_0 (constantI S_ 32 1#32),
    StableHlo.TRef.unary main_call9.c_0 main_call9.v12 (broadcastInDim S4194304 ![] bcast_S_S4194304),
    StableHlo.TRef.binary main_call9.v2 main_call9.v12 main_call9.v13 subi,
    StableHlo.TRef.ternary main_call9.v11 main_call9.v13 main_call9.v2 main_call9.call0.v0 select,
    StableHlo.nullary main_c_12 (constantI S_ 32 32#32),
    StableHlo.unary main_c_12 main_v17 (broadcastInDim S4194304 ![] bcast_S_S4194304 : (⟨S_, .i32⟩ : BufTy).Contents (Elt F) → (⟨S4194304, .i32⟩ : BufTy).Contents (Elt F)),
    StableHlo.binary main_v16 main_v17 main_v18 (muli : (⟨S4194304, .i32⟩ : BufTy).Contents (Elt F) → (⟨S4194304, .i32⟩ : BufTy).Contents (Elt F) → (⟨S4194304, .i32⟩ : BufTy).Contents (Elt F)),
    StableHlo.binary main_v15 main_v18 main_v19 (addi : (⟨S4194304, .i32⟩ : BufTy).Contents (Elt F) → (⟨S4194304, .i32⟩ : BufTy).Contents (Elt F) → (⟨S4194304, .i32⟩ : BufTy).Contents (Elt F)),
    StableHlo.nullary main_c_13 (constantI S_ 32 16#32),
    StableHlo.TRef.unary (.of main_c_13) main_call10.v0 id,
    StableHlo.TRef.unary main_call10.v0 main_call10.v1 (broadcastInDim S4194304 ![] bcast_S_S4194304),
    StableHlo.TRef.binary (.of main_v13) main_call10.v1 main_call10.v2 Host.divsi,
    StableHlo.TRef.unary (.of main_v13) main_call10.v3 signi,
    StableHlo.TRef.unary main_call10.v0 main_call10.v4 signi,
    StableHlo.TRef.unary main_call10.v4 main_call10.v5 (broadcastInDim S4194304 ![] bcast_S_S4194304),
    StableHlo.TRef.binary main_call10.v3 main_call10.v5 main_call10.v6 (cmpi .ne),
    StableHlo.TRef.unary main_call10.v0 main_call10.v7 (broadcastInDim S4194304 ![] bcast_S_S4194304),
    StableHlo.TRef.binary (.of main_v13) main_call10.v7 main_call10.v8 Host.remsi,
    StableHlo.TRef.nullary main_call10.c (constantI S_ 32 0#32),
    StableHlo.TRef.unary main_call10.c main_call10.v9 (broadcastInDim S4194304 ![] bcast_S_S4194304),
    StableHlo.TRef.binary main_call10.v8 main_call10.v9 main_call10.v10 (cmpi .ne),
    StableHlo.TRef.binary main_call10.v6 main_call10.v10 main_call10.v11 andi,
    StableHlo.TRef.nullary main_call10.c_0 (constantI S_ 32 1#32),
    StableHlo.TRef.unary main_call10.c_0 main_call10.v12 (broadcastInDim S4194304 ![] bcast_S_S4194304),
    StableHlo.TRef.binary main_call10.v2 main_call10.v12 main_call10.v13 subi,
    StableHlo.TRef.ternary main_call10.v11 main_call10.v13 main_call10.v2 main_call10.call0.v0 select,
    StableHlo.binary main_v19 main_v20 main_v21 (addi : (⟨S4194304, .i32⟩ : BufTy).Contents (Elt F) → (⟨S4194304, .i32⟩ : BufTy).Contents (Elt F) → (⟨S4194304, .i32⟩ : BufTy).Contents (Elt F)) ]

/-- Operations 190–216: the transposed and flattened image into `main_v23`; the four scatter-min / scatter-max reductions of rows and columns by patch number and their stacking into `main_v40`; the stacking of the three coordinates into `main_v44`. -/
abbrev opsF : List (HloOp τ sig (Elt F)) :=
  [ StableHlo.unary main_arg0 main_v22 ((transpose S16x512x512x3 [0, 2, 3, 1] · transposes_S16x3x512x512_S16x512x512x3_0_2_3_1) : (⟨S16x3x512x512, .f32⟩ : BufTy).Contents (Elt F) → (⟨S16x512x512x3, .f32⟩ : BufTy).Contents (Elt F)),
    StableHlo.reshape main_v22 main_v23 rfl shapeCasts_S16x512x512x3_S4194304x3,
    StableHlo.nullary main_c_14 (constantI S_ 32 2147483647#32),
    StableHlo.unary main_c_14 main_v24 (broadcastInDim S16384 ![] bcast_S_S16384 : (⟨S_, .i32⟩ : BufTy).Contents (Elt F) → (⟨S16384, .i32⟩ : BufTy).Contents (Elt F)),
    StableHlo.unary main_v21 main_v25 (broadcastInDim S4194304x1 ![0] bcast_S4194304_S4194304x1_0 : (⟨S4194304, .i32⟩ : BufTy).Contents (Elt F) → (⟨S4194304x1, .i32⟩ : BufTy).Contents (Elt F)),
    StableHlo.ternary main_v24 main_v25 main_v11 main_v26 ((fun x i u => Host.scatter scatter_S16384_S4194304x1_S4194304_n_0_0_1 IntOp.minsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_15 (constantI S_ 32 2147483647#32),
    StableHlo.unary main_c_15 main_v27 (broadcastInDim S16384 ![] bcast_S_S16384 : (⟨S_, .i32⟩ : BufTy).Contents (Elt F) → (⟨S16384, .i32⟩ : BufTy).Contents (Elt F)),
    StableHlo.unary main_v21 main_v28 (broadcastInDim S4194304x1 ![0] bcast_S4194304_S4194304x1_0 : (⟨S4194304, .i32⟩ : BufTy).Contents (Elt F) → (⟨S4194304x1, .i32⟩ : BufTy).Contents (Elt F)),
    StableHlo.ternary main_v27 main_v28 main_v13 main_v29 ((fun x i u => Host.scatter scatter_S16384_S4194304x1_S4194304_n_0_0_1 IntOp.minsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_16 (constantI S_ 32 2147483648#32),
    StableHlo.unary main_c_16 main_v30 (broadcastInDim S16384 ![] bcast_S_S16384 : (⟨S_, .i32⟩ : BufTy).Contents (Elt F) → (⟨S16384, .i32⟩ : BufTy).Contents (Elt F)),
    StableHlo.unary main_v21 main_v31 (broadcastInDim S4194304x1 ![0] bcast_S4194304_S4194304x1_0 : (⟨S4194304, .i32⟩ : BufTy).Contents (Elt F) → (⟨S4194304x1, .i32⟩ : BufTy).Contents (Elt F)),
    StableHlo.ternary main_v30 main_v31 main_v11 main_v32 ((fun x i u => Host.scatter scatter_S16384_S4194304x1_S4194304_n_0_0_1 IntOp.maxsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_17 (constantI S_ 32 2147483648#32),
    StableHlo.unary main_c_17 main_v33 (broadcastInDim S16384 ![] bcast_S_S16384 : (⟨S_, .i32⟩ : BufTy).Contents (Elt F) → (⟨S16384, .i32⟩ : BufTy).Contents (Elt F)),
    StableHlo.unary main_v21 main_v34 (broadcastInDim S4194304x1 ![0] bcast_S4194304_S4194304x1_0 : (⟨S4194304, .i32⟩ : BufTy).Contents (Elt F) → (⟨S4194304x1, .i32⟩ : BufTy).Contents (Elt F)),
    StableHlo.ternary main_v33 main_v34 main_v13 main_v35 ((fun x i u => Host.scatter scatter_S16384_S4194304x1_S4194304_n_0_0_1 IntOp.maxsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.unary main_v26 main_v36 (broadcastInDim S1x16384 ![1] bcast_S16384_S1x16384_1 : (⟨S16384, .i32⟩ : BufTy).Contents (Elt F) → (⟨S1x16384, .i32⟩ : BufTy).Contents (Elt F)),
    StableHlo.unary main_v29 main_v37 (broadcastInDim S1x16384 ![1] bcast_S16384_S1x16384_1 : (⟨S16384, .i32⟩ : BufTy).Contents (Elt F) → (⟨S1x16384, .i32⟩ : BufTy).Contents (Elt F)),
    StableHlo.unary main_v32 main_v38 (broadcastInDim S1x16384 ![1] bcast_S16384_S1x16384_1 : (⟨S16384, .i32⟩ : BufTy).Contents (Elt F) → (⟨S1x16384, .i32⟩ : BufTy).Contents (Elt F)),
    StableHlo.unary main_v35 main_v39 (broadcastInDim S1x16384 ![1] bcast_S16384_S1x16384_1 : (⟨S16384, .i32⟩ : BufTy).Contents (Elt F) → (⟨S1x16384, .i32⟩ : BufTy).Contents (Elt F)),
    StableHlo.nary ![main_v36, main_v37, main_v38, main_v39] main_v40 (fun u => concatenate S4x16384 0 [⟨S1x16384, u 0⟩, ⟨S1x16384, u 1⟩, ⟨S1x16384, u 2⟩, ⟨S1x16384, u 3⟩] concatenates_S1x16384_S1x16384_S1x16384_S1x16384_S4x16384_d0),
    StableHlo.unary main_v9 main_v41 (broadcastInDim S1x4194304 ![1] bcast_S4194304_S1x4194304_1 : (⟨S4194304, .i32⟩ : BufTy).Contents (Elt F) → (⟨S1x4194304, .i32⟩ : BufTy).Contents (Elt F)),
    StableHlo.unary main_v11 main_v42 (broadcastInDim S1x4194304 ![1] bcast_S4194304_S1x4194304_1 : (⟨S4194304, .i32⟩ : BufTy).Contents (Elt F) → (⟨S1x4194304, .i32⟩ : BufTy).Contents (Elt F)),
    StableHlo.unary main_v13 main_v43 (broadcastInDim S1x4194304 ![1] bcast_S4194304_S1x4194304_1 : (⟨S4194304, .i32⟩ : BufTy).Contents (Elt F) → (⟨S1x4194304, .i32⟩ : BufTy).Contents (Elt F)),
    StableHlo.nary ![main_v41, main_v42, main_v43] main_v44 (fun u => concatenate S3x4194304 0 [⟨S1x4194304, u 0⟩, ⟨S1x4194304, u 1⟩, ⟨S1x4194304, u 2⟩] concatenates_S1x4194304_S1x4194304_S1x4194304_S3x4194304_d0) ]

/-- The stretches that compute every pixel's coordinates. -/
abbrev opsIdx : List (HloOp τ sig (Elt F)) := opsA ++ (opsB ++ (opsC ++ opsD))
/-- The stretches that compute the four results from the coordinates and the image. -/
abbrev opsOut : List (HloOp τ sig (Elt F)) := opsE ++ opsF
/-- @main's 216 operations, in order. -/
abbrev ops : List (HloOp τ sig (Elt F)) := opsIdx ++ opsOut

end Cert.ReferenceIdeal.Hand

end
-- ==== Proof.RefRun.lean ====
/-
  The reference program is a straight line: its @main, with every module-local function unfolded at its call, is the run
  of its 216 host operations in order; each reads and writes TensorCore buffers only and allocates nothing.  So every
  execution terminates with each buffer at the operations' fold over the launch contents.
-/
import proofs.«128172_j50629074485716_1_alg».proof.Proof.RefOps
import Idealize.ShloMosaic.Lib.StableHlo.Run
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- @main is the straight line of its operations: the module-local functions unfolded at their calls, the two
    windows of @main joined, and sequencing re-associated.  Both sides are the same chain of 216 steps: a call of a
    module-local function is its body at the call's own buffers, a bind after a step is the step continued by what
    follows, and a concatenation of lists runs as the lists one after the other — each of these is the unfolding of a
    definition, so the two programs agree by computation. -/
theorem main_eq (c : Dev nD) : main (F := F) c = seq ops := by
  rfl

/-- The signature scopes no TensorCore buffer and no semaphore: a finite check over the signature's tables. -/
theorem scopedRefs_eq : (Finset.univ.filter fun b : Ref sig .tc => b.isScoped) = ∅ := by decide
theorem scopedSems_eq : (Finset.univ.filter fun sm : SemLoc sig => sm.isScoped .tc) = ∅ := by decide

/-- Stretch A (the pixel numbers and the first quotient-and-remainder step): each operation touches TensorCore buffers only — one fact per operation, by its arity. -/
private theorem subA : (opsA : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

/-- Stretch A: each operation determines its result from its operands, so it allocates nothing. -/
private theorem freshA : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

/-- Stretch B (the second quotient-and-remainder step): each operation touches TensorCore buffers only — one fact per operation, by its arity. -/
private theorem subB : (opsB : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub ..⟩

/-- Stretch B: each operation determines its result from its operands, so it allocates nothing. -/
private theorem freshB : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- Stretch C (the third quotient-and-remainder step): each operation touches TensorCore buffers only — one fact per operation, by its arity. -/
private theorem subC : (opsC : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub ..⟩

/-- Stretch C: each operation determines its result from its operands, so it allocates nothing. -/
private theorem freshC : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- Stretch D (the range tests and the clamping selects): each operation touches TensorCore buffers only — one fact per operation, by its arity. -/
private theorem subD : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..⟩

/-- Stretch D: each operation determines its result from its operands, so it allocates nothing. -/
private theorem freshD : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- Stretch E (the patch number): each operation touches TensorCore buffers only — one fact per operation, by its arity. -/
private theorem subE : (opsE : List (HloOp τ sig (Elt F))).Forall fun op => op.bufs ⊆ tcRefs τ sig :=
  ⟨nullary_bufs_sub .., unary_bufs_sub .., binary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., binary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., binary_bufs_sub ..⟩

/-- Stretch E: each operation determines its result from its operands, so it allocates nothing. -/
private theorem freshE : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- Stretch F (the four results): each operation touches TensorCore buffers only — one fact per operation, by its arity. -/
private theorem subF : (opsF : List (HloOp τ sig (Elt F))).Forall fun op => op.bufs ⊆ tcRefs τ sig :=
  ⟨unary_bufs_sub .., reshape_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    unary_bufs_sub .., unary_bufs_sub .., unary_bufs_sub .., unary_bufs_sub .., nary_bufs_sub .., unary_bufs_sub ..,
    unary_bufs_sub .., unary_bufs_sub .., nary_bufs_sub ..⟩

/-- Stretch F: each operation determines its result from its operands, so it allocates nothing. -/
private theorem freshF : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

/-- Every operation reads and writes TensorCore buffers only: the six stretches' facts joined along the concatenation. -/
theorem ops_sub : (ops : List (HloOp τ sig (Elt F))).Forall fun op => op.bufs ⊆ tcRefs τ sig := by
  exact List.forall_append.mpr ⟨List.forall_append.mpr ⟨subA, List.forall_append.mpr ⟨subB, List.forall_append.mpr ⟨subC, subD⟩⟩⟩,
    List.forall_append.mpr ⟨subE, subF⟩⟩

/-- No operation allocates a buffer: the six stretches' facts joined along the concatenation, read member by member. -/
theorem ops_fresh : ∀ op ∈ (ops : List (HloOp τ sig (Elt F))), op.fresh = ∅ := by
  exact List.forall_iff_forall_mem.mp (List.forall_append.mpr
    ⟨List.forall_append.mpr ⟨freshA, List.forall_append.mpr ⟨freshB, List.forall_append.mpr ⟨freshC, freshD⟩⟩⟩,
      List.forall_append.mpr ⟨freshE, freshF⟩⟩)

/-- From any memory with zero counters every weakly fair execution of @main terminates, and every final state has each
    TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefIdx.lean ====
/-
  The reference's coordinate stretches: every pixel number n (an iota over the 16·512·512 pixels) is split by three
  quotient-and-remainder steps into its column n mod 512, its row n / 512 mod 512 and its image n / 512 / 512, and the
  clamping selects that follow leave the three coordinates as they are, because the last quotient n / 512 / 512 / 16
  is zero for every pixel number in range.  Each stretch is read once, for every valuation, as a pointwise function of
  the words of its dividend; the stretches are then chained, and the arithmetic is done at one pixel number.
-/
import proofs.«128172_j50629074485716_1_alg».proof.Proof.RefOps
import proofs.«128172_j50629074485716_1_alg».proof.Proof.Spec
import proofs.«128172_j50629074485716_1_alg».proof.Proof.LibBv
import Idealize.ShloMosaic.Lib.StableHlo.Run
import Idealize.ShloMosaic.Lib.ValueIdx
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The three quotient-and-remainder stretches, each as a pointwise function of its dividend

Every operation of a stretch acts on each pixel number separately, so a stretch's two result vectors are, at every index,
the reference's floor division and remainder of the dividend's word there by the stretch's constant divisor. -/

private theorem opsA_quot (V : Valuation τ sig (Elt F)) :
    after opsA V (Proc.devRef .tc main_v1_0)
      = fun j : Cert.Spec.SSeg.Idx => Cert.LibBv.floorDivR (BitVec.ofNat 32 (j 0).val) 512#32 := by
  after_results_simp
  simp only [TRef.ofBuf, TRef.toBuf, cast_eq]
  funext j
  rfl

private theorem opsA_rem (V : Valuation τ sig (Elt F)) :
    after opsA V (Proc.devRef .tc main_v1_1)
      = fun j : Cert.Spec.SSeg.Idx => Cert.LibBv.modR (BitVec.ofNat 32 (j 0).val) 512#32 := by
  after_results_simp
  simp only [TRef.ofBuf, TRef.toBuf, cast_eq]
  funext j
  rfl

private theorem opsA_arg0 (V : Valuation τ sig (Elt F)) :
    after opsA V (Proc.devRef .tc main_arg0) = V (Proc.devRef .tc main_arg0) := by
  after_results_simp

private theorem opsB_quot (V : Valuation τ sig (Elt F)) :
    after opsB V (Proc.devRef .tc main_v2_0)
      = fun j : Cert.Spec.SSeg.Idx => Cert.LibBv.floorDivR ((V (Proc.devRef .tc main_v1_0) : Cert.Spec.SSeg.Idx → BitVec 32) j) 512#32 := by
  after_results_simp
  simp only [TRef.ofBuf, TRef.toBuf, cast_eq]
  funext j
  rfl

private theorem opsB_rem (V : Valuation τ sig (Elt F)) :
    after opsB V (Proc.devRef .tc main_v2_1)
      = fun j : Cert.Spec.SSeg.Idx => Cert.LibBv.modR ((V (Proc.devRef .tc main_v1_0) : Cert.Spec.SSeg.Idx → BitVec 32) j) 512#32 := by
  after_results_simp
  simp only [TRef.ofBuf, TRef.toBuf, cast_eq]
  funext j
  rfl

private theorem opsB_v1_1 (V : Valuation τ sig (Elt F)) :
    after opsB V (Proc.devRef .tc main_v1_1) = V (Proc.devRef .tc main_v1_1) := by
  after_results_simp

private theorem opsB_arg0 (V : Valuation τ sig (Elt F)) :
    after opsB V (Proc.devRef .tc main_arg0) = V (Proc.devRef .tc main_arg0) := by
  after_results_simp

private theorem opsC_quot (V : Valuation τ sig (Elt F)) :
    after opsC V (Proc.devRef .tc main_v3_0)
      = fun j : Cert.Spec.SSeg.Idx => Cert.LibBv.floorDivR ((V (Proc.devRef .tc main_v2_0) : Cert.Spec.SSeg.Idx → BitVec 32) j) 16#32 := by
  after_results_simp
  simp only [TRef.ofBuf, TRef.toBuf, cast_eq]
  funext j
  rfl

private theorem opsC_rem (V : Valuation τ sig (Elt F)) :
    after opsC V (Proc.devRef .tc main_v3_1)
      = fun j : Cert.Spec.SSeg.Idx => Cert.LibBv.modR ((V (Proc.devRef .tc main_v2_0) : Cert.Spec.SSeg.Idx → BitVec 32) j) 16#32 := by
  after_results_simp
  simp only [TRef.ofBuf, TRef.toBuf, cast_eq]
  funext j
  rfl

private theorem opsC_v1_1 (V : Valuation τ sig (Elt F)) :
    after opsC V (Proc.devRef .tc main_v1_1) = V (Proc.devRef .tc main_v1_1) := by
  after_results_simp

private theorem opsC_v2_1 (V : Valuation τ sig (Elt F)) :
    after opsC V (Proc.devRef .tc main_v2_1) = V (Proc.devRef .tc main_v2_1) := by
  after_results_simp

private theorem opsC_arg0 (V : Valuation τ sig (Elt F)) :
    after opsC V (Proc.devRef .tc main_arg0) = V (Proc.devRef .tc main_arg0) := by
  after_results_simp

/-! ## The clamping selects -/

private theorem opsD_b (V : Valuation τ sig (Elt F)) :
    after opsD V (Proc.devRef .tc main_v9)
      = fun j : Cert.Spec.SSeg.Idx => Cert.LibBv.clampSel ((V (Proc.devRef .tc main_v3_0) : Cert.Spec.SSeg.Idx → BitVec 32) j) 15#32
          ((V (Proc.devRef .tc main_v3_1) : Cert.Spec.SSeg.Idx → BitVec 32) j) := by
  after_results_simp
  simp only [TRef.ofBuf, TRef.toBuf, cast_eq]
  funext j
  rfl

private theorem opsD_y (V : Valuation τ sig (Elt F)) :
    after opsD V (Proc.devRef .tc main_v11)
      = fun j : Cert.Spec.SSeg.Idx => Cert.LibBv.clampSel ((V (Proc.devRef .tc main_v3_0) : Cert.Spec.SSeg.Idx → BitVec 32) j) 511#32
          ((V (Proc.devRef .tc main_v2_1) : Cert.Spec.SSeg.Idx → BitVec 32) j) := by
  after_results_simp
  simp only [TRef.ofBuf, TRef.toBuf, cast_eq]
  funext j
  rfl

private theorem opsD_x (V : Valuation τ sig (Elt F)) :
    after opsD V (Proc.devRef .tc main_v13)
      = fun j : Cert.Spec.SSeg.Idx => Cert.LibBv.clampSel ((V (Proc.devRef .tc main_v3_0) : Cert.Spec.SSeg.Idx → BitVec 32) j) 511#32
          ((V (Proc.devRef .tc main_v1_1) : Cert.Spec.SSeg.Idx → BitVec 32) j) := by
  after_results_simp
  simp only [TRef.ofBuf, TRef.toBuf, cast_eq]
  funext j
  rfl

private theorem opsD_arg0 (V : Valuation τ sig (Elt F)) :
    after opsD V (Proc.devRef .tc main_arg0) = V (Proc.devRef .tc main_arg0) := by
  after_results_simp

/-! ## The arithmetic at one pixel number

For n below 16·512·512 none of the three divisions leaves the small naturals, so the reference's floor divisions and
remainders are the naturals' own: the quotients are n / 512, n / 512 / 512 and, the last, zero; the remainders are the
column n mod 512, the row n / 512 mod 512 and the image n / 512 / 512, which is already below 16. -/

private theorem q1_eq {n : ℕ} (hn : n < 4194304) :
    Cert.LibBv.floorDivR (BitVec.ofNat 32 n) 512#32 = BitVec.ofNat 32 (n / 512) :=
  Cert.LibBv.floorDivR_ofNat (by omega) (by omega) (by omega)

private theorem q2_eq {n : ℕ} (hn : n < 4194304) :
    Cert.LibBv.floorDivR (Cert.LibBv.floorDivR (BitVec.ofNat 32 n) 512#32) 512#32 = BitVec.ofNat 32 (n / 512 / 512) := by
  rw [q1_eq hn]
  exact Cert.LibBv.floorDivR_ofNat (by omega) (by omega) (by omega)

private theorem q3_eq {n : ℕ} (hn : n < 4194304) :
    Cert.LibBv.floorDivR (Cert.LibBv.floorDivR (Cert.LibBv.floorDivR (BitVec.ofNat 32 n) 512#32) 512#32) 16#32 = 0#32 := by
  rw [q2_eq hn]
  have h0 : n / 512 / 512 / 16 = 0 := by omega
  have h := Cert.LibBv.floorDivR_ofNat (n := n / 512 / 512) (k := 16) (by omega) (by omega) (by omega)
  rw [h0] at h
  exact h

private theorem r1_eq {n : ℕ} (hn : n < 4194304) :
    Cert.LibBv.modR (BitVec.ofNat 32 n) 512#32 = BitVec.ofNat 32 (Cert.Spec.px n) :=
  Cert.LibBv.modR_ofNat (by omega) (by omega) (by omega)

private theorem r2_eq {n : ℕ} (hn : n < 4194304) :
    Cert.LibBv.modR (Cert.LibBv.floorDivR (BitVec.ofNat 32 n) 512#32) 512#32 = BitVec.ofNat 32 (Cert.Spec.py n) := by
  rw [q1_eq hn]
  exact Cert.LibBv.modR_ofNat (by omega) (by omega) (by omega)

private theorem r3_eq {n : ℕ} (hn : n < 4194304) :
    Cert.LibBv.modR (Cert.LibBv.floorDivR (Cert.LibBv.floorDivR (BitVec.ofNat 32 n) 512#32) 512#32) 16#32
      = BitVec.ofNat 32 (Cert.Spec.pb n) := by
  rw [q2_eq hn]
  have h0 : n / 512 / 512 % 16 = Cert.Spec.pb n := by
    show n / 512 / 512 % 16 = n / 262144
    omega
  have h := Cert.LibBv.modR_ofNat (n := n / 512 / 512) (k := 16) (by omega) (by omega) (by omega)
  rw [h0] at h
  exact h

/-! ## The four facts -/

/-- After the coordinate stretches every pixel number n has been split: the image n / 262144, the row n / 512 % 512
    and the column n % 512 (three floor divisions with remainders, none of which wraps; the clamping selects keep the
    coordinates because the last quotient is zero for every n below 16·512·512). -/
theorem idx_b (V : Valuation τ sig (Elt F)) : after opsIdx V (Proc.devRef .tc main_v9) = Cert.Spec.bVec := by
  rw [StableHlo.after_append, StableHlo.after_append, StableHlo.after_append, opsD_b, opsC_quot, opsC_rem, opsB_quot, opsA_quot]
  funext j
  have hn : (j 0).val < 4194304 := (j 0).isLt
  dsimp only
  rw [q3_eq hn, Cert.LibBv.clampSel_zero, r3_eq hn, Cert.Spec.bVec_apply]
theorem idx_y (V : Valuation τ sig (Elt F)) : after opsIdx V (Proc.devRef .tc main_v11) = Cert.Spec.yVec := by
  rw [StableHlo.after_append, StableHlo.after_append, StableHlo.after_append, opsD_y, opsC_quot, opsC_v2_1, opsB_quot, opsB_rem, opsA_quot]
  funext j
  have hn : (j 0).val < 4194304 := (j 0).isLt
  dsimp only
  rw [q3_eq hn, Cert.LibBv.clampSel_zero, r2_eq hn, Cert.Spec.yVec_apply]
theorem idx_x (V : Valuation τ sig (Elt F)) : after opsIdx V (Proc.devRef .tc main_v13) = Cert.Spec.xVec := by
  rw [StableHlo.after_append, StableHlo.after_append, StableHlo.after_append, opsD_x, opsC_quot, opsC_v1_1, opsB_v1_1, opsB_quot, opsA_quot, opsA_rem]
  funext j
  have hn : (j 0).val < 4194304 := (j 0).isLt
  dsimp only
  rw [q3_eq hn, Cert.LibBv.clampSel_zero, r1_eq hn, Cert.Spec.xVec_apply]
/-- The coordinate stretches do not write the image. -/
theorem idx_arg0 (V : Valuation τ sig (Elt F)) : after opsIdx V (Proc.devRef .tc main_arg0) = V (Proc.devRef .tc main_arg0) := by
  rw [StableHlo.after_append, StableHlo.after_append, StableHlo.after_append, opsD_arg0, opsC_arg0, opsB_arg0, opsA_arg0]

end Cert.ReferenceIdeal.Hand

end
-- ==== Proof.RefSeg.lean ====
/-
  The reference's patch number: from the coordinate vectors b, y, x it computes (b·1024 + (y div 16)·32) + x div 16
  pointwise, the floor divisions spelt with a sign correction that never fires on non-negative words; all the words stay
  far below 2^31, so the 32-bit sums and products are the natural numbers'.
-/
import proofs.«128172_j50629074485716_1_alg».proof.Proof.RefOps
import proofs.«128172_j50629074485716_1_alg».proof.Proof.Spec
import proofs.«128172_j50629074485716_1_alg».proof.Proof.LibBv
import Idealize.ShloMosaic.Lib.StableHlo.Run
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- From the coordinates, the patch-number stretch leaves (b·1024 + (y / 16)·32) + x / 16 at every pixel. -/
theorem segE (V : Valuation τ sig (Elt F)) (hb : V (Proc.devRef .tc main_v9) = Cert.Spec.bVec)
    (hy : V (Proc.devRef .tc main_v11) = Cert.Spec.yVec) (hx : V (Proc.devRef .tc main_v13) = Cert.Spec.xVec) :
    after opsE V (Proc.devRef .tc main_v21) = Cert.Spec.seg := by
  -- the stretch's result as one term over the three coordinate vectors
  after_results_simp
  funext j
  simp only [TRef.ofBuf, TRef.toBuf, cast_eq]
  -- every operation acts pixel by pixel: at pixel j the term is this word expression
  show IntOp.addi (IntOp.addi (IntOp.muli (V (Proc.devRef .tc main_v9) j) 1024#32)
      (IntOp.muli (LibBv.floorDivR (V (Proc.devRef .tc main_v11) j) 16#32) 32#32))
      (LibBv.floorDivR (V (Proc.devRef .tc main_v13) j) 16#32) = _
  have hy31 : Cert.Spec.py (j 0).val < 2 ^ 31 := by have := Cert.Spec.py_lt (j 0).val; omega
  have hx31 : Cert.Spec.px (j 0).val < 2 ^ 31 := by have := Cert.Spec.px_lt (j 0).val; omega
  -- the coordinates are small naturals, so the floor divisions, products and sums are the naturals'
  rw [hb, hy, hx, Cert.Spec.bVec_apply, Cert.Spec.yVec_apply, Cert.Spec.xVec_apply, Cert.Spec.seg_apply,
    LibBv.floorDivR_ofNat (k := 16) hy31 (by omega) (by omega),
    LibBv.floorDivR_ofNat (k := 16) hx31 (by omega) (by omega),
    LibBv.muli_ofNat, LibBv.muli_ofNat, LibBv.addi_ofNat, LibBv.addi_ofNat]
  rfl
/-- The patch-number stretch writes none of the coordinates nor the image. -/
theorem keepE_b (V : Valuation τ sig (Elt F)) : after opsE V (Proc.devRef .tc main_v9) = V (Proc.devRef .tc main_v9) := by
  after_results_simp
theorem keepE_y (V : Valuation τ sig (Elt F)) : after opsE V (Proc.devRef .tc main_v11) = V (Proc.devRef .tc main_v11) := by
  after_results_simp
theorem keepE_x (V : Valuation τ sig (Elt F)) : after opsE V (Proc.devRef .tc main_v13) = V (Proc.devRef .tc main_v13) := by
  after_results_simp
theorem keepE_arg0 (V : Valuation τ sig (Elt F)) : after opsE V (Proc.devRef .tc main_arg0) = V (Proc.devRef .tc main_arg0) := by
  after_results_simp

end Cert.ReferenceIdeal.Hand

end
-- ==== Proof.RefFvByx.lean ====
/-
  Two of the reference's results are pure re-indexings.  The pixel features: the image transposed by (0, 2, 3, 1) and
  reshaped to [4194304, 3] — entry (n, ch) is the image's entry (n / 262144, ch, n / 512 % 512, n % 512), a reshape keeping
  every element's row-major number.  The pixel coordinates: the three coordinate vectors, each viewed as one row, stacked
  along a new leading axis.
-/
import proofs.«128172_j50629074485716_1_alg».proof.Proof.RefOps
import proofs.«128172_j50629074485716_1_alg».proof.Proof.Spec
import Idealize.ShloMosaic.Lib.StableHlo.Run
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The last stretch leaves the image with its channel axis moved last and its pixel axes flattened. -/
theorem fvF (V : Valuation τ sig (Elt F)) :
    after opsF V (Proc.devRef .tc main_v23) = Cert.Spec.fV (V (Proc.devRef .tc main_arg0)) := by
  -- only the transpose and the reshape reach this buffer
  after_results_simp
  funext (j : S4194304x3.Idx)
  have hn : (j 0).val < 4194304 := idx2_lt0 j
  have hc : (j 1).val < 3 := idx2_lt1 j
  rw [Spec.fV_apply]
  show shapeCast S4194304x3 _ shapeCasts_S16x512x512x3_S4194304x3 j = _
  -- entry (n, ch) of the flattened array is entry (b, y, x, ch) of the transposed image, n = (b·512 + y)·512 + x,
  -- and that is entry (b, ch, y, x) of the image
  rw [shapeCast_apply _ _ j (ix4 (⟨Spec.pb (j 0).val, Spec.pb_lt hn⟩ : Fin 16) (⟨Spec.py (j 0).val, Spec.py_lt _⟩ : Fin 512)
        (⟨Spec.px (j 0).val, Spec.px_lt _⟩ : Fin 512) (⟨(j 1).val, hc⟩ : Fin 3)) ?_]
  rw [transpose_apply _ _ _ _ (ix4 (⟨Spec.pb (j 0).val, Spec.pb_lt hn⟩ : Fin 16) (⟨(j 1).val, hc⟩ : Fin 3)
        (⟨Spec.py (j 0).val, Spec.py_lt _⟩ : Fin 512) (⟨Spec.px (j 0).val, Spec.px_lt _⟩ : Fin 512)) ?_]
  · intro a; fin_cases a <;> rfl
  · rw [Shape.rowMajor_val_four, Shape.rowMajor_val_two]
    show ((Spec.pb (j 0).val * 512 + Spec.py (j 0).val) * 512 + Spec.px (j 0).val) * 3 + (j 1).val = (j 0).val * 3 + (j 1).val
    simp only [Spec.pb, Spec.py, Spec.px]; omega
/-- A vector over the pixels laid out as a one-row matrix: entry (0, n) is entry n. -/
private theorem bcastRow_apply (v : S4194304.Idx → BitVec 32) (n : Fin 4194304) :
    broadcastInDim S1x4194304 ![1] bcast_S4194304_S1x4194304_1 v (ix2 (0 : Fin 1) n) = v (ix1 n) := by
  rw [broadcastInDim_apply _ _ _ _ (ix1 n) ?_]
  intro a; fin_cases a; rfl

/-- Three one-row matrices stacked along the row axis: row k of the stack is the k-th of them. -/
private theorem stack3_apply (r0 r1 r2 : S1x4194304.Idx → BitVec 32) (k : Fin 3) (n : Fin 4194304) :
    concatenate S3x4194304 0 [⟨S1x4194304, r0⟩, ⟨S1x4194304, r1⟩, ⟨S1x4194304, r2⟩]
        concatenates_S1x4194304_S1x4194304_S1x4194304_S3x4194304_d0 (ix2 k n)
      = (![r0, r1, r2] : Fin 3 → S1x4194304.Idx → BitVec 32) k (ix2 (0 : Fin 1) n) := by
  obtain ⟨kv, hk⟩ := k
  interval_cases kv
  · rw [concatenate_apply_piece (t := S3x4194304) 0 _ _ _ 0 (by simp) S1x4194304 r0 rfl rfl 0 rfl (ix2 (0 : Fin 1) n) ?_ rfl]
    · rfl
    · intro b hb; fin_cases b
      · exact absurd rfl hb
      · rfl
  · rw [concatenate_apply_piece (t := S3x4194304) 0 _ _ _ 1 (by simp) S1x4194304 r1 rfl rfl 1 rfl (ix2 (0 : Fin 1) n) ?_ rfl]
    · rfl
    · intro b hb; fin_cases b
      · exact absurd rfl hb
      · rfl
  · rw [concatenate_apply_piece (t := S3x4194304) 0 _ _ _ 2 (by simp) S1x4194304 r2 rfl rfl 2 rfl (ix2 (0 : Fin 1) n) ?_ rfl]
    · rfl
    · intro b hb; fin_cases b
      · exact absurd rfl hb
      · rfl

/-- The stacking operation alone, from any contents in which its three operands are the image, row and column vectors
    as one-row matrices: row k of the result at pixel n is coordinate k of pixel n. -/
private theorem byx_of_rows (W : Valuation τ sig (Elt F))
    (h41 : W (Proc.devRef .tc main_v41) = broadcastInDim S1x4194304 ![1] bcast_S4194304_S1x4194304_1 Cert.Spec.bVec)
    (h42 : W (Proc.devRef .tc main_v42) = broadcastInDim S1x4194304 ![1] bcast_S4194304_S1x4194304_1 Cert.Spec.yVec)
    (h43 : W (Proc.devRef .tc main_v43) = broadcastInDim S1x4194304 ![1] bcast_S4194304_S1x4194304_1 Cert.Spec.xVec) :
    (StableHlo.nary ![main_v41, main_v42, main_v43] main_v44 (fun u => concatenate S3x4194304 0 [⟨S1x4194304, u 0⟩, ⟨S1x4194304, u 1⟩, ⟨S1x4194304, u 2⟩] concatenates_S1x4194304_S1x4194304_S1x4194304_S3x4194304_d0) : HloOp τ sig (Elt F)).result W (Proc.devRef .tc main_v44)
      = Cert.Spec.byx := by
  rw [nary_result]
  show concatenate S3x4194304 0 [⟨S1x4194304, W (Proc.devRef .tc main_v41)⟩, ⟨S1x4194304, W (Proc.devRef .tc main_v42)⟩,
    ⟨S1x4194304, W (Proc.devRef .tc main_v43)⟩] concatenates_S1x4194304_S1x4194304_S1x4194304_S3x4194304_d0 = _
  rw [h41, h42, h43]
  funext (j : S3x4194304.Idx)
  obtain ⟨k, n, rfl⟩ : ∃ (k : Fin 3) (n : Fin 4194304), j = ix2 k n := ⟨j 0, j 1, eq_ix2 j⟩
  rw [stack3_apply, Spec.byx_apply]
  obtain ⟨kv, hk⟩ := k
  interval_cases kv
  · show broadcastInDim S1x4194304 ![1] bcast_S4194304_S1x4194304_1 Cert.Spec.bVec (ix2 (0 : Fin 1) n) = _
    rw [bcastRow_apply, Spec.bVec_apply]; rfl
  · show broadcastInDim S1x4194304 ![1] bcast_S4194304_S1x4194304_1 Cert.Spec.yVec (ix2 (0 : Fin 1) n) = _
    rw [bcastRow_apply, Spec.yVec_apply]; rfl
  · show broadcastInDim S1x4194304 ![1] bcast_S4194304_S1x4194304_1 Cert.Spec.xVec (ix2 (0 : Fin 1) n) = _
    rw [bcastRow_apply, Spec.xVec_apply]; rfl

/-- The last stretch stacks the three coordinate vectors. -/
theorem byxF (V : Valuation τ sig (Elt F)) (hb : V (Proc.devRef .tc main_v9) = Cert.Spec.bVec)
    (hy : V (Proc.devRef .tc main_v11) = Cert.Spec.yVec) (hx : V (Proc.devRef .tc main_v13) = Cert.Spec.xVec) :
    after opsF V (Proc.devRef .tc main_v44) = Cert.Spec.byx := by
  simp only [after_cons, after_nil]
  -- the last operation is the stacking; before it each operand is one of the three vectors as a one-row matrix
  apply byx_of_rows
  · after_results_simp
    rw [hb]
  · after_results_simp
    rw [hy]
  · after_results_simp
    rw [hx]
/-- The last stretch writes neither the patch numbers nor the image. -/
theorem keepF_seg (V : Valuation τ sig (Elt F)) : after opsF V (Proc.devRef .tc main_v21) = V (Proc.devRef .tc main_v21) := by
  after_results_simp
theorem keepF_arg0 (V : Valuation τ sig (Elt F)) : after opsF V (Proc.devRef .tc main_arg0) = V (Proc.devRef .tc main_arg0) := by
  after_results_simp

end Cert.ReferenceIdeal.Hand

end
-- ==== Proof.LibScatter.lean ====
/-
  A host scatter whose combining function is the signed minimum or maximum.

  `Host.scatter d f x idx upd` folds, over the update indices in row-major order, the step "if update j lands at operand
  index i (`d.resultIdx? j idx = some i`), replace the element at i by f of it and the update's value; if it lands
  outside, drop it".  At one operand index i only the updates that land at i matter, so the result there is the
  left fold of f over those updates' values from the operand's element.  When the values are small naturals and f is
  the signed minimum (maximum), that fold is their least (greatest) element, however many there are and in whatever order.
-/
import Idealize.ShloMosaic.PureOps

noncomputable section

namespace Cert.LibScatter

open Idealize.ShloMosaic

variable {s si u : Shape} {w : ℕ}

/-- For every list of update numbers and every operand, the fold of the scatter's step, read at one operand index i, is
    the fold of the combining function over the updates of the list that land at i, from the operand's element at i:
    an update landing elsewhere (or nowhere) leaves the element at i alone, and one landing at i combines into it. -/
private theorem foldl_step_apply {α : Type} (d : ScatterDims s si u) (f : α → α → α) (idx : IVec si w) (upd : u.Idx → α)
    (i : s.Idx) (L : List (Fin u.numel)) (r : s.Idx → α) :
    (L.foldl (fun r n =>
      match d.resultIdx? (u.rowMajor.symm n) idx with
      | some i => fun i' => if i' = i then f (r i) (upd (u.rowMajor.symm n)) else r i'
      | none => r) r) i
    = ((L.map u.rowMajor.symm).filter fun j => d.resultIdx? j idx = some i).foldl (fun a j => f a (upd j)) (r i) := by
  induction L generalizing r with
  | nil => rfl
  | cons n L ih =>
    rw [List.foldl_cons, ih]
    simp only [List.map_cons, List.filter_cons]
    cases h : d.resultIdx? (u.rowMajor.symm n) idx with
    | none => simp
    | some k =>
      by_cases hk : k = i
      · subst hk; simp
      · have hk' : ¬ (i = k) := fun h => hk h.symm
        simp [hk, hk']

/-- At one operand index, a scatter is the fold of the combining function over the updates that land there, in
    row-major order, from the operand's element. -/
theorem scatter_apply {α : Type} (d : ScatterDims s si u) (f : α → α → α) (x : s.Idx → α) (idx : IVec si w) (upd : u.Idx → α)
    (i : s.Idx) :
    Host.scatter d f x idx upd i
      = (((List.finRange u.numel).map u.rowMajor.symm).filter fun j => d.resultIdx? j idx = some i).foldl
          (fun a j => f a (upd j)) (x i) := by
  unfold Host.scatter
  exact foldl_step_apply d f idx upd i _ x

/-- A natural below 2^31, as a 32-bit word, reads back as itself when the word is taken as a signed integer. -/
private theorem toInt_ofNat_small {n : ℕ} (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1]
  split
  · rfl
  · omega

/-- The least word, taken as a signed integer, is -2^31. -/
private theorem toInt_intMin : (2147483648#32 : BitVec 32).toInt = -2147483648 := by decide

/-- On words of naturals below 2^31 the signed minimum is the word of the least of the two. -/
private theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_ofNat_small ha, toInt_ofNat_small hb]
  by_cases h : a < b
  · have h' : (a : ℤ) < (b : ℤ) := by exact_mod_cast h
    rw [if_pos (by simpa using h'), Nat.min_eq_left (Nat.le_of_lt h)]
  · have h' : ¬ (a : ℤ) < (b : ℤ) := by exact_mod_cast h
    rw [if_neg (by simpa using h'), Nat.min_eq_right (Nat.le_of_not_lt h)]

/-- On words of naturals below 2^31 the signed maximum is the word of the greatest of the two. -/
private theorem maxsi_ofNat {a b : ℕ} (ha : a < 2 ^ 31) (hb : b < 2 ^ 31) :
    IntOp.maxsi (BitVec.ofNat 32 a) (BitVec.ofNat 32 b) = BitVec.ofNat 32 (max a b) := by
  unfold IntOp.maxsi
  rw [BitVec.slt_eq_decide, toInt_ofNat_small ha, toInt_ofNat_small hb]
  by_cases h : b < a
  · have h' : (b : ℤ) < (a : ℤ) := by exact_mod_cast h
    rw [if_pos (by simpa using h'), Nat.max_eq_left (Nat.le_of_lt h)]
  · have h' : ¬ (b : ℤ) < (a : ℤ) := by exact_mod_cast h
    rw [if_neg (by simpa using h'), Nat.max_eq_right (Nat.le_of_not_lt h)]

/-- The least word is below the word of every natural below 2^31, so the signed maximum of the two is the latter. -/
private theorem maxsi_intMin_ofNat {b : ℕ} (hb : b < 2 ^ 31) :
    IntOp.maxsi (2147483648#32 : BitVec 32) (BitVec.ofNat 32 b) = BitVec.ofNat 32 b := by
  unfold IntOp.maxsi
  rw [BitVec.slt_eq_decide, toInt_ofNat_small hb, toInt_intMin]
  have h' : ¬ (b : ℤ) < -2147483648 := by omega
  rw [if_neg (by simpa using h')]

/-- Folding the signed minimum over words of small naturals, from the word of a small natural a₀: if lo is a lower
    bound of a₀ and of all the values, and is attained by a₀ or by one of the values, the result is the word of lo.
    Each step replaces the running natural by its minimum with the next value, which keeps the three hypotheses. -/
private theorem foldl_minsi_ofNat {β : Type} (g : β → ℕ) (hg : ∀ j, g j < 2 ^ 31) (lo : ℕ) (L : List β) (a₀ : ℕ)
    (ha₀ : a₀ < 2 ^ 31) (hall : ∀ j ∈ L, lo ≤ g j) (hinit : lo ≤ a₀) (hex : (∃ j ∈ L, g j = lo) ∨ a₀ = lo) :
    L.foldl (fun a j => IntOp.minsi a (BitVec.ofNat 32 (g j))) (BitVec.ofNat 32 a₀) = BitVec.ofNat 32 lo := by
  induction L generalizing a₀ with
  | nil =>
    rcases hex with ⟨j, hj, _⟩ | h
    · cases hj
    · rw [List.foldl_nil, h]
  | cons j L ih =>
    rw [List.foldl_cons, minsi_ofNat ha₀ (hg j)]
    have hj : lo ≤ g j := hall j (List.mem_cons_self ..)
    apply ih
    · exact lt_of_le_of_lt (Nat.min_le_left _ _) ha₀
    · intro k hk; exact hall k (List.mem_cons_of_mem _ hk)
    · exact Nat.le_min.mpr ⟨hinit, hj⟩
    · rcases hex with ⟨k, hk, hkl⟩ | h
      · rcases List.mem_cons.mp hk with rfl | hk'
        · right; omega
        · left; exact ⟨k, hk', hkl⟩
      · right; omega

/-- The same for the signed maximum and an upper bound hi. -/
private theorem foldl_maxsi_ofNat {β : Type} (g : β → ℕ) (hg : ∀ j, g j < 2 ^ 31) (hi : ℕ) (L : List β) (a₀ : ℕ)
    (ha₀ : a₀ < 2 ^ 31) (hall : ∀ j ∈ L, g j ≤ hi) (hinit : a₀ ≤ hi) (hex : (∃ j ∈ L, g j = hi) ∨ a₀ = hi) :
    L.foldl (fun a j => IntOp.maxsi a (BitVec.ofNat 32 (g j))) (BitVec.ofNat 32 a₀) = BitVec.ofNat 32 hi := by
  induction L generalizing a₀ with
  | nil =>
    rcases hex with ⟨j, hj, _⟩ | h
    · cases hj
    · rw [List.foldl_nil, h]
  | cons j L ih =>
    rw [List.foldl_cons, maxsi_ofNat ha₀ (hg j)]
    have hj : g j ≤ hi := hall j (List.mem_cons_self ..)
    apply ih
    · exact Nat.max_lt.mpr ⟨ha₀, hg j⟩
    · intro k hk; exact hall k (List.mem_cons_of_mem _ hk)
    · exact Nat.max_le.mpr ⟨hinit, hj⟩
    · rcases hex with ⟨k, hk, hkl⟩ | h
      · rcases List.mem_cons.mp hk with rfl | hk'
        · right; omega
        · left; exact ⟨k, hk', hkl⟩
      · right; omega

/-- Folding the signed maximum from the least word: the first value replaces it, and from there on the fold runs on
    words of small naturals; a list in which the upper bound hi is attained is not empty. -/
private theorem foldl_maxsi_intMin {β : Type} (g : β → ℕ) (hg : ∀ j, g j < 2 ^ 31) (hi : ℕ) (L : List β)
    (hall : ∀ j ∈ L, g j ≤ hi) (hex : ∃ j ∈ L, g j = hi) :
    L.foldl (fun a j => IntOp.maxsi a (BitVec.ofNat 32 (g j))) (2147483648#32 : BitVec 32) = BitVec.ofNat 32 hi := by
  cases L with
  | nil => obtain ⟨j, hj, _⟩ := hex; cases hj
  | cons j L =>
    rw [List.foldl_cons, maxsi_intMin_ofNat (hg j)]
    apply foldl_maxsi_ofNat g hg hi L (g j) (hg j)
    · intro k hk; exact hall k (List.mem_cons_of_mem _ hk)
    · exact hall j (List.mem_cons_self ..)
    · obtain ⟨k, hk, hkl⟩ := hex
      rcases List.mem_cons.mp hk with rfl | hk'
      · right; exact hkl
      · left; exact ⟨k, hk', hkl⟩

/-- Membership in the list of the updates that land at i, in row-major order: exactly the updates landing at i. -/
private theorem mem_landing (d : ScatterDims s si u) (idx : IVec si w) (i : s.Idx) (j : u.Idx) :
    j ∈ (((List.finRange u.numel).map u.rowMajor.symm).filter fun j => d.resultIdx? j idx = some i)
      ↔ d.resultIdx? j idx = some i := by
  rw [List.mem_filter, decide_eq_true_iff]
  constructor
  · exact fun h => h.2
  · intro h
    refine ⟨List.mem_map.mpr ⟨u.rowMajor j, List.mem_finRange _, ?_⟩, h⟩
    exact u.rowMajor.symm_apply_apply j

/-- A scatter-min of small naturals into an operand filled with a small natural: at an index where some update lands,
    all updates landing there are at least `lo`, one of them is `lo`, and `lo` is at most the fill, the result is `lo`. -/
theorem scatter_minsi_ofNat (d : ScatterDims s si u) (x₀ : ℕ) (hx₀ : x₀ < 2 ^ 31) (idx : IVec si w) (g : u.Idx → ℕ)
    (hg : ∀ j, g j < 2 ^ 31) (i : s.Idx) (lo : ℕ)
    (hall : ∀ j, d.resultIdx? j idx = some i → lo ≤ g j) (hinit : lo ≤ x₀)
    (hex : ∃ j, d.resultIdx? j idx = some i ∧ g j = lo) :
    Host.scatter d IntOp.minsi (fun _ => BitVec.ofNat 32 x₀) idx (fun j => BitVec.ofNat 32 (g j)) i = BitVec.ofNat 32 lo := by
  rw [scatter_apply]
  apply foldl_minsi_ofNat g hg lo _ x₀ hx₀
  · intro j hj; exact hall j ((mem_landing d idx i j).mp hj)
  · exact hinit
  · obtain ⟨j, hj, hjl⟩ := hex
    exact Or.inl ⟨j, (mem_landing d idx i j).mpr hj, hjl⟩

/-- A scatter-max of small naturals into an operand filled with the least word: at an index where some update lands,
    all updates landing there are at most `hi` and one of them is `hi`, the result is `hi`. -/
theorem scatter_maxsi_ofNat (d : ScatterDims s si u) (idx : IVec si w) (g : u.Idx → ℕ)
    (hg : ∀ j, g j < 2 ^ 31) (i : s.Idx) (hi : ℕ)
    (hall : ∀ j, d.resultIdx? j idx = some i → g j ≤ hi)
    (hex : ∃ j, d.resultIdx? j idx = some i ∧ g j = hi) :
    Host.scatter d IntOp.maxsi (fun _ => 2147483648#32) idx (fun j => BitVec.ofNat 32 (g j)) i = BitVec.ofNat 32 hi := by
  rw [scatter_apply]
  apply foldl_maxsi_intMin g hg hi
  · intro j hj; exact hall j ((mem_landing d idx i j).mp hj)
  · obtain ⟨j, hj, hjl⟩ := hex
    exact ⟨j, (mem_landing d idx i j).mpr hj, hjl⟩

end Cert.LibScatter

end
-- ==== Proof.RefBb.lean ====
/-
  The reference's bounding boxes.  Four scatters into one word per patch — the rows and the columns of all pixels, each
  combined by the signed minimum from the greatest word and by the signed maximum from the least word, landing at the
  pixel's patch number — then the four vectors stacked.  Pixel n lands at patch segOf n, always in range, so no update is
  dropped; at patch s = b·1024 + hp·32 + wp the landing pixels are exactly those of rows hp·16 … hp·16 + 15 and columns
  wp·16 … wp·16 + 15 of image b, among them the two corners, so the four folds give hp·16, wp·16, hp·16 + 15, wp·16 + 15.
-/
import proofs.«128172_j50629074485716_1_alg».proof.Proof.RefOps
import proofs.«128172_j50629074485716_1_alg».proof.Proof.Spec
import proofs.«128172_j50629074485716_1_alg».proof.Proof.LibBv
import proofs.«128172_j50629074485716_1_alg».proof.Proof.LibScatter
import Idealize.ShloMosaic.Lib.StableHlo.Run
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/- The scatter is used only through its reading as a fold over the updates that land at an index. -/
attribute [local irreducible] Host.scatter

/-- Reads a buffer's contents after a line of operations: an operation that writes another buffer is passed over, the
    one that writes this buffer is replaced by its function of its operands' contents — repeated until the contents
    are expressed in what the line started from. -/
local macro "read_results" : tactic =>
  `(tactic| repeat (first
      | (rw [nullary_result_ne]; rotate_left; decide)
      | (rw [unary_result_ne]; rotate_left; decide)
      | (rw [ternary_result_ne]; rotate_left; decide)
      | (rw [reshape_result_ne]; rotate_left; decide)
      | (rw [nary_result_ne]; rotate_left; decide)
      | rw [nullary_result] | rw [unary_result] | rw [ternary_result]))

/-- The scatter's dimension numbers: the one operand axis is the one the indices address, no window. -/
private abbrev dS : ScatterDims S16384 S4194304x1 S4194304 := scatter_S16384_S4194304x1_S4194304_n_0_0_1

/-- The patch numbers as the scatter's index array, one index vector of length one per pixel. -/
private abbrev segIdx : IVec S4194304x1 32 := broadcastInDim S4194304x1 ![0] bcast_S4194304_S4194304x1_0 Cert.Spec.seg

/-- One bound of every patch, as a one-row matrix: the fold of `f` over the values `upd` of the patch's pixels,
    from the fill `c`. -/
private def row (f : BitVec 32 → BitVec 32 → BitVec 32) (c : BitVec 32) (upd : S4194304.Idx → BitVec 32) :
    S1x16384.Idx → BitVec 32 :=
  broadcastInDim S1x16384 ![1] bcast_S16384_S1x16384_1
    (Host.scatter dS f (broadcastInDim S16384 ![] bcast_S_S16384 (constantI S_ 32 c)) segIdx upd)

/-- The stacking operation's result is the stack of what its four operands hold. -/
private theorem concat4_result (W : Valuation τ sig (Elt F)) {a b c d : S1x16384.Idx → BitVec 32}
    (ha : W (Proc.devRef .tc main_v36) = a) (hb : W (Proc.devRef .tc main_v37) = b)
    (hc : W (Proc.devRef .tc main_v38) = c) (hd : W (Proc.devRef .tc main_v39) = d) :
    (StableHlo.nary ![main_v36, main_v37, main_v38, main_v39] main_v40 (fun u => concatenate S4x16384 0 [⟨S1x16384, u 0⟩, ⟨S1x16384, u 1⟩, ⟨S1x16384, u 2⟩, ⟨S1x16384, u 3⟩] concatenates_S1x16384_S1x16384_S1x16384_S1x16384_S4x16384_d0)).result W (Proc.devRef .tc main_v40)
      = concatenate S4x16384 0 [⟨S1x16384, a⟩, ⟨S1x16384, b⟩, ⟨S1x16384, c⟩, ⟨S1x16384, d⟩] concatenates_S1x16384_S1x16384_S1x16384_S1x16384_S4x16384_d0 := by
  subst ha hb hc hd
  rw [nary4_result]
  rfl

set_option maxHeartbeats 2000000 in
/-- The last stretch's result, as the stack of the four bound rows over the specification's vectors. -/
private theorem run_eq (V : Valuation τ sig (Elt F)) (hs : V (Proc.devRef .tc main_v21) = Cert.Spec.seg)
    (hy : V (Proc.devRef .tc main_v11) = Cert.Spec.yVec) (hx : V (Proc.devRef .tc main_v13) = Cert.Spec.xVec) :
    after opsF V (Proc.devRef .tc main_v40)
      = concatenate S4x16384 0 [⟨S1x16384, row IntOp.minsi 2147483647#32 Cert.Spec.yVec⟩, ⟨S1x16384, row IntOp.minsi 2147483647#32 Cert.Spec.xVec⟩,
          ⟨S1x16384, row IntOp.maxsi 2147483648#32 Cert.Spec.yVec⟩, ⟨S1x16384, row IntOp.maxsi 2147483648#32 Cert.Spec.xVec⟩]
          concatenates_S1x16384_S1x16384_S1x16384_S1x16384_S4x16384_d0 := by
  repeat rw [after_cons]
  rw [after_nil]
  read_results
  refine concat4_result _ ?_ ?_ ?_ ?_
  · read_results; rw [hs, hy]; rfl
  · read_results; rw [hs, hx]; rfl
  · read_results; rw [hs, hy]; rfl
  · read_results; rw [hs, hx]; rfl

/-! ### Where an update lands -/

/-- The start of update `j`'s window on the operand's one axis is the patch number of pixel `j`. -/
private theorem start_eq (j : S4194304.Idx) (a : Fin 1) : dS.start j segIdx a = (Cert.Spec.segOf (j 0).val : ℤ) := by
  match a with
  | ⟨0, _⟩ =>
    have h : dS.start j segIdx ⟨0, by decide⟩ = (BitVec.ofNat 32 (Cert.Spec.segOf (j 0).val)).toInt := rfl
    rw [h]
    have := Cert.Spec.segOf_lt (show (j 0).val < 4194304 from (j 0).isLt)
    exact Cert.LibBv.toInt_ofNat (by omega)

/-- The operand's one axis is inserted: no window coordinate is added. -/
private theorem window_eq (j : S4194304.Idx) (a : Fin 1) : dS.window j a = 0 := by
  match a with
  | ⟨0, _⟩ => rfl

/-- Update `j` (pixel `j`'s value) lands at the patch number of pixel `j`, which is inside the operand. -/
private theorem resultIdx_eq (j : S4194304.Idx) :
    dS.resultIdx? j segIdx
      = some (ix1 ⟨Cert.Spec.segOf (j 0).val, Cert.Spec.segOf_lt (show (j 0).val < 4194304 from (j 0).isLt)⟩) := by
  have hlt := Cert.Spec.segOf_lt (show (j 0).val < 4194304 from (j 0).isLt)
  unfold ScatterDims.resultIdx?
  rw [dif_pos]
  · congr 1
    funext a
    match a with
    | ⟨0, _⟩ =>
      refine Fin.ext ?_
      show (dS.start j segIdx ⟨0, _⟩ + (dS.window j ⟨0, _⟩ : ℤ)).toNat = Cert.Spec.segOf (j 0).val
      rw [start_eq, window_eq]; simp
  · intro a
    rw [start_eq, window_eq]
    match a with
    | ⟨0, _⟩ =>
      show (0 : ℤ) ≤ (Cert.Spec.segOf (j 0).val : ℤ) + ((0 : ℕ) : ℤ) ∧ (Cert.Spec.segOf (j 0).val : ℤ) + ((0 : ℕ) : ℤ) < ((16384 : ℕ) : ℤ)
      omega

/-- So update `j` lands at patch `s` exactly when pixel `j` lies in patch `s`. -/
private theorem lands_iff (j : S4194304.Idx) (s : Fin 16384) :
    dS.resultIdx? j segIdx = some (ix1 s) ↔ Cert.Spec.segOf (j 0).val = s.val := by
  rw [resultIdx_eq, Option.some.injEq]
  constructor
  · intro h
    have := congrArg (fun i : S16384.Idx => (i 0).val) h
    exact this
  · intro h
    funext a
    match a with
    | ⟨0, _⟩ => exact Fin.ext h

/-! ### The pixels of a patch -/

/-- A pixel of patch `s` has its row and its column inside the patch's square. -/
private theorem patch_bounds {n s : ℕ} (hn : n < 4194304) (h : Cert.Spec.segOf n = s) :
    s / 32 % 32 * 16 ≤ Cert.Spec.py n ∧ Cert.Spec.py n ≤ s / 32 % 32 * 16 + 15 ∧
      s % 32 * 16 ≤ Cert.Spec.px n ∧ Cert.Spec.px n ≤ s % 32 * 16 + 15 := by
  subst h
  unfold Cert.Spec.segOf Cert.Spec.pb Cert.Spec.py Cert.Spec.px
  omega

/-- The pixel at offset (dy, dx) from the top-left corner of patch `s`. -/
private def corner (s dy dx : ℕ) : ℕ := s / 1024 * 262144 + (s / 32 % 32 * 16 + dy) * 512 + (s % 32 * 16 + dx)

private theorem corner_lt {s dy dx : ℕ} (hs : s < 16384) (hdy : dy < 16) (hdx : dx < 16) : corner s dy dx < 4194304 := by
  unfold corner; omega

/-- It lies in patch `s`, in row (s / 32 % 32)·16 + dy and column (s % 32)·16 + dx. -/
private theorem corner_spec {s dy dx : ℕ} (hs : s < 16384) (hdy : dy < 16) (hdx : dx < 16) :
    Cert.Spec.segOf (corner s dy dx) = s ∧ Cert.Spec.py (corner s dy dx) = s / 32 % 32 * 16 + dy ∧
      Cert.Spec.px (corner s dy dx) = s % 32 * 16 + dx := by
  unfold Cert.Spec.segOf Cert.Spec.pb Cert.Spec.py Cert.Spec.px corner
  omega

/-! ### One bound of one patch -/

/-- A vector laid out as a one-row matrix reads, at column `s`, the vector at `s`. -/
private theorem bcast_row_apply {α : Type} (X : S16384.Idx → α) (k : Fin 1) (s : Fin 16384) :
    broadcastInDim S1x16384 ![1] bcast_S16384_S1x16384_1 X (ix2 k s) = X (ix1 s) := by
  show X _ = X _
  congr 1
  funext a
  match a with
  | ⟨0, _⟩ => rfl

/-- A scalar spread over the patches is that scalar at every patch. -/
private theorem bcast_fill (c : BitVec 32) :
    broadcastInDim S16384 ![] bcast_S_S16384 (constantI S_ 32 c) = fun _ => c := rfl

/-- A bound row read at patch `s` is the scatter read at `s`, the operand being the fill everywhere. -/
private theorem row_apply (f : BitVec 32 → BitVec 32 → BitVec 32) (c : BitVec 32) (upd : S4194304.Idx → BitVec 32)
    (k : Fin 1) (s : Fin 16384) :
    row f c upd (ix2 k s) = Host.scatter dS f (fun _ => c) segIdx upd (ix1 s) := by
  unfold row
  rw [bcast_row_apply, bcast_fill]

/-- The least of `g` over the pixels of patch `s`, when `g` is bounded below by `lo` there and takes `lo` at the
    pixel `n₀` of the patch. -/
private theorem min_row (g : ℕ → ℕ) (hg : ∀ n, g n < 512) (k : Fin 1) (s : Fin 16384) (lo n₀ : ℕ)
    (hall : ∀ n, n < 4194304 → Cert.Spec.segOf n = s.val → lo ≤ g n)
    (hn₀ : n₀ < 4194304) (hseg : Cert.Spec.segOf n₀ = s.val) (hlo : g n₀ = lo) :
    row IntOp.minsi 2147483647#32 (fun j => BitVec.ofNat 32 (g (j 0).val)) (ix2 k s) = BitVec.ofNat 32 lo := by
  rw [row_apply]
  refine Cert.LibScatter.scatter_minsi_ofNat dS 2147483647 (by decide) segIdx (fun j => g (j 0).val)
    (fun j => by have := hg (j 0).val; omega) (ix1 s) lo ?_ ?_ ?_
  · intro j hj
    exact hall _ (j 0).isLt ((lands_iff j s).mp hj)
  · have := hg n₀; omega
  · refine ⟨ix1 ⟨n₀, hn₀⟩, (lands_iff _ s).mpr hseg, hlo⟩

/-- The greatest of `g` over the pixels of patch `s`, likewise. -/
private theorem max_row (g : ℕ → ℕ) (hg : ∀ n, g n < 512) (k : Fin 1) (s : Fin 16384) (hi n₀ : ℕ)
    (hall : ∀ n, n < 4194304 → Cert.Spec.segOf n = s.val → g n ≤ hi)
    (hn₀ : n₀ < 4194304) (hseg : Cert.Spec.segOf n₀ = s.val) (hhi : g n₀ = hi) :
    row IntOp.maxsi 2147483648#32 (fun j => BitVec.ofNat 32 (g (j 0).val)) (ix2 k s) = BitVec.ofNat 32 hi := by
  rw [row_apply]
  refine Cert.LibScatter.scatter_maxsi_ofNat dS segIdx (fun j => g (j 0).val)
    (fun j => by have := hg (j 0).val; omega) (ix1 s) hi ?_ ?_
  · intro j hj
    exact hall _ (j 0).isLt ((lands_iff j s).mp hj)
  · refine ⟨ix1 ⟨n₀, hn₀⟩, (lands_iff _ s).mpr hseg, hhi⟩

/-! ### The four bounds of a patch -/

/-- Least row of patch `s`: attained at the patch's top-left pixel. -/
private theorem minY (k : Fin 1) (s : Fin 16384) :
    row IntOp.minsi 2147483647#32 Cert.Spec.yVec (ix2 k s) = BitVec.ofNat 32 (s.val / 32 % 32 * 16) := by
  have hc := corner_spec (s := s.val) (dy := 0) (dx := 0) s.isLt (by decide) (by decide)
  exact min_row Cert.Spec.py Cert.Spec.py_lt k s _ (corner s.val 0 0)
    (fun n hn h => (patch_bounds hn h).1) (corner_lt s.isLt (by decide) (by decide)) hc.1 (by omega)

/-- Least column: the same pixel. -/
private theorem minX (k : Fin 1) (s : Fin 16384) :
    row IntOp.minsi 2147483647#32 Cert.Spec.xVec (ix2 k s) = BitVec.ofNat 32 (s.val % 32 * 16) := by
  have hc := corner_spec (s := s.val) (dy := 0) (dx := 0) s.isLt (by decide) (by decide)
  exact min_row Cert.Spec.px Cert.Spec.px_lt k s _ (corner s.val 0 0)
    (fun n hn h => (patch_bounds hn h).2.2.1) (corner_lt s.isLt (by decide) (by decide)) hc.1 (by omega)

/-- Greatest row: attained at the patch's bottom-right pixel. -/
private theorem maxY (k : Fin 1) (s : Fin 16384) :
    row IntOp.maxsi 2147483648#32 Cert.Spec.yVec (ix2 k s) = BitVec.ofNat 32 (s.val / 32 % 32 * 16 + 15) := by
  have hc := corner_spec (s := s.val) (dy := 15) (dx := 15) s.isLt (by decide) (by decide)
  exact max_row Cert.Spec.py Cert.Spec.py_lt k s _ (corner s.val 15 15)
    (fun n hn h => (patch_bounds hn h).2.1) (corner_lt s.isLt (by decide) (by decide)) hc.1 (by omega)

/-- Greatest column: the same pixel. -/
private theorem maxX (k : Fin 1) (s : Fin 16384) :
    row IntOp.maxsi 2147483648#32 Cert.Spec.xVec (ix2 k s) = BitVec.ofNat 32 (s.val % 32 * 16 + 15) := by
  have hc := corner_spec (s := s.val) (dy := 15) (dx := 15) s.isLt (by decide) (by decide)
  exact max_row Cert.Spec.px Cert.Spec.px_lt k s _ (corner s.val 15 15)
    (fun n hn h => (patch_bounds hn h).2.2.2) (corner_lt s.isLt (by decide) (by decide)) hc.1 (by omega)

/-! ### The stack -/

/-- Four one-row matrices stacked: row 0 of the stack, at column `s`, is the first matrix at column `s` … -/
private theorem stack0 {α : Type} (r0 r1 r2 r3 : S1x16384.Idx → α) (h : 0 < 4) (s : Fin 16384) :
    concatenate S4x16384 0 [⟨S1x16384, r0⟩, ⟨S1x16384, r1⟩, ⟨S1x16384, r2⟩, ⟨S1x16384, r3⟩]
        concatenates_S1x16384_S1x16384_S1x16384_S1x16384_S4x16384_d0 (ix2 ⟨0, h⟩ s) = r0 (ix2 0 s) := by
  show r0 _ = r0 _
  congr 1; funext b
  match b with
  | ⟨0, _⟩ => rfl
  | ⟨1, _⟩ => rfl

/-- … row 1 the second … -/
private theorem stack1 {α : Type} (r0 r1 r2 r3 : S1x16384.Idx → α) (h : 1 < 4) (s : Fin 16384) :
    concatenate S4x16384 0 [⟨S1x16384, r0⟩, ⟨S1x16384, r1⟩, ⟨S1x16384, r2⟩, ⟨S1x16384, r3⟩]
        concatenates_S1x16384_S1x16384_S1x16384_S1x16384_S4x16384_d0 (ix2 ⟨1, h⟩ s) = r1 (ix2 0 s) := by
  show r1 _ = r1 _
  congr 1; funext b
  match b with
  | ⟨0, _⟩ => rfl
  | ⟨1, _⟩ => rfl

/-- … row 2 the third … -/
private theorem stack2 {α : Type} (r0 r1 r2 r3 : S1x16384.Idx → α) (h : 2 < 4) (s : Fin 16384) :
    concatenate S4x16384 0 [⟨S1x16384, r0⟩, ⟨S1x16384, r1⟩, ⟨S1x16384, r2⟩, ⟨S1x16384, r3⟩]
        concatenates_S1x16384_S1x16384_S1x16384_S1x16384_S4x16384_d0 (ix2 ⟨2, h⟩ s) = r2 (ix2 0 s) := by
  show r2 _ = r2 _
  congr 1; funext b
  match b with
  | ⟨0, _⟩ => rfl
  | ⟨1, _⟩ => rfl

/-- … and row 3 the fourth. -/
private theorem stack3 {α : Type} (r0 r1 r2 r3 : S1x16384.Idx → α) (h : 3 < 4) (s : Fin 16384) :
    concatenate S4x16384 0 [⟨S1x16384, r0⟩, ⟨S1x16384, r1⟩, ⟨S1x16384, r2⟩, ⟨S1x16384, r3⟩]
        concatenates_S1x16384_S1x16384_S1x16384_S1x16384_S4x16384_d0 (ix2 ⟨3, h⟩ s) = r3 (ix2 0 s) := by
  show r3 _ = r3 _
  congr 1; funext b
  match b with
  | ⟨0, _⟩ => rfl
  | ⟨1, _⟩ => rfl

/-- Entry (k, s) of the stack of the four bound rows is bound `k` of patch `s`. -/
private theorem bb_point (k : Fin 4) (s : Fin 16384) :
    concatenate S4x16384 0 [⟨S1x16384, row IntOp.minsi 2147483647#32 Cert.Spec.yVec⟩, ⟨S1x16384, row IntOp.minsi 2147483647#32 Cert.Spec.xVec⟩,
          ⟨S1x16384, row IntOp.maxsi 2147483648#32 Cert.Spec.yVec⟩, ⟨S1x16384, row IntOp.maxsi 2147483648#32 Cert.Spec.xVec⟩]
          concatenates_S1x16384_S1x16384_S1x16384_S1x16384_S4x16384_d0 (ix2 k s)
      = BitVec.ofNat 32 (Cert.Spec.bbNat k.val s.val) := by
  match k with
  | ⟨0, _⟩ => rw [stack0, minY]; rfl
  | ⟨1, _⟩ => rw [stack1, minX]; rfl
  | ⟨2, _⟩ => rw [stack2, maxY]; rfl
  | ⟨3, _⟩ => rw [stack3, maxX]; rfl

/-- The last stretch reduces rows and columns over each patch's pixels — the least and the greatest of each — and
    stacks the four vectors: patch s = b·1024 + hp·32 + wp holds exactly the pixels of rows hp·16 … hp·16 + 15 and
    columns wp·16 … wp·16 + 15 of image b, a non-empty set, so the bounds are hp·16, wp·16, hp·16 + 15, wp·16 + 15. -/
theorem bbF (V : Valuation τ sig (Elt F)) (hs : V (Proc.devRef .tc main_v21) = Cert.Spec.seg)
    (hy : V (Proc.devRef .tc main_v11) = Cert.Spec.yVec) (hx : V (Proc.devRef .tc main_v13) = Cert.Spec.xVec) :
    after opsF V (Proc.devRef .tc main_v40) = Cert.Spec.bb := by
  rw [run_eq V hs hy hx]
  refine funext fun (j : S4x16384.Idx) => ?_
  obtain ⟨k, s, rfl⟩ : ∃ (k : Fin 4) (s : Fin 16384), j = ix2 k s := ⟨j 0, j 1, eq_ix2 j⟩
  rw [Cert.Spec.bb_apply]
  exact bb_point k s

end Cert.ReferenceIdeal.Hand

end
-- ==== Proof.RefOut.lean ====
/-
  The reference's four results and its argument after all 216 operations, from any buffer contents: the fold of a
  concatenation is the later stretch's fold of the earlier one's, so the coordinate stretches' result feeds the
  patch-number stretch, and both feed the last one.  No stretch writes a buffer an earlier one's result lives in
  (the "keeps"), which is what lets each stretch be stated on its own over arbitrary contents.
-/
import proofs.«128172_j50629074485716_1_alg».proof.Proof.RefOps
import proofs.«128172_j50629074485716_1_alg».proof.Proof.Spec
import proofs.«128172_j50629074485716_1_alg».proof.Proof.RefIdx
import proofs.«128172_j50629074485716_1_alg».proof.Proof.RefSeg
import proofs.«128172_j50629074485716_1_alg».proof.Proof.RefFvByx
import proofs.«128172_j50629074485716_1_alg».proof.Proof.RefBb
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole program's fold, split at the two cuts. -/
theorem ops_split (V : Valuation τ sig (Elt F)) :
    after ops V = after opsF (after opsE (after opsIdx V)) := by
  show after (opsIdx ++ (opsE ++ opsF)) V = _
  rw [StableHlo.after_append, StableHlo.after_append]

/-- After the coordinate and patch-number stretches the coordinates are still in place … -/
theorem mid_b (V : Valuation τ sig (Elt F)) : after opsE (after opsIdx V) (Proc.devRef .tc main_v9) = Cert.Spec.bVec :=
  (keepE_b _).trans (idx_b V)
theorem mid_y (V : Valuation τ sig (Elt F)) : after opsE (after opsIdx V) (Proc.devRef .tc main_v11) = Cert.Spec.yVec :=
  (keepE_y _).trans (idx_y V)
theorem mid_x (V : Valuation τ sig (Elt F)) : after opsE (after opsIdx V) (Proc.devRef .tc main_v13) = Cert.Spec.xVec :=
  (keepE_x _).trans (idx_x V)
/-- … the patch numbers are computed … -/
theorem mid_seg (V : Valuation τ sig (Elt F)) : after opsE (after opsIdx V) (Proc.devRef .tc main_v21) = Cert.Spec.seg :=
  segE _ (idx_b V) (idx_y V) (idx_x V)
/-- … and the image is as it was. -/
theorem mid_arg0 (V : Valuation τ sig (Elt F)) :
    after opsE (after opsIdx V) (Proc.devRef .tc main_arg0) = V (Proc.devRef .tc main_arg0) :=
  (keepE_arg0 _).trans (idx_arg0 V)

/-- The reference program's four results, and its argument, after all 216 operations from any contents `V`. -/
theorem ref_fv (V : Valuation τ sig (Elt F)) :
    after ops V (Proc.devRef .tc main_v23) = Cert.Spec.fV (V (Proc.devRef .tc main_arg0)) := by
  rw [ops_split, fvF, mid_arg0]
theorem ref_seg (V : Valuation τ sig (Elt F)) : after ops V (Proc.devRef .tc main_v21) = Cert.Spec.seg := by
  rw [ops_split, keepF_seg, mid_seg]
theorem ref_byx (V : Valuation τ sig (Elt F)) : after ops V (Proc.devRef .tc main_v44) = Cert.Spec.byx := by
  rw [ops_split]; exact byxF _ (mid_b V) (mid_y V) (mid_x V)
theorem ref_bb (V : Valuation τ sig (Elt F)) : after ops V (Proc.devRef .tc main_v40) = Cert.Spec.bb := by
  rw [ops_split]; exact bbF _ (mid_seg V) (mid_y V) (mid_x V)
theorem ref_arg0 (V : Valuation τ sig (Elt F)) : after ops V (Proc.devRef .tc main_arg0) = V (Proc.devRef .tc main_arg0) := by
  rw [ops_split, keepF_arg0, mid_arg0]

end Cert.ReferenceIdeal.Hand

end
-- ==== Proof.lean ====
/-
  The kernel program tokenizes a batch of 16 three-channel 512×512 images into 16×16 patches: it moves the channel
  axis last and flattens the pixels (the pixel features), numbers every pixel's patch, lists every pixel's
  coordinates (image, row, column), and gives every patch's bounding box.  The reference computes the same four
  arrays from jnp operations: a transpose and reshape; `unravel_index` of the pixel numbers by floor divisions and
  remainders; the patch number b·1024 + (y div 16)·32 + x div 16; and the boxes as segment minima and maxima of rows and
  columns over the patch numbers (scatter-min and scatter-max from the extreme words).

  The two agree because every patch is a full 16×16 square: patch s = b·1024 + hp·32 + wp holds exactly rows
  hp·16 … hp·16 + 15 and columns wp·16 … wp·16 + 15 of image b, so its least and greatest row and column are the closed
  forms the kernel writes from iotas.  The features are a pure re-indexing of the input (no arithmetic on the floats,
  so nothing depends on the inputs being finite), and all integers stay below 2^31, where the programs' signed 32-bit
  division, remainder, comparison, minimum and maximum are those of the natural numbers.

  Both sides are brought to one specification (Proof/Spec.lean): the kernel's results read off its two regions' output
  arrays through the host reshapes (Proof/KOut.lean), the reference's read off the fold of its 216 host operations
  (Proof/RefOut.lean).  The idealization rewrote nothing, so `preserves` is trivial.
-/
import proofs.«128172_j50629074485716_1_alg».proof.Defs
import proofs.«128172_j50629074485716_1_alg».proof.Proof.Gen.Kernel
import proofs.«128172_j50629074485716_1_alg».proof.Proof.Gen.KernelIdeal
import proofs.«128172_j50629074485716_1_alg».proof.Proof.Gen.ReferenceIdeal
import proofs.«128172_j50629074485716_1_alg».proof.Proof.Gen.Pre_finite_inputs
import proofs.«128172_j50629074485716_1_alg».proof.Proof.FrameKernel
import proofs.«128172_j50629074485716_1_alg».proof.Proof.FrameKernelIdeal
import proofs.«128172_j50629074485716_1_alg».proof.Proof.RunKernelIdeal
import proofs.«128172_j50629074485716_1_alg».proof.Proof.KOut
import proofs.«128172_j50629074485716_1_alg».proof.Proof.RefRun
import proofs.«128172_j50629074485716_1_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs and leaves the image as launched. -/
theorem frame_k : Cert.frame_Kernel := fun m ρ _ => Cert.Kernel.GenP.frame m ρ

/-- The idealized kernel runs and leaves the image as launched. -/
theorem frame_ki : Cert.frame_KernelIdeal := fun m ρ _ => Cert.KernelIdeal.GenP.frame m ρ

/-- The reference runs (a straight line of host operations, none of which writes the image). -/
theorem frame_ri : Cert.frame_ReferenceIdeal := fun m ρ _ =>
  (θ_run Cert.ReferenceIdeal.defs _ _).mono
    (fun _ h c => (h c Cert.ReferenceIdeal.main_arg0).trans (Cert.ReferenceIdeal.Hand.ref_arg0 _))
    (Cert.ReferenceIdeal.Hand.run (F := Ideal) m ρ)

/-- Both idealized programs end with the specification's four arrays — the features of the launched image, which the
    two memories share — and the image unchanged. -/
theorem algebraic : Cert.algebraic_KernelIdeal_ReferenceIdeal := by
  intro m ρ m' ρ' _ hagree
  refine ⟨fun c => Cert.Spec.fV (m ((c.tc : Thread Cert.KernelIdeal.nD Cert.KernelIdeal.τ).loc Cert.KernelIdeal.main_arg0)),
    fun _ => Cert.Spec.seg, fun _ => Cert.Spec.byx, fun _ => Cert.Spec.bb, ?_, ?_⟩
  · refine (θ_run Cert.KernelIdeal.defs _ _).mono (fun r h c => ?_) (Cert.KernelIdeal.GenP.run_results (F := Ideal) m ρ)
    obtain ⟨h1, h2, h3, h5, h0⟩ := h c
    exact ⟨h1.trans (Cert.KernelIdeal.Hand.kernel_fv m ρ c), h2.trans (Cert.KernelIdeal.Hand.kernel_seg m ρ c),
      h3.trans (Cert.KernelIdeal.Hand.kernel_byx m ρ c), h5.trans (Cert.KernelIdeal.Hand.kernel_bb m ρ c), h0⟩
  · refine (θ_run Cert.ReferenceIdeal.defs _ _).mono (fun r h c => ?_) (Cert.ReferenceIdeal.Hand.run (F := Ideal) m' ρ')
    refine ⟨(h c _).trans ((Cert.ReferenceIdeal.Hand.ref_fv _).trans ?_), (h c _).trans (Cert.ReferenceIdeal.Hand.ref_seg _),
      (h c _).trans (Cert.ReferenceIdeal.Hand.ref_byx _), (h c _).trans (Cert.ReferenceIdeal.Hand.ref_bb _),
      (h c _).trans (Cert.ReferenceIdeal.Hand.ref_arg0 _)⟩
    exact congrArg Cert.Spec.fV (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
